-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S3200000 : Shape := ⟨1, ![3200000]⟩
abbrev S8x2 : Shape := ⟨2, ![8, 2]⟩
abbrev S8x3 : Shape := ⟨2, ![8, 3]⟩
abbrev S8 : Shape := ⟨1, ![8]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S8x2 : S_.BroadcastsInDim S8x2 (![] : Fin 0 → Fin S8x2.rank)
  reducesTo_S8x2_S_d0_1 : S8x2.ReducesTo [0, 1] S_
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg4 : IVec S8x2 32) (main_arg6 : IVec S8x3 32) (main_v48 : IVec S_ 1) (main_c_20 : IVec S_ 32) : IVec S_ 1 :=
  let main_v49 : IVec S8x2 32 := broadcastInDim S8x2 ![] bcast_S_S8x2 main_c_20
  let main_v50 : IVec S8x2 1 := cmpi .slt main_arg4 main_v49
  let main_c_21 : IVec S_ 1 := constantI S_ 1 1#1
  let main_v51 : IVec S_ 1 := (fun x v => Host.reduce IntOp.andi x v reducesTo_S8x2_S_d0_1 h_S_) main_v50 main_c_21
  let main_v52 : IVec S_ 1 := andi main_v48 main_v51
  let main_c_22 : IVec S_ 32 := constantI S_ 32 0#32
  let main_v53 : IVec S8x3 32 := broadcastInDim S8x3 ![] bcast_S_S8x3 main_c_22
  let main_v54 : IVec S8x3 1 := cmpi .sge main_arg6 main_v53
  let main_c_23 : IVec S_ 1 := constantI S_ 1 1#1
  let main_v55 : IVec S_ 1 := (fun x v => Host.reduce IntOp.andi x v reducesTo_S8x3_S_d0_1 h_S_) main_v54 main_c_23
  let main_v56 : IVec S_ 1 := andi main_v52 main_v55
  let main_c_24 : IVec S_ 32 := constantI S_ 32 33#32
  let main_v57 : IVec S8x3 32 := broadcastInDim S8x3 ![] bcast_S_S8x3 main_c_24
  let main_v58 : IVec S8x3 1 := cmpi .slt main_arg6 main_v57
  let main_c_25 : IVec S_ 1 := constantI S_ 1 1#1
  let main_v59 : IVec S_ 1 := (fun x v => Host.reduce IntOp.andi x v reducesTo_S8x3_S_d0_1 h_S_) main_v58 main_c_25
  let main_v60 : IVec S_ 1 := andi main_v56 main_v59
  main_v60

def fn_part2 {F : FTy → Type} [FloatOps F] (main_arg2 : IVec S3200000 32) (main_arg3 : IVec S3200000 32) (main_arg4 : IVec S8x2 32) (main_arg6 : IVec S8x3 32) (main_v32 : IVec S_ 1) (main_c_12 : IVec S_ 32) : IVec S_ 1 :=
  let main_v33 : IVec S3200000 32 := broadcastInDim S3200000 ![] bcast_S_S3200000 main_c_12
  let main_v34 : IVec S3200000 1 := cmpi .slt main_arg2 main_v33
  let main_c_13 : IVec S_ 1 := constantI S_ 1 1#1
  let main_v35 : IVec S_ 1 := (fun x v => Host.reduce IntOp.andi x v reducesTo_S3200000_S_d0 h_S_) main_v34 main_c_13
  let main_v36 : IVec S_ 1 := andi main_v32 main_v35
  let main_c_14 : IVec S_ 32 := constantI S_ 32 0#32
  let main_v37 : IVec S3200000 32 := broadcastInDim S3200000 ![] bcast_S_S3200000 main_c_14
  let main_v38 : IVec S3200000 1 := cmpi .sge main_arg3 main_v37
  let main_c_15 : IVec S_ 1 := constantI S_ 1 1#1
  let main_v39 : IVec S_ 1 := (fun x v => Host.reduce IntOp.andi x v reducesTo_S3200000_S_d0 h_S_) main_v38 main_c_15
  let main_v40 : IVec S_ 1 := andi main_v36 main_v39
  let main_c_16 : IVec S_ 32 := constantI S_ 32 100000#32
  let main_v41 : IVec S3200000 32 := broadcastInDim S3200000 ![] bcast_S_S3200000 main_c_16
  let main_v42 : IVec S3200000 1 := cmpi .slt main_arg3 main_v41
  let main_c_17 : IVec S_ 1 := constantI S_ 1 1#1
  let main_v43 : IVec S_ 1 := (fun x v => Host.reduce IntOp.andi x v reducesTo_S3200000_S_d0 h_S_) main_v42 main_c_17
  let main_v44 : IVec S_ 1 := andi main_v40 main_v43
  let main_c_18 : IVec S_ 32 := constantI S_ 32 0#32
  let main_v45 : IVec S8x2 32 := broadcastInDim S8x2 ![] bcast_S_S8x2 main_c_18
  let main_v46 : IVec S8x2 1 := cmpi .sge main_arg4 main_v45
  let main_c_19 : IVec S_ 1 := constantI S_ 1 1#1
  let main_v47 : IVec S_ 1 := (fun x v => Host.reduce IntOp.andi x v reducesTo_S8x2_S_d0_1 h_S_) main_v46 main_c_19
  let main_v48 : IVec S_ 1 := andi main_v44 main_v47
  let main_c_20 : IVec S_ 32 := constantI S_ 32 16#32
  fn_part3 (F := F) main_arg4 main_arg6 main_v48 main_c_20

def fn_part1 {F : FTy → Type} [FloatOps F] (main_arg2 : IVec S3200000 32) (main_arg3 : IVec S3200000 32) (main_arg4 : IVec S8x2 32) (main_arg6 : IVec S8x3 32) (main_arg8 : FVec F S8 .f32) (main_arg9 : FVec F S8 .f32) (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  let main_v19 : FVec F S8 .f32 := Host.absf main_arg8
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8 .f32 := Host.absf main_arg9
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_c_10 : IVec S_ 32 := constantI S_ 32 0#32
  let main_v29 : IVec S3200000 32 := broadcastInDim S3200000 ![] bcast_S_S3200000 main_c_10
  let main_v30 : IVec S3200000 1 := cmpi .sge main_arg2 main_v29
  let main_c_11 : IVec S_ 1 := constantI S_ 1 1#1
  let main_v31 : IVec S_ 1 := (fun x v => Host.reduce IntOp.andi x v reducesTo_S3200000_S_d0 h_S_) main_v30 main_c_11
  let main_v32 : IVec S_ 1 := andi main_v28 main_v31
  let main_c_12 : IVec S_ 32 := constantI S_ 32 100000#32
  fn_part2 (F := F) main_arg2 main_arg3 main_arg4 main_arg6 main_v32 main_c_12

def fn {F : FTy → Type} [FloatOps F] (main_arg0 : FVec F S100000x16 .f32) (main_arg1 : FVec F S3200000 .f32) (main_arg2 : IVec S3200000 32) (main_arg3 : IVec S3200000 32) (main_arg4 : IVec S8x2 32) (main_arg5 : FVec F S8x2 .f32) (main_arg6 : IVec S8x3 32) (main_arg7 : FVec F S8x3 .f32) (main_arg8 : FVec F S8 .f32) (main_arg9 : FVec F S8 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S8x2 .f32 := Host.absf main_arg5
  let main_cst_2 : FVec F S_ .f32 := constant S_ .f32 0x7F800000#32
  let main_v10 : FVec F S8x2 .f32 := broadcastInDim S8x2 ![] bcast_S_S8x2 main_cst_2
  let main_v11 : IVec S8x2 1 := cmpf .olt main_v9 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v8 main_v12
  let main_v14 : FVec F S8x3 .f32 := Host.absf main_arg7
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_arg2 main_arg3 main_arg4 main_arg6 main_arg8 main_arg9 main_v13 main_v16
-- ==== Kernel.lean ====
abbrev S100000x16 : Shape := ⟨2, ![100000, 16]⟩
abbrev S3200000 : Shape := ⟨1, ![3200000]⟩
abbrev S8x2 : Shape := ⟨2, ![8, 2]⟩
abbrev S8x3 : Shape := ⟨2, ![8, 3]⟩
abbrev S8 : Shape := ⟨1, ![8]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S_ : Shape := ⟨0, ![]⟩
abbrev S4000x16 : Shape := ⟨2, ![4000, 16]⟩
abbrev S4000 : Shape := ⟨1, ![4000]⟩
abbrev S4000x1 : Shape := ⟨2, ![4000, 1]⟩
abbrev S3200000x1 : Shape := ⟨2, ![3200000, 1]⟩
abbrev S1 : Shape := ⟨1, ![1]⟩
abbrev S1x1 : Shape := ⟨2, ![1, 1]⟩
abbrev S3200000x16 : Shape := ⟨2, ![3200000, 16]⟩
abbrev S24 : Shape := ⟨1, ![24]⟩
abbrev S1x24 : Shape := ⟨2, ![1, 24]⟩
abbrev S24x1 : Shape := ⟨2, ![24, 1]⟩
abbrev S1x33 : Shape := ⟨2, ![1, 33]⟩
abbrev S24x33 : Shape := ⟨2, ![24, 33]⟩
abbrev S33x24 : Shape := ⟨2, ![33, 24]⟩
abbrev S24x24 : Shape := ⟨2, ![24, 24]⟩
abbrev S16x24 : Shape := ⟨2, ![16, 24]⟩
abbrev S24x16 : Shape := ⟨2, ![24, 16]⟩
abbrev S3200000x33 : Shape := ⟨2, ![3200000, 33]⟩
abbrev S5000x16 : Shape := ⟨2, ![5000, 16]⟩
abbrev S5000x1 : Shape := ⟨2, ![5000, 1]⟩
abbrev S5000x33 : Shape := ⟨2, ![5000, 33]⟩
abbrev S5000x24 : Shape := ⟨2, ![5000, 24]⟩
abbrev S5000 : Shape := ⟨1, ![5000]⟩

abbrev nBuf : Space → Nat
  | .hbm => 167
  | .vmem => 26
  | .smem => 0
  | _ => 0

abbrev hbmTy0_0 (i : Nat) : BufTy := match i % 128 with
  | 0 => ⟨S100000x16, .f32⟩
  | 1 => ⟨S3200000, .f32⟩
  | 2 => ⟨S3200000, .i32⟩
  | 3 => ⟨S3200000, .i32⟩
  | 4 => ⟨S8x2, .i32⟩
  | 5 => ⟨S8x2, .f32⟩
  | 6 => ⟨S8x3, .i32⟩
  | 7 => ⟨S8x3, .f32⟩
  | 8 => ⟨S8, .f32⟩
  | 9 => ⟨S8, .f32⟩
  | 10 => ⟨S16, .i32⟩
  | 11 => ⟨S1x16, .f32⟩
  | 12 => ⟨S8x2, .f32⟩
  | 13 => ⟨S16, .f32⟩
  | 14 => ⟨S1x16, .f32⟩
  | 15 => ⟨S16x1, .i32⟩
  | 16 => ⟨S1x16, .i32⟩
  | 17 => ⟨S16x16, .i32⟩
  | 18 => ⟨S16x16, .i32⟩
  | 19 => ⟨S16x16, .i1⟩
  | 20 => ⟨S16x16, .f32⟩
  | 21 => ⟨S16x16, .f32⟩
  | 22 => ⟨S16, .i32⟩
  | 23 => ⟨S_, .i32⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i1⟩
  | 31 => ⟨S16, .i32⟩
  | 32 => ⟨S16, .i32⟩
  | 33 => ⟨S_, .i32⟩
  | 34 => ⟨S16, .i32⟩
  | 35 => ⟨S16, .i1⟩
  | 36 => ⟨S16, .i1⟩
  | 37 => ⟨S_, .i32⟩
  | 38 => ⟨S16, .i32⟩
  | 39 => ⟨S16, .i32⟩
  | 40 => ⟨S16, .i32⟩
  | 41 => ⟨S16x1, .i32⟩
  | 42 => ⟨S1x16, .i32⟩
  | 43 => ⟨S16x16, .i32⟩
  | 44 => ⟨S16x16, .i32⟩
  | 45 => ⟨S16x16, .i1⟩
  | 46 => ⟨S16x16, .f32⟩
  | 47 => ⟨S100000x16, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S1, .i32⟩
  | 57 => ⟨S_, .i32⟩
  | 58 => ⟨S3200000x1, .i32⟩
  | 59 => ⟨S3200000x1, .i1⟩
  | 60 => ⟨S1x1, .i32⟩
  | 61 => ⟨S3200000x1, .i32⟩
  | 62 => ⟨S3200000x1, .i1⟩
  | 63 => ⟨S3200000x1, .i1⟩
  | 64 => ⟨S_, .i1⟩
  | 65 => ⟨S3200000, .i1⟩
  | 66 => ⟨S3200000x16, .f32⟩
  | 67 => ⟨S3200000x16, .i1⟩
  | 68 => ⟨S_, .f32⟩
  | 69 => ⟨S3200000x16, .f32⟩
  | 70 => ⟨S3200000x16, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S1, .i32⟩
  | 80 => ⟨S_, .i32⟩
  | 81 => ⟨S3200000x1, .i32⟩
  | 82 => ⟨S3200000x1, .i1⟩
  | 83 => ⟨S1x1, .i32⟩
  | 84 => ⟨S3200000x1, .i32⟩
  | 85 => ⟨S3200000x1, .i1⟩
  | 86 => ⟨S3200000x1, .i1⟩
  | 87 => ⟨S_, .i1⟩
  | 88 => ⟨S3200000, .i1⟩
  | 89 => ⟨S3200000x16, .f32⟩
  | 90 => ⟨S3200000x16, .i1⟩
  | 91 => ⟨S_, .f32⟩
  | 92 => ⟨S3200000x16, .f32⟩
  | 93 => ⟨S3200000x16, .f32⟩
  | 94 => ⟨S3200000x1, .f32⟩
  | 95 => ⟨S24, .i32⟩
  | 96 => ⟨S1x24, .f32⟩
  | 97 => ⟨S8x3, .f32⟩
  | 98 => ⟨S24, .f32⟩
  | 99 => ⟨S1x24, .f32⟩
  | 100 => ⟨S24x1, .i32⟩
  | 101 => ⟨S1x33, .i32⟩
  | 102 => ⟨S24x33, .i32⟩
  | 103 => ⟨S24x33, .i32⟩
  | 104 => ⟨S24x33, .i1⟩
  | 105 => ⟨S24x33, .f32⟩
  | 106 => ⟨S33x24, .f32⟩
  | 107 => ⟨S24, .i32⟩
  | 108 => ⟨S_, .i32⟩
  | 109 => ⟨S_, .i32⟩
  | 110 => ⟨S24, .i32⟩
  | 111 => ⟨S24, .i32⟩
  | 112 => ⟨S24, .i32⟩
  | 113 => ⟨S_, .i32⟩
  | 114 => ⟨S24, .i32⟩
  | 115 => ⟨S24, .i1⟩
  | 116 => ⟨S24, .i32⟩
  | 117 => ⟨S24, .i32⟩
  | 118 => ⟨S_, .i32⟩
  | 119 => ⟨S24, .i32⟩
  | 120 => ⟨S24, .i1⟩
  | 121 => ⟨S24, .i1⟩
  | 122 => ⟨S_, .i32⟩
  | 123 => ⟨S24, .i32⟩
  | 124 => ⟨S24, .i32⟩
  | 125 => ⟨S24, .i32⟩
  | 126 => ⟨S24x1, .i32⟩
  | 127 => ⟨S1x24, .i32⟩
  | _ => ⟨S100000x16, .f32⟩

abbrev hbmTy0_1 (i : Nat) : BufTy := match i % 128 with
  | 0 => ⟨S24x24, .i32⟩
  | 1 => ⟨S24x24, .i32⟩
  | 2 => ⟨S24x24, .i1⟩
  | 3 => ⟨S24x24, .f32⟩
  | 4 => ⟨S16x24, .f32⟩
  | 5 => ⟨S16x24, .f32⟩
  | 6 => ⟨S1x24, .f32⟩
  | 7 => ⟨S24x16, .f32⟩
  | 8 => ⟨S24x16, .f32⟩
  | 9 => ⟨S24x1, .f32⟩
  | 10 => ⟨S3200000x33, .f32⟩
  | 11 => ⟨S3200000x16, .f32⟩
  | 12 => ⟨S3200000x16, .f32⟩
  | 13 => ⟨S3200000x1, .f32⟩
  | 14 => ⟨S3200000, .f32⟩
  | 15 => ⟨S_, .f32⟩
  | 16 => ⟨S100000x16, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S100000x16, .f32⟩
  | 26 => ⟨S_, .f32⟩
  | 27 => ⟨S100000x16, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S100000x16, .f32⟩
  | 37 => ⟨S100000x16, .f32⟩
  | 38 => ⟨S100000x16, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S4000x16, .f32⟩
  | .local _ .vmem, ⟨1, _⟩ => ⟨S4000x16, .f32⟩
  | .local _ .vmem, ⟨2, _⟩ => ⟨S16x16, .f32⟩
  | .local _ .vmem, ⟨3, _⟩ => ⟨S16x16, .f32⟩
  | .local _ .vmem, ⟨4, _⟩ => ⟨S16x16, .f32⟩
  | .local _ .vmem, ⟨5, _⟩ => ⟨S1x16, .f32⟩
  | .local _ .vmem, ⟨6, _⟩ => ⟨S1x16, .f32⟩
  | .local _ .vmem, ⟨7, _⟩ => ⟨S4000x16, .f32⟩
  | .local _ .vmem, ⟨8, _⟩ => ⟨S4000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S16x24, .f32⟩
  | .local _ .vmem, ⟨16, _⟩ => ⟨S16x24, .f32⟩
  | .local _ .vmem, ⟨17, _⟩ => ⟨S1x24, .f32⟩
  | .local _ .vmem, ⟨18, _⟩ => ⟨S24x16, .f32⟩
  | .local _ .vmem, ⟨19, _⟩ => ⟨S24x16, .f32⟩
  | .local _ .vmem, ⟨20, _⟩ => ⟨S24x1, .f32⟩
  | .local _ .vmem, ⟨21, _⟩ => ⟨S24x24, .f32⟩
  | .local _ .vmem, ⟨22, _⟩ => ⟨S1x24, .f32⟩
  | .local _ .vmem, ⟨23, _⟩ => ⟨S1x24, .f32⟩
  | .local _ .vmem, ⟨24, _⟩ => ⟨S5000x33, .f32⟩
  | .local _ .vmem, ⟨25, _⟩ => ⟨S5000x33, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v16 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_c_0 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_c : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_c_0 : Ref sig .tc := ⟨.hbm, 122, rfl⟩
abbrev main_call5_v12 : Ref sig .tc := ⟨.hbm, 123, rfl⟩
abbrev main_call5_v13 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_cst : Ref sig .tc := ⟨.hbm, 143, rfl⟩
abbrev main_v45 : Ref sig .tc := ⟨.hbm, 144, rfl⟩
abbrev main_c_1 : Ref sig .tc := ⟨.hbm, 145, rfl⟩
abbrev main_v46 : Ref sig .tc := ⟨.hbm, 146, rfl⟩
abbrev main_v47 : Ref sig .tc := ⟨.hbm, 147, rfl⟩
abbrev main_c_2 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_cst_3 : Ref sig .tc := ⟨.hbm, 154, rfl⟩
abbrev main_v53 : Ref sig .tc := ⟨.hbm, 155, rfl⟩
abbrev main_c_4 : Ref sig .tc := ⟨.hbm, 156, rfl⟩
abbrev main_v54 : Ref sig .tc := ⟨.hbm, 157, rfl⟩
abbrev main_v55 : Ref sig .tc := ⟨.hbm, 158, rfl⟩
abbrev main_c_5 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![640], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x24 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S24x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S24x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S24x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S24x24 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x24 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x24 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x33 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S8x2_S16 : S8x2.ShapeCasts S16
  shapeCasts_S8x2_S1x16 : S8x2.ShapeCasts S1x16
  bcast_S8_S8x2_0 : S8.BroadcastsInDim S8x2 (![0] : Fin 1 → Fin S8x2.rank)
  shapeCasts_S16_S1x16 : S16.ShapeCasts S1x16
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  transposes_S16x16_S16x16_1_0 : S16x16.Transposes [1, 0] S16x16
  bcast_S_S16 : S_.BroadcastsInDim S16 (![] : Fin 0 → Fin S16.rank)
  transposes_S16x1_S1x16_1_0 : S16x1.Transposes [1, 0] S1x16
  inb_S4000x16_S4000x16_0_0 : ∀ a, (![0, 0] : Fin 2 → Nat) a + S4000x16.size a ≤ S4000x16.size a
  h_S4000x16 : 0 < S4000x16.numel
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  reduces_S4000x16_S4000 : S4000x16.Reduces [1] S4000
  shapeCasts_S4000_S4000x1 : S4000.ShapeCasts S4000x1
  broadcasts_S4000x1_S4000x16 : S4000x1.Broadcasts S4000x16
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  shapeCasts_S8x3_S24 : S8x3.ShapeCasts S24
  shapeCasts_S8x3_S1x24 : S8x3.ShapeCasts S1x24
  bcast_S8_S8x3_0 : S8.BroadcastsInDim S8x3 (![0] : Fin 1 → Fin S8x3.rank)
  shapeCasts_S24_S1x24 : S24.ShapeCasts S1x24
  bcast_S24_S24x1_0 : S24.BroadcastsInDim S24x1 (![0] : Fin 1 → Fin S24x1.rank)
  bcast_S24x1_S24x33_0_1 : S24x1.BroadcastsInDim S24x33 (![0, 1] : Fin 2 → Fin S24x33.rank)
  bcast_S1x33_S24x33_0_1 : S1x33.BroadcastsInDim S24x33 (![0, 1] : Fin 2 → Fin S24x33.rank)
  transposes_S24x33_S33x24_1_0 : S24x33.Transposes [1, 0] S33x24
  bcast_S_S24 : S_.BroadcastsInDim S24 (![] : Fin 0 → Fin S24.rank)
  transposes_S24x1_S1x24_1_0 : S24x1.Transposes [1, 0] S1x24
  bcast_S24x1_S24x24_0_1 : S24x1.BroadcastsInDim S24x24 (![0, 1] : Fin 2 → Fin S24x24.rank)
  bcast_S1x24_S24x24_0_1 : S1x24.BroadcastsInDim S24x24 (![0, 1] : Fin 2 → Fin S24x24.rank)
  slices_S33x24_S16x24_0_0 : S33x24.Slices ![0, 0] S16x24
  slices_S33x24_S16x24_16_0 : S33x24.Slices ![16, 0] S16x24
  slices_S33x24_S1x24_32_0 : S33x24.Slices ![32, 0] S1x24
  slices_S24x33_S24x16_0_0 : S24x33.Slices ![0, 0] S24x16
  slices_S24x33_S24x16_0_16 : S24x33.Slices ![0, 16] S24x16
  slices_S24x33_S24x1_0_32 : S24x33.Slices ![0, 32] S24x1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S5000x24 : S1x24.Broadcasts S5000x24
  inb_S16x24_S16x24_0_0 : ∀ a, (![0, 0] : Fin 2 → Nat) a + S16x24.size a ≤ S16x24.size a
  h_S16x24 : 0 < S16x24.numel
  shapeCasts_S16x24_S16x24 : S16x24.ShapeCasts S16x24
  broadcasts_S5000x1_S5000x24 : S5000x1.Broadcasts S5000x24
  reduces_S5000x24_S5000 : S5000x24.Reduces [1] S5000
  shapeCasts_S5000_S5000x1 : S5000.ShapeCasts S5000x1
  inb_S24x24_S24x24_0_0 : ∀ a, (![0, 0] : Fin 2 → Nat) a + S24x24.size a ≤ S24x24.size a
  h_S24x24 : 0 < S24x24.numel
  shapeCasts_S24x24_S24x24 : S24x24.ShapeCasts S24x24
  inb_S24x16_S24x16_0_0 : ∀ a, (![0, 0] : Fin 2 → Nat) a + S24x16.size a ≤ S24x16.size a
  h_S24x16 : 0 < S24x16.numel
  shapeCasts_S24x16_S24x16 : S24x16.ShapeCasts S24x16
  inb_S24x1_S24x1_0_0 : ∀ a, (![0, 0] : Fin 2 → Nat) a + S24x1.size a ≤ S24x1.size a
  h_S24x1 : 0 < S24x1.numel
  shapeCasts_S24x1_S24x1 : S24x1.ShapeCasts S24x1
  inb_S5000x33_S5000x16_0_0 : ∀ a, (![0, 0] : Fin 2 → Nat) a + S5000x16.size a ≤ S5000x33.size a
  inb_S5000x33_S5000x16_0_16 : ∀ a, (![0, 16] : Fin 2 → Nat) a + S5000x16.size a ≤ S5000x33.size a
  inb_S5000x33_S5000x1_0_32 : ∀ a, (![0, 32] : Fin 2 → Nat) a + S5000x1.size a ≤ S5000x33.size a
  slices_S3200000x33_S3200000x16_0_0 : S3200000x33.Slices ![0, 0] S3200000x16
  slices_S3200000x33_S3200000x16_0_16 : S3200000x33.Slices ![0, 16] S3200000x16
  slices_S3200000x33_S3200000x1_0_32 : S3200000x33.Slices ![0, 32] S3200000x1
  shapeCasts_S3200000x1_S3200000 : S3200000x1.ShapeCasts S3200000
  bcast_S_S100000x16 : S_.BroadcastsInDim S100000x16 (![] : Fin 0 → Fin S100000x16.rank)
  dot_S4000x16_S16x16_S4000x16_1_0_0_1_n_n_wf : DotDims.WF S4000x16 S16x16 S4000x16 [1] [0] [0] [1] [] []
  gather_S100000x16_S3200000x1_S3200000x16_1_0_n_n_0_1_116_wf : GatherDims.WF S100000x16 S3200000x1 S3200000x16 [1] [0] [] [0] [] 1 ![1, 16]
  dot_S5000x16_S16x24_S5000x24_1_0_0_1_n_n_wf : DotDims.WF S5000x16 S16x24 S5000x24 [1] [0] [0] [1] [] []
  dot_S5000x24_S24x24_S5000x24_1_0_0_1_n_n_wf : DotDims.WF S5000x24 S24x24 S5000x24 [1] [0] [0] [1] [] []
  dot_S5000x24_S24x16_S5000x16_1_0_0_1_n_n_wf : DotDims.WF S5000x24 S24x16 S5000x16 [1] [0] [0] [1] [] []
  dot_S5000x24_S24x1_S5000x1_1_0_0_1_n_n_wf : DotDims.WF S5000x24 S24x1 S5000x1 [1] [0] [0] [1] [] []
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x16.size a ≤ S100000x16.size a
  hwx0_6 : ∀ i : grid0.Coords, EltTy.bits .f32 = 32 ∨ (Rect.block (s := S100000x16) S4000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S3200000x16.size a
  hwx1_0 : ∀ i : grid1.Coords, EltTy.bits .f32 = 32 ∨ (Rect.block (s := S3200000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S3200000x16.size a
  hwx1_1 : ∀ i : grid1.Coords, EltTy.bits .f32 = 32 ∨ (Rect.block (s := S3200000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S3200000x1.size a
  hwx1_2 : ∀ i : grid1.Coords, EltTy.bits .f32 = 32 ∨ (Rect.block (s := S3200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x24.size a ≤ S16x24.size a
  hwx1_3 : ∀ i : grid1.Coords, EltTy.bits .f32 = 32 ∨ (Rect.block (s := S16x24) S16x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x24.size a ≤ S16x24.size a
  hwx1_4 : ∀ i : grid1.Coords, EltTy.bits .f32 = 32 ∨ (Rect.block (s := S16x24) S16x24.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x24.size a ≤ S1x24.size a
  hwx1_5 : ∀ i : grid1.Coords, EltTy.bits .f32 = 32 ∨ (Rect.block (s := S1x24) S1x24.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S24x16.size a ≤ S24x16.size a
  hwx1_6 : ∀ i : grid1.Coords, EltTy.bits .f32 = 32 ∨ (Rect.block (s := S24x16) S24x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S24x16.size a ≤ S24x16.size a
  hwx1_7 : ∀ i : grid1.Coords, EltTy.bits .f32 = 32 ∨ (Rect.block (s := S24x16) S24x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S24x1.size a ≤ S24x1.size a
  hwx1_8 : ∀ i : grid1.Coords, EltTy.bits .f32 = 32 ∨ (Rect.block (s := S24x1) S24x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S24x24.size a ≤ S24x24.size a
  hwx1_9 : ∀ i : grid1.Coords, EltTy.bits .f32 = 32 ∨ (Rect.block (s := S24x24) S24x24.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x24.size a ≤ S1x24.size a
  hwx1_10 : ∀ i : grid1.Coords, EltTy.bits .f32 = 32 ∨ (Rect.block (s := S1x24) S1x24.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x24.size a ≤ S1x24.size a
  hwx1_11 : ∀ i : grid1.Coords, EltTy.bits .f32 = 32 ∨ (Rect.block (s := S1x24) S1x24.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x33.size a ≤ S3200000x33.size a
  hwx1_12 : ∀ i : grid1.Coords, EltTy.bits .f32 = 32 ∨ (Rect.block (s := S3200000x33) S5000x33.size (cc1_transform_12 i) (hinb1_12 i)).WholeWords (EltTy.packing .f32)

variable [Facts₀]

def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S5000x16_S16x24_S5000x24_1_0_0_1_n_n : DotDims S5000x16 S16x24 S5000x24 where
  lhsContracting := [1]
  rhsContracting := [0]
  lhsNonContracting := [0]
  rhsNonContracting := [1]
  lhsBatch := []
  rhsBatch := []
  wf := dot_S5000x16_S16x24_S5000x24_1_0_0_1_n_n_wf
def dot_S5000x24_S24x24_S5000x24_1_0_0_1_n_n : DotDims S5000x24 S24x24 S5000x24 where
  lhsContracting := [1]
  rhsContracting := [0]
  lhsNonContracting := [0]
  rhsNonContracting := [1]
  lhsBatch := []
  rhsBatch := []
  wf := dot_S5000x24_S24x24_S5000x24_1_0_0_1_n_n_wf
def dot_S5000x24_S24x16_S5000x16_1_0_0_1_n_n : DotDims S5000x24 S24x16 S5000x16 where
  lhsContracting := [1]
  rhsContracting := [0]
  lhsNonContracting := [0]
  rhsNonContracting := [1]
  lhsBatch := []
  rhsBatch := []
  wf := dot_S5000x24_S24x16_S5000x16_1_0_0_1_n_n_wf
def dot_S5000x24_S24x1_S5000x1_1_0_0_1_n_n : DotDims S5000x24 S24x1 S5000x1 where
  lhsContracting := [1]
  rhsContracting := [0]
  lhsNonContracting := [0]
  rhsNonContracting := [1]
  lhsBatch := []
  rhsBatch := []
  wf := dot_S5000x24_S24x1_S5000x1_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S16x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S16x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x24.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S24x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S24x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S24x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S24x24.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x24.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23) S1x24.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v40) S5000x33.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x16 : Shape := ⟨2, ![100000, 16]⟩
abbrev S3200000 : Shape := ⟨1, ![3200000]⟩
abbrev S8x2 : Shape := ⟨2, ![8, 2]⟩
abbrev S8x3 : Shape := ⟨2, ![8, 3]⟩
abbrev S8 : Shape := ⟨1, ![8]⟩
abbrev S1x8x2 : Shape := ⟨3, ![1, 8, 2]⟩
abbrev S_ : Shape := ⟨0, ![]⟩
abbrev S8x2x1 : Shape := ⟨3, ![8, 2, 1]⟩
abbrev S100000x8x2 : Shape := ⟨3, ![100000, 8, 2]⟩
abbrev S1x8x1 : Shape := ⟨3, ![1, 8, 1]⟩
abbrev S100000x8 : Shape := ⟨2, ![100000, 8]⟩
abbrev S100000x8x1 : Shape := ⟨3, ![100000, 8, 1]⟩
abbrev S16 : Shape := ⟨1, ![16]⟩
abbrev S16x1 : Shape := ⟨2, ![16, 1]⟩
abbrev S3200000x1 : Shape := ⟨2, ![3200000, 1]⟩
abbrev S3200000x16 : Shape := ⟨2, ![3200000, 16]⟩
abbrev S3200000x33 : Shape := ⟨2, ![3200000, 33]⟩
abbrev S1x8x3 : Shape := ⟨3, ![1, 8, 3]⟩
abbrev S8x3x1 : Shape := ⟨3, ![8, 3, 1]⟩
abbrev S3200000x8x3 : Shape := ⟨3, ![3200000, 8, 3]⟩
abbrev S3200000x8 : Shape := ⟨2, ![3200000, 8]⟩
abbrev S3200000x8x1 : Shape := ⟨3, ![3200000, 8, 1]⟩
abbrev S24 : Shape := ⟨1, ![24]⟩
abbrev S3200000x24 : Shape := ⟨2, ![3200000, 24]⟩
abbrev S24x1 : Shape := ⟨2, ![24, 1]⟩

abbrev nBuf : Space → Nat
  | .hbm => 150
  | .vmem => 0
  | .smem => 0
  | _ => 0

abbrev hbmTy0_0 (i : Nat) : BufTy := match i % 128 with
  | 0 => ⟨S100000x16, .f32⟩
  | 1 => ⟨S3200000, .f32⟩
  | 2 => ⟨S3200000, .i32⟩
  | 3 => ⟨S3200000, .i32⟩
  | 4 => ⟨S8x2, .i32⟩
  | 5 => ⟨S8x2, .f32⟩
  | 6 => ⟨S8x3, .i32⟩
  | 7 => ⟨S8x3, .f32⟩
  | 8 => ⟨S8, .f32⟩
  | 9 => ⟨S8, .f32⟩
  | 10 => ⟨S1x8x2, .f32⟩
  | 11 => ⟨S_, .i32⟩
  | 12 => ⟨S8x2, .i32⟩
  | 13 => ⟨S8x2, .i1⟩
  | 14 => ⟨S_, .i32⟩
  | 15 => ⟨S8x2, .i32⟩
  | 16 => ⟨S8x2, .i32⟩
  | 17 => ⟨S8x2, .i32⟩
  | 18 => ⟨S8x2x1, .i32⟩
  | 19 => ⟨S100000x8x2, .f32⟩
  | 20 => ⟨S100000x8x2, .f32⟩
  | 21 => ⟨S100000x8x2, .f32⟩
  | 22 => ⟨S1x8x1, .f32⟩
  | 23 => ⟨S_, .f32⟩
  | 24 => ⟨S100000x8, .f32⟩
  | 25 => ⟨S_, .f32⟩
  | 26 => ⟨S100000x8, .f32⟩
  | 27 => ⟨S100000x8, .f32⟩
  | 28 => ⟨S100000x8x1, .f32⟩
  | 29 => ⟨S100000x8x2, .f32⟩
  | 30 => ⟨S100000x8x2, .f32⟩
  | 31 => ⟨S100000x8x2, .f32⟩
  | 32 => ⟨S_, .f32⟩
  | 33 => ⟨S100000x8, .f32⟩
  | 34 => ⟨S100000x8x1, .f32⟩
  | 35 => ⟨S100000x8x2, .f32⟩
  | 36 => ⟨S100000x8x2, .f32⟩
  | 37 => ⟨S100000x8x2, .f32⟩
  | 38 => ⟨S100000x8x2, .f32⟩
  | 39 => ⟨S1x8x2, .f32⟩
  | 40 => ⟨S100000x8x2, .f32⟩
  | 41 => ⟨S100000x8x2, .f32⟩
  | 42 => ⟨S_, .f32⟩
  | 43 => ⟨S100000x16, .f32⟩
  | 44 => ⟨S16, .i32⟩
  | 45 => ⟨S100000x16, .f32⟩
  | 46 => ⟨S_, .i32⟩
  | 47 => ⟨S16, .i32⟩
  | 48 => ⟨S16, .i1⟩
  | 49 => ⟨S_, .i32⟩
  | 50 => ⟨S16, .i32⟩
  | 51 => ⟨S16, .i32⟩
  | 52 => ⟨S16, .i32⟩
  | 53 => ⟨S16x1, .i32⟩
  | 54 => ⟨S100000x16, .f32⟩
  | 55 => ⟨S100000x16, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x16, .f32⟩
  | 65 => ⟨S_, .i32⟩
  | 66 => ⟨S3200000, .i32⟩
  | 67 => ⟨S3200000, .i1⟩
  | 68 => ⟨S_, .i32⟩
  | 69 => ⟨S3200000, .i32⟩
  | 70 => ⟨S3200000, .i32⟩
  | 71 => ⟨S3200000, .i32⟩
  | 72 => ⟨S3200000x1, .i32⟩
  | 73 => ⟨S3200000x16, .f32⟩
  | 74 => ⟨S3200000x1, .f32⟩
  | 75 => ⟨S3200000x33, .f32⟩
  | 76 => ⟨S1x8x3, .f32⟩
  | 77 => ⟨S_, .i32⟩
  | 78 => ⟨S8x3, .i32⟩
  | 79 => ⟨S8x3, .i1⟩
  | 80 => ⟨S_, .i32⟩
  | 81 => ⟨S8x3, .i32⟩
  | 82 => ⟨S8x3, .i32⟩
  | 83 => ⟨S8x3, .i32⟩
  | 84 => ⟨S8x3x1, .i32⟩
  | 85 => ⟨S3200000x8x3, .f32⟩
  | 86 => ⟨S3200000x8x3, .f32⟩
  | 87 => ⟨S3200000x8x3, .f32⟩
  | 88 => ⟨S1x8x1, .f32⟩
  | 89 => ⟨S_, .f32⟩
  | 90 => ⟨S3200000x8, .f32⟩
  | 91 => ⟨S_, .f32⟩
  | 92 => ⟨S3200000x8, .f32⟩
  | 93 => ⟨S3200000x8, .f32⟩
  | 94 => ⟨S3200000x8x1, .f32⟩
  | 95 => ⟨S3200000x8x3, .f32⟩
  | 96 => ⟨S3200000x8x3, .f32⟩
  | 97 => ⟨S3200000x8x3, .f32⟩
  | 98 => ⟨S_, .f32⟩
  | 99 => ⟨S3200000x8, .f32⟩
  | 100 => ⟨S3200000x8x1, .f32⟩
  | 101 => ⟨S3200000x8x3, .f32⟩
  | 102 => ⟨S3200000x8x3, .f32⟩
  | 103 => ⟨S3200000x8x3, .f32⟩
  | 104 => ⟨S3200000x8x3, .f32⟩
  | 105 => ⟨S1x8x3, .f32⟩
  | 106 => ⟨S3200000x8x3, .f32⟩
  | 107 => ⟨S3200000x8x3, .f32⟩
  | 108 => ⟨S_, .f32⟩
  | 109 => ⟨S3200000x33, .f32⟩
  | 110 => ⟨S24, .i32⟩
  | 111 => ⟨S3200000x24, .f32⟩
  | 112 => ⟨S_, .i32⟩
  | 113 => ⟨S24, .i32⟩
  | 114 => ⟨S24, .i1⟩
  | 115 => ⟨S_, .i32⟩
  | 116 => ⟨S24, .i32⟩
  | 117 => ⟨S24, .i32⟩
  | 118 => ⟨S24, .i32⟩
  | 119 => ⟨S24x1, .i32⟩
  | 120 => ⟨S3200000x33, .f32⟩
  | 121 => ⟨S3200000x16, .f32⟩
  | 122 => ⟨S3200000x16, .f32⟩
  | 123 => ⟨S3200000x1, .f32⟩
  | 124 => ⟨S3200000, .f32⟩
  | 125 => ⟨S_, .f32⟩
  | 126 => ⟨S100000x16, .f32⟩
  | 127 => ⟨S_, .i32⟩
  | _ => ⟨S100000x16, .f32⟩

abbrev hbmTy0_1 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S100000x16, .f32⟩
  | 8 => ⟨S_, .f32⟩
  | 9 => ⟨S100000x16, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S100000x16, .f32⟩
  | 19 => ⟨S100000x16, .f32⟩
  | 20 => ⟨S100000x16, .f32⟩
  | 21 => ⟨S3200000, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_c_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_c_19 : Ref sig .tc := ⟨.hbm, 127, rfl⟩
abbrev main_v96 : Ref sig .tc := ⟨.hbm, 128, rfl⟩
abbrev main_v97 : Ref sig .tc := ⟨.hbm, 129, rfl⟩
abbrev main_c_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_21 : Ref sig .tc := ⟨.hbm, 136, rfl⟩
abbrev main_v103 : Ref sig .tc := ⟨.hbm, 137, rfl⟩
abbrev main_c_22 : Ref sig .tc := ⟨.hbm, 138, rfl⟩
abbrev main_v104 : Ref sig .tc := ⟨.hbm, 139, rfl⟩
abbrev main_v105 : Ref sig .tc := ⟨.hbm, 140, rfl⟩
abbrev main_c_23 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]

class Facts₀ : Prop where
  bcast_S8x2_S1x8x2_1_2 : S8x2.BroadcastsInDim S1x8x2 (![1, 2] : Fin 2 → Fin S1x8x2.rank)
  bcast_S_S8x2 : S_.BroadcastsInDim S8x2 (![] : Fin 0 → Fin S8x2.rank)
  bcast_S8x2_S8x2x1_0_1 : S8x2.BroadcastsInDim S8x2x1 (![0, 1] : Fin 2 → Fin S8x2x1.rank)
  bcast_S1x8x2_S100000x8x2_0_1_2 : S1x8x2.BroadcastsInDim S100000x8x2 (![0, 1, 2] : Fin 3 → Fin S100000x8x2.rank)
  bcast_S8_S1x8x1_1 : S8.BroadcastsInDim S1x8x1 (![1] : Fin 1 → Fin S1x8x1.rank)
  reducesTo_S100000x8x2_S100000x8_d2 : S100000x8x2.ReducesTo [2] S100000x8
  h_S_ : 0 < S_.numel
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  bcast_S100000x8x1_S100000x8x2_0_1_2 : S100000x8x1.BroadcastsInDim S100000x8x2 (![0, 1, 2] : Fin 3 → Fin S100000x8x2.rank)
  bcast_S1x8x1_S100000x8x2_0_1_2 : S1x8x1.BroadcastsInDim S100000x8x2 (![0, 1, 2] : Fin 3 → Fin S100000x8x2.rank)
  bcast_S_S100000x16 : S_.BroadcastsInDim S100000x16 (![] : Fin 0 → Fin S100000x16.rank)
  shapeCasts_S8x2_S16 : S8x2.ShapeCasts S16
  shapeCasts_S100000x8x2_S100000x16 : S100000x8x2.ShapeCasts S100000x16
  bcast_S_S16 : S_.BroadcastsInDim S16 (![] : Fin 0 → Fin S16.rank)
  bcast_S16_S16x1_0 : S16.BroadcastsInDim S16x1 (![0] : Fin 1 → Fin S16x1.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x1_S3200000x33_d1 : Shape.Concatenates [S3200000x16, S3200000x16, S3200000x1] S3200000x33 1
  bcast_S8x3_S1x8x3_1_2 : S8x3.BroadcastsInDim S1x8x3 (![1, 2] : Fin 2 → Fin S1x8x3.rank)
  bcast_S_S8x3 : S_.BroadcastsInDim S8x3 (![] : Fin 0 → Fin S8x3.rank)
  bcast_S8x3_S8x3x1_0_1 : S8x3.BroadcastsInDim S8x3x1 (![0, 1] : Fin 2 → Fin S8x3x1.rank)
  bcast_S1x8x3_S3200000x8x3_0_1_2 : S1x8x3.BroadcastsInDim S3200000x8x3 (![0, 1, 2] : Fin 3 → Fin S3200000x8x3.rank)
  reducesTo_S3200000x8x3_S3200000x8_d2 : S3200000x8x3.ReducesTo [2] S3200000x8
  bcast_S_S3200000x8 : S_.BroadcastsInDim S3200000x8 (![] : Fin 0 → Fin S3200000x8.rank)
  bcast_S3200000x8_S3200000x8x1_0_1 : S3200000x8.BroadcastsInDim S3200000x8x1 (![0, 1] : Fin 2 → Fin S3200000x8x1.rank)
  bcast_S3200000x8x1_S3200000x8x3_0_1_2 : S3200000x8x1.BroadcastsInDim S3200000x8x3 (![0, 1, 2] : Fin 3 → Fin S3200000x8x3.rank)
  bcast_S1x8x1_S3200000x8x3_0_1_2 : S1x8x1.BroadcastsInDim S3200000x8x3 (![0, 1, 2] : Fin 3 → Fin S3200000x8x3.rank)
  bcast_S_S3200000x33 : S_.BroadcastsInDim S3200000x33 (![] : Fin 0 → Fin S3200000x33.rank)
  shapeCasts_S8x3_S24 : S8x3.ShapeCasts S24
  shapeCasts_S3200000x8x3_S3200000x24 : S3200000x8x3.ShapeCasts S3200000x24
  bcast_S_S24 : S_.BroadcastsInDim S24 (![] : Fin 0 → Fin S24.rank)
  bcast_S24_S24x1_0 : S24.BroadcastsInDim S24x1 (![0] : Fin 1 → Fin S24x1.rank)
  slices_S3200000x33_S3200000x16_0_0 : S3200000x33.Slices ![0, 0] S3200000x16
  slices_S3200000x33_S3200000x16_0_16 : S3200000x33.Slices ![0, 16] S3200000x16
  slices_S3200000x33_S3200000x1_0_32 : S3200000x33.Slices ![0, 32] S3200000x1
  shapeCasts_S3200000x1_S3200000 : S3200000x1.ShapeCasts S3200000
  gather_S100000x16_S8x2x1_S100000x8x2_0_1_n_n_1_2_1000001_wf : GatherDims.WF S100000x16 S8x2x1 S100000x8x2 [0] [1] [] [1] [] 2 ![100000, 1]
  scatter_S100000x16_S16x1_S100000x16_0_1_1_1_wf : ScatterDims.WF S100000x16 S16x1 S100000x16 [0] [1] [1] 1
  gather_S100000x16_S3200000x1_S3200000x16_1_0_n_n_0_1_116_wf : GatherDims.WF S100000x16 S3200000x1 S3200000x16 [1] [0] [] [0] [] 1 ![1, 16]
  gather_S3200000x33_S8x3x1_S3200000x8x3_0_1_n_n_1_2_32000001_wf : GatherDims.WF S3200000x33 S8x3x1 S3200000x8x3 [0] [1] [] [1] [] 2 ![3200000, 1]
  scatter_S3200000x33_S24x1_S3200000x24_0_1_1_1_wf : ScatterDims.WF S3200000x33 S24x1 S3200000x24 [0] [1] [1] 1
  scatter_S100000x16_S3200000x1_S3200000x16_1_0_0_1_wf : ScatterDims.WF S100000x16 S3200000x1 S3200000x16 [1] [0] [0] 1

variable [Facts₀]

def gather_S100000x16_S8x2x1_S100000x8x2_0_1_n_n_1_2_1000001 : GatherDims S100000x16 S8x2x1 S100000x8x2 where
  offsetDims := [0]
  collapsedSliceDims := [1]
  operandBatchingDims := []
  startIndicesBatchingDims := []
  startIndexMap := [1]
  indexVectorDim := 2
  sliceSizes := ![100000, 1]
  wf := gather_S100000x16_S8x2x1_S100000x8x2_0_1_n_n_1_2_1000001_wf
def scatter_S100000x16_S16x1_S100000x16_0_1_1_1 : ScatterDims S100000x16 S16x1 S100000x16 where
  updateWindowDims := [0]
  insertedWindowDims := [1]
  scatterDimsToOperandDims := [1]
  indexVectorDim := 1
  wf := scatter_S100000x16_S16x1_S100000x16_0_1_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def gather_S3200000x33_S8x3x1_S3200000x8x3_0_1_n_n_1_2_32000001 : GatherDims S3200000x33 S8x3x1 S3200000x8x3 where
  offsetDims := [0]
  collapsedSliceDims := [1]
  operandBatchingDims := []
  startIndicesBatchingDims := []
  startIndexMap := [1]
  indexVectorDim := 2
  sliceSizes := ![3200000, 1]
  wf := gather_S3200000x33_S8x3x1_S3200000x8x3_0_1_n_n_1_2_32000001_wf
def scatter_S3200000x33_S24x1_S3200000x24_0_1_1_1 : ScatterDims S3200000x33 S24x1 S3200000x24 where
  updateWindowDims := [0]
  insertedWindowDims := [1]
  scatterDimsToOperandDims := [1]
  indexVectorDim := 1
  wf := scatter_S3200000x33_S24x1_S3200000x24_0_1_1_1_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Spec.lean ====
/-
  The mathematics both programs compute, stated once and free of either program.

  A *knowledge enhancer* acts on one row z of D pre-activations through n literals in flat order; literal f reads
  column col f with polarity sg f and clause weight w f, and g f is its clause.  Its boost of column d is
      Σ_{f : col f = d}  w f · softmax_f · sg f ,     softmax_f = exp(sg f · z (col f)) / Σ_{f' : g f' = g f} exp(sg f' · z (col f')),
  a softmax inside each clause.  A softmax is unchanged when one real number is subtracted from every exponent of its
  clause, so the form without any shift is the common value of every "stable" variant, whichever maximum it subtracts.

  The unary stage adds the boost to each node row (u).  The binary stage joins, per edge e, the two node rows
  u[i1 e], u[i2 e] and the edge's own pre-activation into a row of 33, and boosts that (db).  The results are
  u plus the two row scatters of db's first and second 16 columns at i1 and i2, and binary plus db's last column.
-/
import Idealize.ShloMosaic.PureOps.Ideal
import Idealize.ShloMosaic.PureOps
import Idealize.ShloMosaic.Lib.ValueIdx

noncomputable section

namespace Cert.Spec

open Idealize.ShloMosaic Idealize.ShloMosaic.ValueIdx

/-! ## The knowledge enhancer on one real row -/

/-- The boost a row z receives in column d: over the literals that read d, weight · (softmax within the literal's
    clause) · polarity.  No shift is subtracted: see the header. -/
def keR {D n : ℕ} (z : Fin D → ℝ) (col : Fin n → Fin D) (sg w : Fin n → ℝ) (g : Fin n → ℕ) (d : Fin D) : ℝ :=
  ∑ f : Fin n, if col f = d then
      w f * (Real.exp (sg f * z (col f)) / ∑ f' : Fin n, if g f' = g f then Real.exp (sg f' * z (col f')) else 0) * sg f
    else 0

/-! ## Shapes -/

abbrev S0 : Shape := ⟨0, ![]⟩
abbrev SN16 : Shape := ⟨2, ![100000, 16]⟩
abbrev SE : Shape := ⟨1, ![3200000]⟩
abbrev SE1 : Shape := ⟨2, ![3200000, 1]⟩
abbrev SE16 : Shape := ⟨2, ![3200000, 16]⟩
abbrev SE33 : Shape := ⟨2, ![3200000, 33]⟩
abbrev S8x2 : Shape := ⟨2, ![8, 2]⟩
abbrev S8x3 : Shape := ⟨2, ![8, 3]⟩
abbrev S8 : Shape := ⟨1, ![8]⟩

section Inputs

variable (a0 : FVec Ideal SN16 .f32) (a1 : FVec Ideal SE .f32) (a2 a3 : IVec SE 32)
  (a4 : IVec S8x2 32) (a5 : FVec Ideal S8x2 .f32) (a6 : IVec S8x3 32) (a7 : FVec Ideal S8x3 .f32)
  (a8 a9 : FVec Ideal S8 .f32)

/-! ## The unary stage: 8 clauses of 2 literals over 16 columns; flat literal f = 2·clause + position -/

/-- The column literal f reads (an index word taken as the natural number it is, inside the 16 columns). -/
def colU (f : Fin 16) : Fin 16 :=
  ⟨(a4 (ix2 (⟨f.val / 2, by omega⟩ : Fin 8) (⟨f.val % 2, by omega⟩ : Fin 2))).toNat % 16, Nat.mod_lt _ (by decide)⟩
def sgU (f : Fin 16) : ℝ := (a5 (ix2 (⟨f.val / 2, by omega⟩ : Fin 8) (⟨f.val % 2, by omega⟩ : Fin 2))).toReal
def wU (f : Fin 16) : ℝ := (a8 (ix1 (⟨f.val / 2, by omega⟩ : Fin 8))).toReal
/-- Node row r as real numbers. -/
def xR (r : Fin 100000) (d : Fin 16) : ℝ := (a0 (ix2 r d)).toReal
/-- The enhanced node tensor u = unary + boost. -/
def uR (r : Fin 100000) (d : Fin 16) : ℝ :=
  xR a0 r d + keR (xR a0 r) (colU a4) (sgU a5) (wU a8) (fun f => f.val / 2) d
/-- u as an array of extended reals. -/
def Uarr : FVec Ideal SN16 .f32 :=
  fun i => ((uR a0 a4 a5 a8 ⟨(i 0).val, idx2_lt0 i⟩ ⟨(i 1).val, idx2_lt1 i⟩ : ℝ) : EReal)

/-! ## The binary stage: 8 clauses of 3 literals over the 33 joined columns; flat literal f = 3·clause + position -/

/-- The node an edge-index word names (taken as the natural number it is, inside the 100000 nodes). -/
def nodeOf (a : IVec SE 32) (e : Fin 3200000) : Fin 100000 :=
  ⟨(a (ix1 e)).toNat % 100000, Nat.mod_lt _ (by decide)⟩
/-- Edge e's joined row: u[i1 e] (16), u[i2 e] (16), binary e (1). -/
def joinedR (e : Fin 3200000) (j : Fin 33) : ℝ :=
  if h : j.val < 16 then uR a0 a4 a5 a8 (nodeOf a2 e) ⟨j.val, h⟩
  else if h2 : j.val < 32 then uR a0 a4 a5 a8 (nodeOf a3 e) ⟨j.val - 16, by omega⟩
  else (a1 (ix1 e)).toReal
def colB (f : Fin 24) : Fin 33 :=
  ⟨(a6 (ix2 (⟨f.val / 3, by omega⟩ : Fin 8) (⟨f.val % 3, by omega⟩ : Fin 3))).toNat % 33, Nat.mod_lt _ (by decide)⟩
def sgB (f : Fin 24) : ℝ := (a7 (ix2 (⟨f.val / 3, by omega⟩ : Fin 8) (⟨f.val % 3, by omega⟩ : Fin 3))).toReal
def wB (f : Fin 24) : ℝ := (a9 (ix1 (⟨f.val / 3, by omega⟩ : Fin 8))).toReal
/-- The boost of edge e's joined row in joined column j. -/
def dbR (e : Fin 3200000) (j : Fin 33) : ℝ :=
  keR (joinedR a0 a1 a2 a3 a4 a5 a8 e) (colB a6) (sgB a7) (wB a9) (fun f => f.val / 3) j
/-- The boost as an array over edges × 33 joined columns. -/
def DBarr : FVec Ideal SE33 .f32 :=
  fun i => ((dbR a0 a1 a2 a3 a4 a5 a6 a7 a8 a9 ⟨(i 0).val, idx2_lt0 i⟩ ⟨(i 1).val, idx2_lt1 i⟩ : ℝ) : EReal)
/-- Its first 16 columns (the update of the edge's first node). -/
def UX : FVec Ideal SE16 .f32 :=
  fun i => ((dbR a0 a1 a2 a3 a4 a5 a6 a7 a8 a9 ⟨(i 0).val, idx2_lt0 i⟩ ⟨(i 1).val, by have := idx2_lt1 i; omega⟩ : ℝ) : EReal)
/-- Its columns 16..31 (the update of the edge's second node). -/
def UY : FVec Ideal SE16 .f32 :=
  fun i => ((dbR a0 a1 a2 a3 a4 a5 a6 a7 a8 a9 ⟨(i 0).val, idx2_lt0 i⟩ ⟨16 + (i 1).val, by have := idx2_lt1 i; omega⟩ : ℝ) : EReal)

/-! ## The results -/

/-- Second result: binary plus the boost's last column. -/
def resB : FVec Ideal SE .f32 :=
  fun i => a1 i + ((dbR a0 a1 a2 a3 a4 a5 a6 a7 a8 a9 ⟨(i 0).val, (i 0).isLt⟩ ⟨32, by decide⟩ : ℝ) : EReal)

/-- jnp's reading of a possibly negative row index (add the extent when negative), as the column of index vectors the
    row scatter takes. -/
def wrapRows (a : IVec SE 32) : IVec SE1 32 :=
  broadcastInDim SE1 ![0] (by decide)
    (select (cmpi .slt a (broadcastInDim SE ![] (by decide) (constantI S0 32 0#32)))
      (addi a (broadcastInDim SE ![] (by decide) (constantI S0 32 100000#32))) a)
def zerosN : FVec Ideal SN16 .f32 :=
  broadcastInDim SN16 ![] (by decide) (constant (F := Ideal) S0 .f32 0x00000000#32)
/-- A row scatter: update row e replaces operand row idx e. -/
def scatRows : ScatterDims SN16 SE1 SE16 where
  updateWindowDims := [1]
  insertedWindowDims := [0]
  scatterDimsToOperandDims := [0]
  indexVectorDim := 1
  wf := by decide
/-- The shared ending of both programs: u plus the two indexed assignments into zeros (an edge later in row-major
    order overwrites an earlier one at the same node), never opened. -/
def tailU (U : FVec Ideal SN16 .f32) (ux uy : FVec Ideal SE16 .f32) (i1 i2 : IVec SE 32) : FVec Ideal SN16 .f32 :=
  addf U (addf (Host.scatter scatRows (fun _ b => b) zerosN (wrapRows i1) ux)
               (Host.scatter scatRows (fun _ b => b) zerosN (wrapRows i2) uy))
/-- First result. -/
def resU : FVec Ideal SN16 .f32 :=
  tailU (Uarr a0 a4 a5 a8) (UX a0 a1 a2 a3 a4 a5 a6 a7 a8 a9) (UY a0 a1 a2 a3 a4 a5 a6 a7 a8 a9) a2 a3

/-! ## What the precondition gives -/

/-- Every float input is a real number and every index word lies inside the axis it indexes. -/
structure Adm : Prop where
  r0 : ∀ i, a0 i = (((a0 i).toReal : ℝ) : EReal)
  r1 : ∀ i, a1 i = (((a1 i).toReal : ℝ) : EReal)
  r5 : ∀ i, a5 i = (((a5 i).toReal : ℝ) : EReal)
  r7 : ∀ i, a7 i = (((a7 i).toReal : ℝ) : EReal)
  r8 : ∀ i, a8 i = (((a8 i).toReal : ℝ) : EReal)
  r9 : ∀ i, a9 i = (((a9 i).toReal : ℝ) : EReal)
  n2 : ∀ i, (a2 i).toNat < 100000
  n3 : ∀ i, (a3 i).toNat < 100000
  n4 : ∀ i, (a4 i).toNat < 16
  n6 : ∀ i, (a6 i).toNat < 33

end Inputs

end Cert.Spec

end
-- ==== Proof.Tables.lean ====
/-
  The small constant tables through which the kernel does its column gather, its sum within a clause and its
  scatter-add as matrix products, and the arrays its second launch reads and writes, each as a function of the inputs.

  For flat literal f and column d the selection table has 1 where literal f reads column d and 0 elsewhere (its
  transpose scatters back); the clause table has 1 where two flat literals belong to one clause.  For the binary stage
  the 33 joined columns are cut into the first node's 16, the second node's 16 and the edge's own one.
-/
import proofs.«427341_j23287312679568_3_alg».proof.Proof.Spec

noncomputable section

namespace Cert.Spec

open Idealize.ShloMosaic Idealize.ShloMosaic.ValueIdx

abbrev S16x16 : Shape := ⟨2, ![16, 16]⟩
abbrev S1x16 : Shape := ⟨2, ![1, 16]⟩
abbrev S16x24 : Shape := ⟨2, ![16, 24]⟩
abbrev S1x24 : Shape := ⟨2, ![1, 24]⟩
abbrev S24x16 : Shape := ⟨2, ![24, 16]⟩
abbrev S24x1 : Shape := ⟨2, ![24, 1]⟩
abbrev S24x24 : Shape := ⟨2, ![24, 24]⟩

/-- 1 or 0 as an extended real. -/
def ind (p : Prop) [Decidable p] : EReal := if p then 1 else 0

section Unary
variable (a4 : IVec S8x2 32) (a5 : FVec Ideal S8x2 .f32) (a8 : FVec Ideal S8 .f32)

/-- The index word of flat unary literal f (clause f / 2, position f % 2). -/
def wordU (f : ℕ) (hf : f < 16) : BitVec 32 := a4 (ix2 (⟨f / 2, by omega⟩ : Fin 8) (⟨f % 2, by omega⟩ : Fin 2))
/-- Selection table, columns × literals: 1 where literal f reads column d. -/
def M0 : FVec Ideal S16x16 .f32 :=
  fun i => ind (wordU a4 (i 1).val (idx2_lt1 i) = BitVec.ofNat 32 (i 0).val)
/-- Its transpose, literals × columns. -/
def Mt0 : FVec Ideal S16x16 .f32 :=
  fun i => ind (wordU a4 (i 0).val (idx2_lt0 i) = BitVec.ofNat 32 (i 1).val)
/-- Clause table: 1 where the two flat literals share a clause. -/
def P0 : FVec Ideal S16x16 .f32 := fun i => ind ((i 0).val / 2 = (i 1).val / 2)
/-- Polarities in flat order, as one row. -/
def sgRow0 : FVec Ideal S1x16 .f32 :=
  fun i => a5 (ix2 (⟨(i 1).val / 2, by have := idx2_lt1 i; omega⟩ : Fin 8) (⟨(i 1).val % 2, by omega⟩ : Fin 2))
/-- Clause weights repeated per literal, as one row. -/
def wRow0 : FVec Ideal S1x16 .f32 :=
  fun i => a8 (ix1 (⟨(i 1).val / 2, by have := idx2_lt1 i; omega⟩ : Fin 8))
end Unary

section Binary
variable (a0 : FVec Ideal SN16 .f32) (a1 : FVec Ideal SE .f32) (a2 a3 : IVec SE 32)
  (a4 : IVec S8x2 32) (a5 : FVec Ideal S8x2 .f32) (a6 : IVec S8x3 32) (a7 : FVec Ideal S8x3 .f32)
  (a8 a9 : FVec Ideal S8 .f32)

/-- The index word of flat binary literal f (clause f / 3, position f % 3). -/
def wordB (f : ℕ) (hf : f < 24) : BitVec 32 := a6 (ix2 (⟨f / 3, by omega⟩ : Fin 8) (⟨f % 3, by omega⟩ : Fin 3))
/-- Selection of the first node's 16 joined columns (columns × literals). -/
def Mg1 : FVec Ideal S16x24 .f32 := fun i => ind (wordB a6 (i 1).val (idx2_lt1 i) = BitVec.ofNat 32 (i 0).val)
/-- Selection of the second node's columns: joined column 16 + d. -/
def Mg2 : FVec Ideal S16x24 .f32 := fun i => ind (wordB a6 (i 1).val (idx2_lt1 i) = BitVec.ofNat 32 (16 + (i 0).val))
/-- Selection of the edge's own column, joined column 32. -/
def Mbin : FVec Ideal S1x24 .f32 := fun i => ind (wordB a6 (i 1).val (idx2_lt1 i) = BitVec.ofNat 32 32)
/-- The three transposes (literals × columns). -/
def Mtg1 : FVec Ideal S24x16 .f32 := fun i => ind (wordB a6 (i 0).val (idx2_lt0 i) = BitVec.ofNat 32 (i 1).val)
def Mtg2 : FVec Ideal S24x16 .f32 := fun i => ind (wordB a6 (i 0).val (idx2_lt0 i) = BitVec.ofNat 32 (16 + (i 1).val))
def Mtbin : FVec Ideal S24x1 .f32 := fun i => ind (wordB a6 (i 0).val (idx2_lt0 i) = BitVec.ofNat 32 32)
def P1 : FVec Ideal S24x24 .f32 := fun i => ind ((i 0).val / 3 = (i 1).val / 3)
def sgRow1 : FVec Ideal S1x24 .f32 :=
  fun i => a7 (ix2 (⟨(i 1).val / 3, by have := idx2_lt1 i; omega⟩ : Fin 8) (⟨(i 1).val % 3, by omega⟩ : Fin 3))
def wRow1 : FVec Ideal S1x24 .f32 :=
  fun i => a9 (ix1 (⟨(i 1).val / 3, by have := idx2_lt1 i; omega⟩ : Fin 8))

/-- The rows of u gathered at an edge-index input: row e is u[node e]. -/
def Garr (a : IVec SE 32) : FVec Ideal SE16 .f32 :=
  fun i => ((uR a0 a4 a5 a8 (nodeOf a ⟨(i 0).val, idx2_lt0 i⟩) ⟨(i 1).val, idx2_lt1 i⟩ : ℝ) : EReal)
/-- binary as a column. -/
def BCarr : FVec Ideal SE1 .f32 := fun i => a1 (ix1 (⟨(i 0).val, idx2_lt0 i⟩ : Fin 3200000))
/-- What the second launch leaves: the boost's columns 0..31, and binary + the boost's column 32 in column 32. -/
def OUTarr : FVec Ideal SE33 .f32 :=
  fun i => if (i 1).val < 32 then DBarr a0 a1 a2 a3 a4 a5 a6 a7 a8 a9 i
    else a1 (ix1 (⟨(i 0).val, idx2_lt0 i⟩ : Fin 3200000)) + DBarr a0 a1 a2 a3 a4 a5 a6 a7 a8 a9 i
end Binary

end Cert.Spec

end
-- ==== Proof.KArgs.lean ====
/-
  The idealized kernel program's ten argument arrays on a device, named, and the admissibility facts about them.
-/
import proofs.«427341_j23287312679568_3_alg».proof.KernelIdeal
import proofs.«427341_j23287312679568_3_alg».proof.Proof.Spec

noncomputable section

namespace Cert.KernelIdeal.KV

open Cert.KernelIdeal Idealize.ShloMosaic Idealize.SL.Sem

variable (m : (ℓ : Loc nD τ sig) → Buf (Elt Ideal) ℓ) (c : Dev nD)

abbrev A0 : FVec Ideal Spec.SN16 .f32 := m ((c.tc : Thread nD τ).loc main_arg0)
abbrev A1 : FVec Ideal Spec.SE .f32 := m ((c.tc : Thread nD τ).loc main_arg1)
abbrev A2 : IVec Spec.SE 32 := m ((c.tc : Thread nD τ).loc main_arg2)
abbrev A3 : IVec Spec.SE 32 := m ((c.tc : Thread nD τ).loc main_arg3)
abbrev A4 : IVec Spec.S8x2 32 := m ((c.tc : Thread nD τ).loc main_arg4)
abbrev A5 : FVec Ideal Spec.S8x2 .f32 := m ((c.tc : Thread nD τ).loc main_arg5)
abbrev A6 : IVec Spec.S8x3 32 := m ((c.tc : Thread nD τ).loc main_arg6)
abbrev A7 : FVec Ideal Spec.S8x3 .f32 := m ((c.tc : Thread nD τ).loc main_arg7)
abbrev A8 : FVec Ideal Spec.S8 .f32 := m ((c.tc : Thread nD τ).loc main_arg8)
abbrev A9 : FVec Ideal Spec.S8 .f32 := m ((c.tc : Thread nD τ).loc main_arg9)

/-- The inputs on device c are admissible: floats real, index words in range. -/
abbrev AdmK : Prop := Spec.Adm (A0 m c) (A1 m c) (A2 m c) (A3 m c) (A4 m c) (A5 m c) (A6 m c) (A7 m c) (A8 m c) (A9 m c)

end Cert.KernelIdeal.KV

end
-- ==== Proof.KTab0.lean ====
/-
  What the first launch finds in its six input arrays: the node tensor as given, and the five small tables the host
  operations before it build from the unary clause inputs — read through the fold of those host operations.
-/
import proofs.«427341_j23287312679568_3_alg».proof.Proof.Gen.KernelIdeal.Frame
import proofs.«427341_j23287312679568_3_alg».proof.Proof.Tables
import proofs.«427341_j23287312679568_3_alg».proof.Proof.KArgs
import Idealize.ShloMosaic.Lib.StableHlo.Run
import Idealize.ShloMosaic.Lib.Pipeline.Value

noncomputable section

namespace Cert.KernelIdeal.Tab0

open Cert.KernelIdeal Cert.KernelIdeal.Gen
open Idealize.ShloMosaic Idealize.ShloMosaic.TcCoe Idealize.SL.Sem Idealize.ShloMosaic.ValueIdx

open Cert.KernelIdeal.KV

variable (m : (ℓ : Loc nD τ sig) → Buf (Elt Ideal) ℓ) (ρ : Dev nD → PrngReg) (c : Dev nD)

/-- A buffer that no operation of a stretch writes keeps its contents across the stretch. -/
local macro "unwritten" : tactic => `(tactic|
  exact StableHlo.after_of_forall_not_mem _ _ (List.forall_iff_forall_mem.mp (by
    simp only [hostOps0, hostOps0_1, hostOps0_2, hostOps0_3, hostOps0_4, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))))

/-! ## The layout operations of the five stretches, read at an index -/

section Layout
variable {α : Type}

/-- 8×2 flattened to 16: position p is row p / 2, column p % 2. -/
theorem flat_apply (x : S8x2.Idx → α) (p : Fin 16) :
    shapeCast S16 x shapeCasts_S8x2_S16 (ix1 p) = x (ix2 (⟨p.val / 2, by omega⟩ : Fin 8) (⟨p.val % 2, by omega⟩ : Fin 2)) :=
  shapeCast_apply x _ _ _ (by
    rw [Shape.rowMajor_val_two, Shape.rowMajor_val_one]
    show (p.val / 2) * 2 + p.val % 2 = p.val
    omega)

/-- 8×2 flattened to one row of 16. -/
theorem flatRow_apply (x : S8x2.Idx → α) (z : Fin 1) (q : Fin 16) :
    shapeCast S1x16 x shapeCasts_S8x2_S1x16 (ix2 z q) = x (ix2 (⟨q.val / 2, by omega⟩ : Fin 8) (⟨q.val % 2, by omega⟩ : Fin 2)) :=
  shapeCast_apply x _ _ _ (by
    rw [Shape.rowMajor_val_two, Shape.rowMajor_val_two]
    show (q.val / 2) * 2 + q.val % 2 = z.val * 16 + q.val
    omega)

/-- 16 as one row of 16. -/
theorem asRow_apply (x : S16.Idx → α) (z : Fin 1) (q : Fin 16) :
    shapeCast S1x16 x shapeCasts_S16_S1x16 (ix2 z q) = x (ix1 q) :=
  shapeCast_apply x _ _ _ (by
    rw [Shape.rowMajor_val_two, Shape.rowMajor_val_one]
    show q.val = z.val * 16 + q.val
    omega)

/-- A vector of 8 repeated along a new second axis of 2. -/
theorem rep2_apply (x : S8.Idx → α) (g : Fin 8) (k : Fin 2) :
    broadcastInDim S8x2 ![0] bcast_S8_S8x2_0 x (ix2 g k) = x (ix1 g) :=
  broadcastInDim_apply _ _ x _ _ (fun a => by match a with | ⟨0, _⟩ => rfl)

/-- A vector of 16 as a column. -/
theorem col_apply (x : S16.Idx → α) (p : Fin 16) (z : Fin 1) :
    broadcastInDim S16x1 ![0] bcast_S16_S16x1_0 x (ix2 p z) = x (ix1 p) :=
  broadcastInDim_apply _ _ x _ _ (fun a => by match a with | ⟨0, _⟩ => rfl)

/-- A column repeated along the columns. -/
theorem spreadCol_apply (x : S16x1.Idx → α) (p q : Fin 16) :
    broadcastInDim S16x16 ![0, 1] bcast_S16x1_S16x16_0_1 x (ix2 p q) = x (ix2 p (0 : Fin 1)) :=
  broadcastInDim_apply _ _ x _ _ (fun a => by match a with | ⟨0, _⟩ => rfl | ⟨1, _⟩ => rfl)

/-- A row repeated along the rows. -/
theorem spreadRow_apply (x : S1x16.Idx → α) (p q : Fin 16) :
    broadcastInDim S16x16 ![0, 1] bcast_S1x16_S16x16_0_1 x (ix2 p q) = x (ix2 (0 : Fin 1) q) :=
  broadcastInDim_apply _ _ x _ _ (fun a => by match a with | ⟨0, _⟩ => rfl | ⟨1, _⟩ => rfl)

/-- A column transposed to a row. -/
theorem colT_apply (x : S16x1.Idx → α) (q : Fin 16) :
    transpose S1x16 [1, 0] x transposes_S16x1_S1x16_1_0 (ix2 (0 : Fin 1) q) = x (ix2 q (0 : Fin 1)) :=
  transpose_apply _ x _ _ _ (fun b => by match b with | ⟨0, _⟩ => rfl | ⟨1, _⟩ => rfl)

/-- The transpose of a 16×16 table. -/
theorem sqT_apply (x : S16x16.Idx → α) (p q : Fin 16) :
    transpose S16x16 [1, 0] x transposes_S16x16_S16x16_1_0 (ix2 p q) = x (ix2 q p) :=
  transpose_apply _ x _ _ _ (fun b => by match b with | ⟨0, _⟩ => rfl | ⟨1, _⟩ => rfl)

end Layout

/-! ## The equality test as a 0/1 number -/

theorem uitofp_cmpi_eq {w : ℕ} (a b : BitVec w) :
    FloatOps.uitofp (F := Ideal) .f32 (IntOp.cmpi .eq a b) = Spec.ind (a = b) := by
  show (((IntOp.cmpi .eq a b).toNat : ℝ) : EReal) = _
  unfold Spec.ind
  by_cases h : a = b
  · rw [if_pos h, show IntOp.cmpi .eq a b = 1#1 by subst h; simp [IntOp.cmpi]]
    simp
  · have hb : (a == b) = false := by simpa using h
    rw [if_neg h, show IntOp.cmpi .eq a b = 0#1 by simp only [IntOp.cmpi, hb]; rfl]
    simp

theorem ind_congr {p q : Prop} [Decidable p] [Decidable q] (h : p ↔ q) : Spec.ind p = Spec.ind q := by
  unfold Spec.ind
  by_cases hp : p
  · rw [if_pos hp, if_pos (h.mp hp)]
  · rw [if_neg hp, if_neg (mt h.mpr hp)]

/-- Small numbers are told apart by their 32-bit words. -/
theorem ofNat32_inj {a b : ℕ} (ha : a < 2 ^ 32) (hb : b < 2 ^ 32) : BitVec.ofNat 32 a = BitVec.ofNat 32 b ↔ a = b := by
  constructor
  · intro h
    have e := congrArg BitVec.toNat h
    rw [BitVec.toNat_ofNat, BitVec.toNat_ofNat, Nat.mod_eq_of_lt ha, Nat.mod_eq_of_lt hb] at e
    exact e
  · rintro rfl; rfl

/-! ## The three tables as functions of the words they are built from -/

/-- The one-hot of 16 words over 16 columns: entry (f, d) tests word f against d. -/
def oneHot (x : IVec S16 32) : FVec Ideal S16x16 .f32 :=
  uitofp (F := Ideal) .f32 (cmpi .eq
    (broadcastInDim S16x16 ![0, 1] bcast_S16x1_S16x16_0_1 (broadcastInDim S16x1 ![0] bcast_S16_S16x1_0 x))
    (broadcastInDim S16x16 ![0, 1] bcast_S1x16_S16x16_0_1 (iotaInDim S1x16 32 1)))

theorem oneHot_apply (x : IVec S16 32) (p q : Fin 16) :
    oneHot x (ix2 p q) = Spec.ind (x (ix1 p) = BitVec.ofNat 32 q.val) := by
  show FloatOps.uitofp (F := Ideal) .f32 (IntOp.cmpi .eq
    (broadcastInDim S16x16 ![0, 1] bcast_S16x1_S16x16_0_1 (broadcastInDim S16x1 ![0] bcast_S16_S16x1_0 x) (ix2 p q))
    (broadcastInDim S16x16 ![0, 1] bcast_S1x16_S16x16_0_1 (iotaInDim S1x16 32 1) (ix2 p q))) = _
  rw [spreadCol_apply, col_apply, spreadRow_apply, uitofp_cmpi_eq]
  rfl

/-- The table of "same label": entry (f, f') tests label f against label f'. -/
def sameLabel (x : IVec S16 32) : FVec Ideal S16x16 .f32 :=
  uitofp (F := Ideal) .f32 (cmpi .eq
    (broadcastInDim S16x16 ![0, 1] bcast_S16x1_S16x16_0_1 (broadcastInDim S16x1 ![0] bcast_S16_S16x1_0 x))
    (broadcastInDim S16x16 ![0, 1] bcast_S1x16_S16x16_0_1
      (transpose S1x16 [1, 0] (broadcastInDim S16x1 ![0] bcast_S16_S16x1_0 x) transposes_S16x1_S1x16_1_0)))

theorem sameLabel_apply (x : IVec S16 32) (p q : Fin 16) :
    sameLabel x (ix2 p q) = Spec.ind (x (ix1 p) = x (ix1 q)) := by
  show FloatOps.uitofp (F := Ideal) .f32 (IntOp.cmpi .eq
    (broadcastInDim S16x16 ![0, 1] bcast_S16x1_S16x16_0_1 (broadcastInDim S16x1 ![0] bcast_S16_S16x1_0 x) (ix2 p q))
    (broadcastInDim S16x16 ![0, 1] bcast_S1x16_S16x16_0_1
      (transpose S1x16 [1, 0] (broadcastInDim S16x1 ![0] bcast_S16_S16x1_0 x) transposes_S16x1_S1x16_1_0) (ix2 p q))) = _
  rw [spreadCol_apply, col_apply, spreadRow_apply, colT_apply, col_apply, uitofp_cmpi_eq]

/-! ## Floor division of the positions 0..15 by 2 -/

/-- The sign of a word: 0, −1 or 1. -/
def sgnW (x : BitVec 32) : BitVec 32 := if x = 0 then 0 else if x.msb then -1 else 1

/-- Floor division of a word by the word 2 as the printed operations compute it: the quotient rounded toward zero,
    less one where the signs differ and the remainder is not zero. -/
def floorDiv2W (x : BitVec 32) : BitVec 32 :=
  Scalar.select
    (IntOp.andi (IntOp.cmpi .ne (sgnW x) (sgnW 2#32)) (IntOp.cmpi .ne (IntOp.remsi .host x 2#32) 0#32))
    (IntOp.subi (IntOp.divsi .host x 2#32) 1#32) (IntOp.divsi .host x 2#32)

/-- On 0..15 no sign differs (or the remainder is zero), so it is division of natural numbers. -/
theorem floorDiv2W_small : ∀ p : Fin 16, floorDiv2W (BitVec.ofNat 32 p.val) = BitVec.ofNat 32 (p.val / 2) := by
  decide

/-- The same over a vector of 16 words and a scalar divisor. -/
def floorDivV (x : IVec S16 32) (d : IVec S_ 32) : IVec S16 32 :=
  select
    (andi (cmpi .ne (signi x) (broadcastInDim S16 ![] bcast_S_S16 (signi d)))
      (cmpi .ne (Host.remsi x (broadcastInDim S16 ![] bcast_S_S16 d)) (broadcastInDim S16 ![] bcast_S_S16 (constantI S_ 32 0#32))))
    (subi (Host.divsi x (broadcastInDim S16 ![] bcast_S_S16 d)) (broadcastInDim S16 ![] bcast_S_S16 (constantI S_ 32 1#32)))
    (Host.divsi x (broadcastInDim S16 ![] bcast_S_S16 d))

theorem floorDivV_apply (p : Fin 16) :
    floorDivV (iotaInDim S16 32 0) (constantI S_ 32 2#32) (ix1 p) = BitVec.ofNat 32 (p.val / 2) :=
  (show _ = floorDiv2W (BitVec.ofNat 32 p.val) from rfl).trans (floorDiv2W_small p)

/-! ## What each stretch of host operations leaves, from any contents -/

section Stretches
variable (V : Valuation τ sig (Elt Ideal))

theorem s0_v0 : StableHlo.after hostOps0 V (Proc.devRef .tc main_v0)
    = shapeCast S16 (V (Proc.devRef .tc main_arg4)) shapeCasts_S8x2_S16 := by
  after_results <;> rfl

theorem s0_v1 : StableHlo.after hostOps0 V (Proc.devRef .tc main_v1)
    = shapeCast S1x16 (V (Proc.devRef .tc main_arg5)) shapeCasts_S8x2_S1x16 := by
  after_results <;> rfl

theorem s0_v4 : StableHlo.after hostOps0 V (Proc.devRef .tc main_v4)
    = shapeCast S1x16 (shapeCast S16 (broadcastInDim S8x2 ![0] bcast_S8_S8x2_0 (V (Proc.devRef .tc main_arg8)))
        shapeCasts_S8x2_S16) shapeCasts_S16_S1x16 := by
  after_results <;> rfl

theorem s1_v5 : (StableHlo.after hostOps0_1 V (Proc.devRef .tc main_v5) : FVec Ideal S16x16 .f32)
    = oneHot (V (Proc.devRef .tc main_v0)) := by
  after_results <;> rfl

theorem s2_v6 : StableHlo.after hostOps0_2 V (Proc.devRef .tc main_v6)
    = transpose S16x16 [1, 0] (V (Proc.devRef .tc main_v5)) transposes_S16x16_S16x16_1_0 := by
  after_results <;> rfl

theorem s2_v7 : StableHlo.after hostOps0_2 V (Proc.devRef .tc main_v7) = iotaInDim S16 32 0 := by
  after_results <;> rfl

theorem s2_c : StableHlo.after hostOps0_2 V (Proc.devRef .tc main_c) = constantI S_ 32 2#32 := by
  after_results <;> rfl

theorem s3_v8 : (StableHlo.after hostOps0_3 V (Proc.devRef .tc main_v8) : IVec S16 32)
    = floorDivV (V (Proc.devRef .tc main_v7)) (V (Proc.devRef .tc main_c)) := by
  after_results <;> rfl

theorem s4_v14 : (StableHlo.after hostOps0_4 V (Proc.devRef .tc main_v14) : FVec Ideal S16x16 .f32)
    = sameLabel (V (Proc.devRef .tc main_v8)) := by
  after_results <;> rfl

end Stretches

/-! ## The six input arrays of the first launch -/

/-- The node tensor is an argument no host operation writes. -/
theorem v5_x : V5 (F := Ideal) m ρ c main_arg0 = A0 m c :=
  calc W5 (F := Ideal) m ρ c (Proc.devRef .tc main_arg0)
    _ = W4 m ρ c (Proc.devRef .tc main_arg0) := by unwritten
    _ = W3 m ρ c (Proc.devRef .tc main_arg0) := by unwritten
    _ = W2 m ρ c (Proc.devRef .tc main_arg0) := by unwritten
    _ = W1 m ρ c (Proc.devRef .tc main_arg0) := by unwritten
    _ = W0 m ρ c (Proc.devRef .tc main_arg0) := by unwritten
    _ = A0 m c := rfl

/-- The one-hot of the flattened index words, as the second stretch leaves it and the later ones keep it. -/
theorem v5_oneHot : V5 (F := Ideal) m ρ c main_v5 = oneHot (shapeCast S16 (A4 m c) shapeCasts_S8x2_S16) :=
  calc W5 (F := Ideal) m ρ c (Proc.devRef .tc main_v5)
    _ = W4 m ρ c (Proc.devRef .tc main_v5) := by unwritten
    _ = W3 m ρ c (Proc.devRef .tc main_v5) := by unwritten
    _ = W2 m ρ c (Proc.devRef .tc main_v5) := by unwritten
    _ = oneHot (W1 m ρ c (Proc.devRef .tc main_v0)) := s1_v5 (W1 m ρ c)
    _ = oneHot (shapeCast S16 (A4 m c) shapeCasts_S8x2_S16) := congrArg oneHot (s0_v0 (W0 m ρ c))

/-- The selection table is the transpose of the one-hot: entry (d, f) is 1 where literal f reads column d. -/
theorem v5_M : V5 (F := Ideal) m ρ c main_v6 = Spec.M0 (A4 m c) := by
  have e : V5 (F := Ideal) m ρ c main_v6
      = transpose S16x16 [1, 0] (oneHot (shapeCast S16 (A4 m c) shapeCasts_S8x2_S16)) transposes_S16x16_S16x16_1_0 :=
    calc W5 (F := Ideal) m ρ c (Proc.devRef .tc main_v6)
      _ = W4 m ρ c (Proc.devRef .tc main_v6) := by unwritten
      _ = W3 m ρ c (Proc.devRef .tc main_v6) := by unwritten
      _ = transpose S16x16 [1, 0] (W2 m ρ c (Proc.devRef .tc main_v5)) transposes_S16x16_S16x16_1_0 := s2_v6 (W2 m ρ c)
      _ = _ := congrArg (fun t => transpose S16x16 [1, 0] t transposes_S16x16_S16x16_1_0)
                ((s1_v5 (W1 m ρ c)).trans (congrArg oneHot (s0_v0 (W0 m ρ c))))
  refine e.trans (funext fun i => ?_)
  obtain ⟨p, q, rfl⟩ : ∃ (p q : Fin 16), i = ix2 p q := ⟨i 0, i 1, eq_ix2 i⟩
  rw [sqT_apply, oneHot_apply, flat_apply]
  rfl

/-- The one-hot itself: entry (f, d) is 1 where literal f reads column d. -/
theorem v5_Mt : V5 (F := Ideal) m ρ c main_v5 = Spec.Mt0 (A4 m c) := by
  refine (v5_oneHot m ρ c).trans (funext fun i => ?_)
  obtain ⟨p, q, rfl⟩ : ∃ (p q : Fin 16), i = ix2 p q := ⟨i 0, i 1, eq_ix2 i⟩
  rw [oneHot_apply, flat_apply]
  rfl

/-- The clause table: the labels are the positions 0..15 halved, and two literals share a clause where their labels agree. -/
theorem v5_P : V5 (F := Ideal) m ρ c main_v14 = Spec.P0 := by
  have e : V5 (F := Ideal) m ρ c main_v14 = sameLabel (floorDivV (iotaInDim S16 32 0) (constantI S_ 32 2#32)) :=
    calc W5 (F := Ideal) m ρ c (Proc.devRef .tc main_v14)
      _ = sameLabel (W4 m ρ c (Proc.devRef .tc main_v8)) := s4_v14 (W4 m ρ c)
      _ = sameLabel (floorDivV (W3 m ρ c (Proc.devRef .tc main_v7)) (W3 m ρ c (Proc.devRef .tc main_c))) :=
            congrArg sameLabel (s3_v8 (W3 m ρ c))
      _ = _ := congrArg₂ (fun a b => sameLabel (floorDivV a b)) (s2_v7 (W2 m ρ c)) (s2_c (W2 m ρ c))
  refine e.trans (funext fun i => ?_)
  obtain ⟨p, q, rfl⟩ : ∃ (p q : Fin 16), i = ix2 p q := ⟨i 0, i 1, eq_ix2 i⟩
  rw [sameLabel_apply, floorDivV_apply, floorDivV_apply]
  exact ind_congr (ofNat32_inj (by have := p.isLt; omega) (by have := q.isLt; omega))

/-- The polarities in flat order: position f of the row is clause f / 2, place f % 2. -/
theorem v5_sg : V5 (F := Ideal) m ρ c main_v1 = Spec.sgRow0 (A5 m c) := by
  have e : V5 (F := Ideal) m ρ c main_v1 = shapeCast S1x16 (A5 m c) shapeCasts_S8x2_S1x16 :=
    calc W5 (F := Ideal) m ρ c (Proc.devRef .tc main_v1)
      _ = W4 m ρ c (Proc.devRef .tc main_v1) := by unwritten
      _ = W3 m ρ c (Proc.devRef .tc main_v1) := by unwritten
      _ = W2 m ρ c (Proc.devRef .tc main_v1) := by unwritten
      _ = W1 m ρ c (Proc.devRef .tc main_v1) := by unwritten
      _ = _ := s0_v1 (W0 m ρ c)
  refine e.trans (funext fun i => ?_)
  obtain ⟨z, q, rfl⟩ : ∃ (z : Fin 1) (q : Fin 16), i = ix2 z q := ⟨i 0, i 1, eq_ix2 i⟩
  rw [flatRow_apply]
  rfl

/-- The clause weights, each repeated for its two literals, in flat order. -/
theorem v5_w : V5 (F := Ideal) m ρ c main_v4 = Spec.wRow0 (A8 m c) := by
  have e : V5 (F := Ideal) m ρ c main_v4
      = shapeCast S1x16 (shapeCast S16 (broadcastInDim S8x2 ![0] bcast_S8_S8x2_0 (A8 m c)) shapeCasts_S8x2_S16)
          shapeCasts_S16_S1x16 :=
    calc W5 (F := Ideal) m ρ c (Proc.devRef .tc main_v4)
      _ = W4 m ρ c (Proc.devRef .tc main_v4) := by unwritten
      _ = W3 m ρ c (Proc.devRef .tc main_v4) := by unwritten
      _ = W2 m ρ c (Proc.devRef .tc main_v4) := by unwritten
      _ = W1 m ρ c (Proc.devRef .tc main_v4) := by unwritten
      _ = _ := s0_v4 (W0 m ρ c)
  refine e.trans (funext fun i => ?_)
  obtain ⟨z, q, rfl⟩ : ∃ (z : Fin 1) (q : Fin 16), i = ix2 z q := ⟨i 0, i 1, eq_ix2 i⟩
  rw [asRow_apply, flat_apply, rep2_apply]
  rfl

end Cert.KernelIdeal.Tab0

end
-- ==== Proof.KeLaw.lean ====
/-
  The one law that joins the two programs: a softmax taken inside a clause does not see a shift of its exponents that
  is constant on the clause, so every "stable" variant (whichever maximum it subtracts) has the value of the plain
  quotient exp / Σ exp; and the two small facts about sums against a 0/1 table (a product with a selection table picks one
  term; a product with its transpose sums the selected terms).
-/
import proofs.«427341_j23287312679568_3_alg».proof.Proof.Tables
import Idealize.ShloMosaic.PureOps.Ideal.Laws

noncomputable section

namespace Cert.Spec

open Idealize.ShloMosaic

/-! ## Extended reals: finite real sums and selections -/

/-- The coercion of a finite real sum is the sum of the coercions. -/
theorem coe_finsum {ι : Type*} (t : Finset ι) (a : ι → ℝ) :
    ((∑ i ∈ t, a i : ℝ) : EReal) = ∑ i ∈ t, ((a i : ℝ) : EReal) := by
  classical
  induction t using Finset.induction_on with
  | empty => simp
  | insert i t hi ih => rw [Finset.sum_insert hi, Finset.sum_insert hi, EReal.coe_add, ih]

/-- A selected real number, or zero, coerced: the selection may be made before or after the coercion. -/
theorem coe_ite_zero (c : Prop) [Decidable c] (a : ℝ) :
    (if c then ((a : ℝ) : EReal) else 0) = (((if c then a else 0 : ℝ)) : EReal) := by
  split_ifs <;> simp

/-- One literal's shifted softmax: the shift, constant on the clause, leaves numerator and denominator through the
    common factor exp (−μ f), which is positive and cancels; the denominator is positive because the literal is in
    its own clause. -/
theorem ke_term {n : ℕ} (s μ : Fin n → ℝ) (g : Fin n → ℕ)
    (hμ : ∀ f f', g f' = g f → μ f' = μ f) (f : Fin n) :
    Ideal.div (Ideal.exp (((s f : ℝ) : EReal) - ((μ f : ℝ) : EReal)))
        (∑ f' : Fin n, if g f' = g f then Ideal.exp (((s f' : ℝ) : EReal) - ((μ f' : ℝ) : EReal)) else 0)
      = ((Real.exp (s f) / ∑ f' : Fin n, if g f' = g f then Real.exp (s f') else 0 : ℝ) : EReal) := by
  have hden : (∑ f' : Fin n, if g f' = g f then Ideal.exp (((s f' : ℝ) : EReal) - ((μ f' : ℝ) : EReal)) else 0)
      = (((∑ f' : Fin n, if g f' = g f then Real.exp (s f') else 0) * Real.exp (-(μ f)) : ℝ) : EReal) := by
    rw [Finset.sum_mul, coe_finsum]
    refine Finset.sum_congr rfl (fun f' _ => ?_)
    by_cases h : g f' = g f
    · rw [if_pos h, if_pos h, ← EReal.coe_sub, Ideal.exp_coe, hμ f f' h, sub_eq_add_neg, Real.exp_add]
    · rw [if_neg h, if_neg h, zero_mul, EReal.coe_zero]
  have hpos : 0 < ∑ f' : Fin n, if g f' = g f then Real.exp (s f') else 0 := by
    have hle : (if g f = g f then Real.exp (s f) else 0)
        ≤ ∑ f' : Fin n, if g f' = g f then Real.exp (s f') else 0 :=
      Finset.single_le_sum (f := fun f' => if g f' = g f then Real.exp (s f') else 0)
        (fun i _ => by
          by_cases h : g i = g f
          · simp only [if_pos h]; exact (Real.exp_pos _).le
          · simp only [if_neg h]; exact le_rfl)
        (Finset.mem_univ f)
    rw [if_pos rfl] at hle
    exact lt_of_lt_of_le (Real.exp_pos _) hle
  have h1 : (∑ f' : Fin n, if g f' = g f then Real.exp (s f') else 0) ≠ 0 := hpos.ne'
  have h2 : Real.exp (-(μ f)) ≠ 0 := (Real.exp_pos _).ne'
  rw [hden, Ideal.div_coe (mul_ne_zero h1 h2), ← EReal.coe_sub, Ideal.exp_coe, ← EReal.coe_mul]
  congr 1
  rw [sub_eq_add_neg, Real.exp_add]
  field_simp

/-- Folding max from −∞ over finitely many real numbers gives −∞ (nothing folded) or a real number. -/
theorem fold_max_bot_or_coe {ι : Type*} [DecidableEq ι] (s : ι → ℝ) (t : Finset ι) :
    t.fold max (⊥ : EReal) (fun k => ((s k : ℝ) : EReal)) = ⊥ ∨
      ∃ μ : ℝ, t.fold max (⊥ : EReal) (fun k => ((s k : ℝ) : EReal)) = ((μ : ℝ) : EReal) := by
  induction t using Finset.induction_on with
  | empty => left; simp
  | insert a t ha ih =>
    right
    rw [Finset.fold_insert ha]
    rcases ih with h | ⟨μ, h⟩
    · rw [h]; exact ⟨s a, max_eq_left bot_le⟩
    · rw [h]; exact ⟨max (s a) μ, (EReal.coe_strictMono.monotone.map_max).symm⟩

/-- With any real shift μ that is constant on each clause, the shifted clause softmaxes, weighted and summed over the
    literals that read column d, are the knowledge enhancer's boost of that column. -/
theorem ke_shift {D n : ℕ} (z : Fin D → ℝ) (col : Fin n → Fin D) (sg w : Fin n → ℝ) (g : Fin n → ℕ) (μ : Fin n → ℝ)
    (hμ : ∀ f f', g f' = g f → μ f' = μ f) (d : Fin D) :
    (∑ f : Fin n, if col f = d then
        ((w f : ℝ) : EReal) * Ideal.div (Ideal.exp (((sg f * z (col f) : ℝ) : EReal) - ((μ f : ℝ) : EReal)))
            (∑ f' : Fin n, if g f' = g f then Ideal.exp (((sg f' * z (col f') : ℝ) : EReal) - ((μ f' : ℝ) : EReal)) else 0)
          * ((sg f : ℝ) : EReal)
      else 0) = ((keR z col sg w g d : ℝ) : EReal) := by
  unfold keR
  rw [coe_finsum]
  refine Finset.sum_congr rfl (fun f _ => ?_)
  by_cases h : col f = d
  · rw [if_pos h, if_pos h]
    have ht := ke_term (fun f => sg f * z (col f)) μ g hμ f
    beta_reduce at ht
    rw [ht, ← EReal.coe_mul, ← EReal.coe_mul]
  · rw [if_neg h, if_neg h, EReal.coe_zero]

/-- A product with a 0/1 factor keeps the term or drops it. -/
theorem mul_ind (y : EReal) (p : Prop) [Decidable p] : y * ind p = if p then y else 0 := by
  unfold ind
  by_cases h : p
  · rw [if_pos h, if_pos h, mul_one]
  · rw [if_neg h, if_neg h, mul_zero]

/-- A row times a selection column picks the selected entry. -/
theorem sum_mul_ind_pick {D : ℕ} (z : Fin D → EReal) (k : Fin D) : ∑ d : Fin D, z d * ind (k = d) = z k := by
  simp only [mul_ind]
  rw [Finset.sum_ite_eq, if_pos (Finset.mem_univ k)]

/-- The maximum of finitely many real numbers, folded from −∞ over a nonempty range, is a real number. -/
theorem fold_max_coe {n : ℕ} (hn : 0 < n) (s : Fin n → ℝ) :
    ∃ μ : ℝ, (Finset.univ : Finset (Fin n)).fold max (⊥ : EReal) (fun k => ((s k : ℝ) : EReal)) = ((μ : ℝ) : EReal) := by
  have h0 : (Finset.univ : Finset (Fin n)) = insert (⟨0, hn⟩ : Fin n) (Finset.univ.erase ⟨0, hn⟩) :=
    (Finset.insert_erase (Finset.mem_univ _)).symm
  rw [h0, Finset.fold_insert (Finset.notMem_erase _ _)]
  rcases fold_max_bot_or_coe s (Finset.univ.erase ⟨0, hn⟩) with h | ⟨μ, h⟩
  · rw [h]; exact ⟨s ⟨0, hn⟩, max_eq_left bot_le⟩
  · rw [h]; exact ⟨max (s ⟨0, hn⟩) μ, (EReal.coe_strictMono.monotone.map_max).symm⟩

/-! ## Reindexing: a clause's literals inside the flat order, and sums under the coercion -/

/-- The flat index of position l in clause c lies inside C clauses of L literals. -/
theorem flat_lt {C L : ℕ} (c : Fin C) (l : Fin L) : c.val * L + l.val < C * L :=
  calc c.val * L + l.val < c.val * L + L := Nat.add_lt_add_left l.isLt _
    _ = (c.val + 1) * L := (Nat.succ_mul _ _).symm
    _ ≤ C * L := Nat.mul_le_mul_right L c.isLt

/-- The flat indices whose quotient by L is c are exactly L·c + l for l < L: summing over the L positions of clause c
    is summing over all flat indices the terms the quotient selects.  The positions enter through any map e with
    e l = L·c + l. -/
theorem sum_clause_of {M : Type*} [AddCommMonoid M] {N L : ℕ} (hL : 0 < L) (h : Fin N → M) (c : ℕ) (e : Fin L → Fin N)
    (he : ∀ l, (e l).val = L * c + l.val) :
    (∑ l : Fin L, h (e l)) = ∑ f : Fin N, if f.val / L = c then h f else 0 := by
  rw [← Finset.sum_filter]
  refine Finset.sum_bij (fun l _ => e l) ?_ ?_ ?_ ?_
  · intro l _
    rw [Finset.mem_filter]
    refine ⟨Finset.mem_univ _, ?_⟩
    rw [he l, Nat.mul_add_div hL, Nat.div_eq_of_lt l.isLt, Nat.add_zero]
  · intro l1 _ l2 _ heq
    have h1 := congrArg Fin.val heq
    rw [he l1, he l2] at h1
    exact Fin.ext (Nat.add_left_cancel h1)
  · intro f hf
    rw [Finset.mem_filter] at hf
    refine ⟨⟨f.val % L, Nat.mod_lt _ hL⟩, Finset.mem_univ _, Fin.ext ?_⟩
    rw [he, ← hf.2]
    exact Nat.div_add_mod f.val L
  · intro l _; rfl

/-- C clauses of L literals, flat f = c·L + l: the sum over clause c's positions is the sum over the flat indices
    that the quotient by L sends to c. -/
theorem sum_clause_flat {M : Type*} [AddCommMonoid M] {C L : ℕ} (hL : 0 < L) (h : Fin (C * L) → M) (c : Fin C) :
    (∑ l : Fin L, h ⟨c.val * L + l.val, flat_lt c l⟩) = ∑ f : Fin (C * L), if f.val / L = c.val then h f else 0 :=
  sum_clause_of hL h c.val (fun l => ⟨c.val * L + l.val, flat_lt c l⟩) (fun l => congrArg (· + l.val) (Nat.mul_comm c.val L))

/-- 8 clauses of 2 literals, flat f = 2·c + l, for a clause given as a natural number below 8. -/
theorem sum_clause2_nat {M : Type*} [AddCommMonoid M] (h : Fin 16 → M) (c : ℕ) (hc : c < 8) :
    (∑ l : Fin 2, h ⟨2 * c + l.val, by omega⟩) = ∑ f : Fin 16, if f.val / 2 = c then h f else 0 :=
  sum_clause_of (by decide) h c (fun l => ⟨2 * c + l.val, by omega⟩) (fun _ => rfl)

/-- 8 clauses of 2 literals, flat f = 2·c + l. -/
theorem sum_clause2 {M : Type*} [AddCommMonoid M] (h : Fin 16 → M) (c : Fin 8) :
    (∑ l : Fin 2, h ⟨2 * c.val + l.val, by omega⟩) = ∑ f : Fin 16, if f.val / 2 = c.val then h f else 0 :=
  sum_clause2_nat h c.val c.isLt

/-- 8 clauses of 3 literals, flat f = 3·c + l, for a clause given as a natural number below 8. -/
theorem sum_clause3_nat {M : Type*} [AddCommMonoid M] (h : Fin 24 → M) (c : ℕ) (hc : c < 8) :
    (∑ l : Fin 3, h ⟨3 * c + l.val, by omega⟩) = ∑ f : Fin 24, if f.val / 3 = c then h f else 0 :=
  sum_clause_of (by decide) h c (fun l => ⟨3 * c + l.val, by omega⟩) (fun _ => rfl)

/-- 8 clauses of 3 literals, flat f = 3·c + l. -/
theorem sum_clause3 {M : Type*} [AddCommMonoid M] (h : Fin 24 → M) (c : Fin 8) :
    (∑ l : Fin 3, h ⟨3 * c.val + l.val, by omega⟩) = ∑ f : Fin 24, if f.val / 3 = c.val then h f else 0 :=
  sum_clause3_nat h c.val c.isLt

/-- The coercion of a real sum over Fin n is the sum of the coercions. -/
theorem coe_sum {n : ℕ} (x : Fin n → ℝ) : ((∑ f : Fin n, x f : ℝ) : EReal) = ∑ f : Fin n, ((x f : ℝ) : EReal) :=
  coe_finsum Finset.univ x

/-- The same for a sum of selected terms: the selection may be made on either side of the coercion. -/
theorem coe_sum_ite {n : ℕ} (p : Fin n → Prop) [DecidablePred p] (x : Fin n → ℝ) :
    ((∑ f : Fin n, if p f then x f else 0 : ℝ) : EReal) = ∑ f : Fin n, if p f then ((x f : ℝ) : EReal) else 0 := by
  rw [coe_sum]
  exact Finset.sum_congr rfl (fun f _ => (coe_ite_zero (p f) (x f)).symm)

end Cert.Spec

end
-- ==== Proof.KRegion0.lean ====
/-
  The first launch (25 blocks of 4000 node rows): whatever contents V it is entered from, if its six input arrays hold
  the node tensor and the unary tables, then after its last write-back its output array holds u = unary + boost.
-/
import proofs.«427341_j23287312679568_3_alg».proof.Proof.Gen.KernelIdeal.Frame
import proofs.«427341_j23287312679568_3_alg».proof.Proof.Tables
import proofs.«427341_j23287312679568_3_alg».proof.Proof.KeLaw
import Idealize.ShloMosaic.Lib.Pipeline.Value
import Idealize.ShloMosaic.Lib.ValueLayout
import Idealize.ShloMosaic.PureOps.Ideal.Laws

noncomputable section

namespace Cert.KernelIdeal.Region0

open Cert.KernelIdeal Cert.KernelIdeal.Gen
open Idealize.ShloMosaic Idealize.ShloMosaic.TcCoe Idealize.SL.Sem Idealize.ShloMosaic.ValueIdx

/-! ## The body's non-pointwise operations read at an index

  A block is 4000 node rows by 16 columns.  The three matrix products contract the 16 columns (or the 16 flat literals)
  against a 16 × 16 table, so each reads, at row p and column q, as a sum over k of (row p, entry k) · (table k, q). -/

/-- The operand indices of the product at output index i and contracted coordinate k: the left operand is read at
    (i 0, k), the right at (k, i 1); one coordinate per lemma. -/
theorem lhs_dot_0 (i : S4000x16.Idx) (q : dot_S4000x16_S16x16_S4000x16_1_0_0_1_n_n.contr.Idx) :
    (dot_S4000x16_S16x16_S4000x16_1_0_0_1_n_n.lhsIdx i q 0).val = (i 0).val := by
  unfold DotDims.lhsIdx
  rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
  rfl
theorem lhs_dot_1 (i : S4000x16.Idx) (q : dot_S4000x16_S16x16_S4000x16_1_0_0_1_n_n.contr.Idx) :
    (dot_S4000x16_S16x16_S4000x16_1_0_0_1_n_n.lhsIdx i q 1).val = (q ⟨0, by decide⟩).val :=
  dot_S4000x16_S16x16_S4000x16_1_0_0_1_n_n.lhsIdx_val_of_single rfl i q
theorem rhs_dot_0 (i : S4000x16.Idx) (q : dot_S4000x16_S16x16_S4000x16_1_0_0_1_n_n.contr.Idx) :
    (dot_S4000x16_S16x16_S4000x16_1_0_0_1_n_n.rhsIdx i q 0).val = (q ⟨0, by decide⟩).val :=
  dot_S4000x16_S16x16_S4000x16_1_0_0_1_n_n.rhsIdx_val_of_single rfl i q
theorem rhs_dot_1 (i : S4000x16.Idx) (q : dot_S4000x16_S16x16_S4000x16_1_0_0_1_n_n.contr.Idx) :
    (dot_S4000x16_S16x16_S4000x16_1_0_0_1_n_n.rhsIdx i q 1).val = (i 1).val := by
  unfold DotDims.rhsIdx
  rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
  rfl

/-- A block times a 16 × 16 table, into the zero accumulator, at (p, q): the sum over the contracted coordinate. -/
theorem mm_apply (l : FVec Ideal S4000x16 .f32) (r : FVec Ideal S16x16 .f32) (p : Fin 4000) (q : Fin 16) :
    matmul dot_S4000x16_S16x16_S4000x16_1_0_0_1_n_n (some .fp32) l r (constant (F := Ideal) S4000x16 .f32 0x00000000#32) (ix2 p q)
      = ∑ k : Fin 16, l (ix2 p k) * r (ix2 k q) := by
  simp only [matmul]
  rw [Ideal.matmul_constant_zero_apply, ← Equiv.sum_comp (contrEquiv1 dot_S4000x16_S16x16_S4000x16_1_0_0_1_n_n 16 rfl rfl).symm]
  refine Finset.sum_congr rfl fun k _ => ?_
  have hk := contrEquiv1_symm_val dot_S4000x16_S16x16_S4000x16_1_0_0_1_n_n 16 rfl rfl k
  have el : dot_S4000x16_S16x16_S4000x16_1_0_0_1_n_n.lhsIdx (ix2 p q) ((contrEquiv1 dot_S4000x16_S16x16_S4000x16_1_0_0_1_n_n 16 rfl rfl).symm k) = ix2 p k := funext fun a => Fin.ext (by
    match a with
    | ⟨0, _⟩ => exact lhs_dot_0 _ _
    | ⟨1, _⟩ => exact (lhs_dot_1 _ _).trans hk)
  have er : dot_S4000x16_S16x16_S4000x16_1_0_0_1_n_n.rhsIdx (ix2 p q) ((contrEquiv1 dot_S4000x16_S16x16_S4000x16_1_0_0_1_n_n 16 rfl rfl).symm k) = ix2 k q := funext fun a => Fin.ext (by
    match a with
    | ⟨0, _⟩ => exact (rhs_dot_0 _ _).trans hk
    | ⟨1, _⟩ => exact rhs_dot_1 _ _)
  rw [el, er]

/-- A 1 × 16 row broadcast down the 4000 rows reads its column's entry. -/
theorem bcRow_apply (v : FVec Ideal S1x16 .f32) (p : Fin 4000) (q : Fin 16) :
    broadcastTo S4000x16 v broadcasts_S1x16_S4000x16 (ix2 p q) = v (ix2 (0 : Fin 1) q) :=
  broadcastTo_apply v broadcasts_S1x16_S4000x16 (ix2 p q) (ix2 (0 : Fin 1) q) fun a => by
    match a with
    | ⟨0, _⟩ => rfl
    | ⟨1, _⟩ => rfl

/-- The bit pattern the row maximum starts from is −∞. -/
theorem negInf_bits : Ideal.ofBits .f32 0xFF800000#32 = (⊥ : EReal) := by simp [Ideal.ofBits, Ideal.ieee]

/-- A row's maximum over its 16 entries: the fold of max from −∞. -/
theorem rowMax_apply (v : FVec Ideal S4000x16 .f32) (p : Fin 4000) :
    multiReduction .maximumf [1] S4000 v 0xFF800000#32 reduces_S4000x16_S4000 (.inl rfl) rfl (ix1 p)
      = (Finset.univ : Finset (Fin 16)).fold max (⊥ : EReal) (fun k => v (ix2 p k)) := by
  refine (Ideal.multiReduction_maximumf_single v 0xFF800000#32 reduces_S4000x16_S4000 (.inl rfl) rfl (ix1 p)).trans ?_
  have e : (v ∘ reduces_S4000x16_S4000.lift (ix1 p)) = fun k : Fin 16 => v (ix2 p k) := funext fun k => congrArg v (funext fun a => Fin.ext (by
    match a with
    | ⟨0, _⟩ => rfl
    | ⟨1, _⟩ => rfl))
  rw [e]
  show (Finset.univ : Finset (Fin 16)).fold max (Ideal.ofBits .f32 0xFF800000#32) _ = _
  rw [negInf_bits]

/-- The row maxima as a 4000 × 1 column broadcast across the 16 columns read the row's maximum. -/
theorem bcCol_apply (v : FVec Ideal S4000 .f32) (p : Fin 4000) (q : Fin 16) :
    broadcastTo S4000x16 (shapeCast S4000x1 v shapeCasts_S4000_S4000x1) broadcasts_S4000x1_S4000x16 (ix2 p q) = v (ix1 p) := by
  refine (broadcastTo_apply _ broadcasts_S4000x1_S4000x16 (ix2 p q) (ix2 p (0 : Fin 1)) fun a => by
    match a with
    | ⟨0, _⟩ => rfl
    | ⟨1, _⟩ => rfl).trans ?_
  refine shapeCast_apply v shapeCasts_S4000_S4000x1 (ix2 p (0 : Fin 1)) (ix1 p) ?_
  rw [Shape.rowMajor_val_one, Shape.rowMajor_val_two]
  show p.val = p.val * 1 + 0
  omega

/-! ## The tables' entries

  Inside the 16 columns an index word equals the word of d exactly when the literal's column is d. -/

theorem word_iff (a4 : IVec Spec.S8x2 32) (n4 : ∀ i, (a4 i).toNat < 16) (f d : Fin 16) :
    Spec.wordU a4 f.val f.isLt = BitVec.ofNat 32 d.val ↔ Spec.colU a4 f = d := by
  have hn := n4 (ix2 (⟨f.val / 2, by omega⟩ : Fin 8) (⟨f.val % 2, by omega⟩ : Fin 2))
  have hd : d.val % 2 ^ 32 = d.val := Nat.mod_eq_of_lt (lt_trans d.isLt (by norm_num))
  unfold Spec.wordU Spec.colU
  constructor
  · intro h
    apply Fin.ext
    show (a4 (ix2 (⟨f.val / 2, _⟩ : Fin 8) (⟨f.val % 2, _⟩ : Fin 2))).toNat % 16 = d.val
    rw [h, BitVec.toNat_ofNat, hd]
    exact Nat.mod_eq_of_lt d.isLt
  · intro h
    apply BitVec.eq_of_toNat_eq
    rw [BitVec.toNat_ofNat, hd]
    have h' : (a4 (ix2 (⟨f.val / 2, by omega⟩ : Fin 8) (⟨f.val % 2, by omega⟩ : Fin 2))).toNat % 16 = d.val := congrArg Fin.val h
    rw [Nat.mod_eq_of_lt hn] at h'
    exact h'

/-- Equivalent conditions have the same 0/1 value. -/
theorem ind_congr {p q : Prop} [Decidable p] [Decidable q] (h : p ↔ q) : Spec.ind p = Spec.ind q := by
  unfold Spec.ind
  exact if_congr h rfl rfl

/-- The selection table at (column d, literal f). -/
theorem M0_entry (a4 : IVec Spec.S8x2 32) (n4 : ∀ i, (a4 i).toNat < 16) (d f : Fin 16) :
    Spec.M0 a4 (ix2 d f) = Spec.ind (Spec.colU a4 f = d) :=
  ind_congr (word_iff a4 n4 f d)

/-- Its transpose at (literal f, column d). -/
theorem Mt0_entry (a4 : IVec Spec.S8x2 32) (n4 : ∀ i, (a4 i).toNat < 16) (f d : Fin 16) :
    Spec.Mt0 a4 (ix2 f d) = Spec.ind (Spec.colU a4 f = d) :=
  ind_congr (word_iff a4 n4 f d)

/-! ## The body's arithmetic, stage by stage, on one row

  For row p of the block write z d for its entry in column d.  Literal f's exponent is sg f · z (col f); the row's
  maximum μ over the 16 literals is subtracted before the exponential; the clause sums come from the product with the
  clause table; weight · softmax · polarity is scattered back to the columns by the product with the transposed
  selection table. -/

/-- The exponents before the shift. -/
def expo (x0 : FVec Ideal S4000x16 .f32) (a4 : IVec Spec.S8x2 32) (a5 : FVec Ideal Spec.S8x2 .f32) : FVec Ideal S4000x16 .f32 :=
  mulf (matmul dot_S4000x16_S16x16_S4000x16_1_0_0_1_n_n (some .fp32) x0 (Spec.M0 a4) (constant (F := Ideal) S4000x16 .f32 0x00000000#32))
    (broadcastTo S4000x16 (Spec.sgRow0 a5) broadcasts_S1x16_S4000x16)

/-- Each row's maximal exponent, repeated along the row. -/
def shiftB (x0 : FVec Ideal S4000x16 .f32) (a4 : IVec Spec.S8x2 32) (a5 : FVec Ideal Spec.S8x2 .f32) : FVec Ideal S4000x16 .f32 :=
  broadcastTo S4000x16 (shapeCast S4000x1 (multiReduction .maximumf [1] S4000 (expo x0 a4 a5) 0xFF800000#32 reduces_S4000x16_S4000 (.inl rfl) rfl) shapeCasts_S4000_S4000x1) broadcasts_S4000x1_S4000x16

/-- The shifted exponentials. -/
def expB (x0 : FVec Ideal S4000x16 .f32) (a4 : IVec Spec.S8x2 32) (a5 : FVec Ideal Spec.S8x2 .f32) : FVec Ideal S4000x16 .f32 :=
  exp (subf (expo x0 a4 a5) (shiftB x0 a4 a5))

/-- The softmax inside each clause. -/
def softB (x0 : FVec Ideal S4000x16 .f32) (a4 : IVec Spec.S8x2 32) (a5 : FVec Ideal Spec.S8x2 .f32) : FVec Ideal S4000x16 .f32 :=
  divf (expB x0 a4 a5) (matmul dot_S4000x16_S16x16_S4000x16_1_0_0_1_n_n (some .fp32) (expB x0 a4 a5) Spec.P0 (constant (F := Ideal) S4000x16 .f32 0x00000000#32))

/-- Weight · softmax · polarity, per literal. -/
def termB (x0 : FVec Ideal S4000x16 .f32) (a4 : IVec Spec.S8x2 32) (a5 : FVec Ideal Spec.S8x2 .f32) (a8 : FVec Ideal Spec.S8 .f32) : FVec Ideal S4000x16 .f32 :=
  mulf (mulf (broadcastTo S4000x16 (Spec.wRow0 a8) broadcasts_S1x16_S4000x16) (softB x0 a4 a5)) (broadcastTo S4000x16 (Spec.sgRow0 a5) broadcasts_S1x16_S4000x16)

/-- The body's stored value is the block plus the scattered terms. -/
theorem pay_struct (x0 : FVec Ideal S4000x16 .f32) (a4 : IVec Spec.S8x2 32) (a5 : FVec Ideal Spec.S8x2 .f32) (a8 : FVec Ideal Spec.S8 .f32) :
    k0_pay1 (F := Ideal) x0 (Spec.M0 a4) (Spec.sgRow0 a5) (Spec.wRow0 a8) Spec.P0 (Spec.Mt0 a4)
      = addf x0 (matmul dot_S4000x16_S16x16_S4000x16_1_0_0_1_n_n (some .fp32) (termB x0 a4 a5 a8) (Spec.Mt0 a4) (constant (F := Ideal) S4000x16 .f32 0x00000000#32)) := by
  unfold k0_pay1 termB softB expB shiftB expo
  simp only [shapeCast_self]

/-- Literal f's exponent on row p. -/
theorem expo_apply (x0 : FVec Ideal S4000x16 .f32) (a4 : IVec Spec.S8x2 32) (a5 : FVec Ideal Spec.S8x2 .f32)
    (r5 : ∀ i, a5 i = (((a5 i).toReal : ℝ) : EReal)) (n4 : ∀ i, (a4 i).toNat < 16)
    (p : Fin 4000) (z : Fin 16 → ℝ) (hx : ∀ d, x0 (ix2 p d) = ((z d : ℝ) : EReal)) (f : Fin 16) :
    expo x0 a4 a5 (ix2 p f) = ((Spec.sgU a5 f * z (Spec.colU a4 f) : ℝ) : EReal) := by
  unfold expo
  rw [mulf_apply, mm_apply, bcRow_apply]
  have e1 : ∑ k : Fin 16, x0 (ix2 p k) * Spec.M0 a4 (ix2 k f) = x0 (ix2 p (Spec.colU a4 f)) :=
    (Finset.sum_congr rfl fun k _ => congrArg (x0 (ix2 p k) * ·) (M0_entry a4 n4 k f)).trans
      (Spec.sum_mul_ind_pick (fun d => x0 (ix2 p d)) (Spec.colU a4 f))
  have e2 : Spec.sgRow0 a5 (ix2 (0 : Fin 1) f) = ((Spec.sgU a5 f : ℝ) : EReal) := r5 _
  rw [e1, e2, hx, ← EReal.coe_mul, mul_comm]

/-- The row's maximal exponent is a real number, the same along the row. -/
theorem shift_apply (x0 : FVec Ideal S4000x16 .f32) (a4 : IVec Spec.S8x2 32) (a5 : FVec Ideal Spec.S8x2 .f32)
    (p : Fin 4000) (s : Fin 16 → ℝ) (hS : ∀ f, expo x0 a4 a5 (ix2 p f) = ((s f : ℝ) : EReal)) :
    ∃ μ : ℝ, ∀ f : Fin 16, shiftB x0 a4 a5 (ix2 p f) = ((μ : ℝ) : EReal) := by
  obtain ⟨μ, hμ⟩ := Spec.fold_max_coe (by norm_num : 0 < 16) s
  refine ⟨μ, fun f => ?_⟩
  unfold shiftB
  rw [bcCol_apply, rowMax_apply, show (fun k => expo x0 a4 a5 (ix2 p k)) = fun k => ((s k : ℝ) : EReal) from funext hS]
  exact hμ

/-- The shifted exponential of literal f on row p. -/
theorem expB_apply (x0 : FVec Ideal S4000x16 .f32) (a4 : IVec Spec.S8x2 32) (a5 : FVec Ideal Spec.S8x2 .f32)
    (p : Fin 4000) (s : Fin 16 → ℝ) (μ : ℝ) (hS : ∀ f, expo x0 a4 a5 (ix2 p f) = ((s f : ℝ) : EReal))
    (hμ : ∀ f : Fin 16, shiftB x0 a4 a5 (ix2 p f) = ((μ : ℝ) : EReal)) (f : Fin 16) :
    expB x0 a4 a5 (ix2 p f) = Ideal.exp (((s f : ℝ) : EReal) - ((μ : ℝ) : EReal)) := by
  unfold expB
  show Ideal.exp (expo x0 a4 a5 (ix2 p f) - shiftB x0 a4 a5 (ix2 p f)) = _
  rw [hS f, hμ f]

/-- The softmax of literal f inside its clause on row p. -/
theorem softB_apply (x0 : FVec Ideal S4000x16 .f32) (a4 : IVec Spec.S8x2 32) (a5 : FVec Ideal Spec.S8x2 .f32)
    (p : Fin 4000) (E : Fin 16 → EReal) (hE : ∀ f, expB x0 a4 a5 (ix2 p f) = E f) (f : Fin 16) :
    softB x0 a4 a5 (ix2 p f) = Ideal.div (E f) (∑ f' : Fin 16, if f'.val / 2 = f.val / 2 then E f' else 0) := by
  unfold softB
  rw [divf_apply, mm_apply, hE f]
  refine congrArg (Ideal.div (E f)) (Finset.sum_congr rfl fun k _ => ?_)
  rw [hE k]
  exact Spec.mul_ind (E k) (k.val / 2 = f.val / 2)

/-- Weight · softmax · polarity of literal f on row p. -/
theorem termB_apply (x0 : FVec Ideal S4000x16 .f32) (a4 : IVec Spec.S8x2 32) (a5 : FVec Ideal Spec.S8x2 .f32) (a8 : FVec Ideal Spec.S8 .f32)
    (r5 : ∀ i, a5 i = (((a5 i).toReal : ℝ) : EReal)) (r8 : ∀ i, a8 i = (((a8 i).toReal : ℝ) : EReal))
    (p : Fin 4000) (E : Fin 16 → EReal) (hE : ∀ f, expB x0 a4 a5 (ix2 p f) = E f) (f : Fin 16) :
    termB x0 a4 a5 a8 (ix2 p f)
      = ((Spec.wU a8 f : ℝ) : EReal) * Ideal.div (E f) (∑ f' : Fin 16, if f'.val / 2 = f.val / 2 then E f' else 0) * ((Spec.sgU a5 f : ℝ) : EReal) := by
  unfold termB
  have e2 : Spec.sgRow0 a5 (ix2 (0 : Fin 1) f) = ((Spec.sgU a5 f : ℝ) : EReal) := r5 _
  have e3 : Spec.wRow0 a8 (ix2 (0 : Fin 1) f) = ((Spec.wU a8 f : ℝ) : EReal) := r8 _
  rw [mulf_apply, mulf_apply, bcRow_apply, bcRow_apply, softB_apply x0 a4 a5 p E hE f, e2, e3]

/-- THE BODY AT (p, q): the block's entry plus the knowledge enhancer's boost of column q on row p. -/
theorem pay_apply (x0 : FVec Ideal S4000x16 .f32) (a4 : IVec Spec.S8x2 32) (a5 : FVec Ideal Spec.S8x2 .f32) (a8 : FVec Ideal Spec.S8 .f32)
    (r5 : ∀ i, a5 i = (((a5 i).toReal : ℝ) : EReal)) (r8 : ∀ i, a8 i = (((a8 i).toReal : ℝ) : EReal)) (n4 : ∀ i, (a4 i).toNat < 16)
    (p : Fin 4000) (hx : ∀ d : Fin 16, x0 (ix2 p d) = (((x0 (ix2 p d)).toReal : ℝ) : EReal)) (q : Fin 16) :
    k0_pay1 (F := Ideal) x0 (Spec.M0 a4) (Spec.sgRow0 a5) (Spec.wRow0 a8) Spec.P0 (Spec.Mt0 a4) (ix2 p q)
      = x0 (ix2 p q) + ((Spec.keR (fun d => (x0 (ix2 p d)).toReal) (Spec.colU a4) (Spec.sgU a5) (Spec.wU a8) (fun f => f.val / 2) q : ℝ) : EReal) := by
  have hS := expo_apply x0 a4 a5 r5 n4 p (fun d => (x0 (ix2 p d)).toReal) hx
  obtain ⟨μ, hμ⟩ := shift_apply x0 a4 a5 p _ hS
  have hE := expB_apply x0 a4 a5 p _ μ hS hμ
  rw [pay_struct, addf_apply, mm_apply]
  refine congrArg (x0 (ix2 p q) + ·) ?_
  rw [← Spec.ke_shift (fun d => (x0 (ix2 p d)).toReal) (Spec.colU a4) (Spec.sgU a5) (Spec.wU a8) (fun f => f.val / 2) (fun _ => μ) (fun _ _ _ => rfl) q]
  refine Finset.sum_congr rfl fun f _ => ?_
  rw [termB_apply x0 a4 a5 a8 r5 r8 p _ hE f, Mt0_entry a4 n4 f q]
  exact Spec.mul_ind _ _

/-! ## From the blocks to the array

  Point t of the 25 reads rows 4000 t … 4000 t + 3999 of the node array and the five small tables whole, and writes
  back the same rows of the result; row r is written by point r / 4000. -/

/-- The zero offsets, as the constant function. -/
theorem hz : (![0, 0] : Fin 2 → Nat) = fun _ => 0 := funext fun a => by fin_cases a <;> rfl

/-- The block index of each window at each of the 25 points: the node window and the result window sit at block (t, 0),
    every table window at block (0, 0). -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of block t is a row of the 100000. -/
theorem row_lt (t : Fin cfg0.N) (p : Fin 4000) : 4000 * t.val + p.val < 100000 := by
  have hN : cfg0.N = 25 := N_0
  have ht := t.isLt
  have hp := p.isLt
  omega

/-- The node window's block at point t is rows 4000 t … of the array it reads. -/
theorem iblk_nodes (V : (c : Dev nD) → (b : Ref sig .tc) → Buf (Elt Ideal) ((c : Thread nD τ).loc b)) (c : Dev nD)
    (t : Fin cfg0.N) (p : Fin 4000) (q : Fin 16) :
    (iblk0 (F := Ideal) V c 0 t : Vec Ideal S4000x16 .f32) (ix2 p q)
      = (V c main_arg0 : S100000x16.Idx → EReal) (ix2 (⟨4000 * t.val + p.val, row_lt t p⟩ : Fin 100000) q) := by
  obtain ⟨e0, e1, -⟩ := idx_facts t
  show (V c main_arg0 : S100000x16.Idx → EReal) (((cfg0.win 0).blk t).view.emb (ix2 p q)) = _
  refine congrArg (V c main_arg0 : S100000x16.Idx → EReal) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 16 + 1 * q.val = q.val; rw [e1]; omega

/-- Each table window's block, at every point, is the whole table. -/
theorem iblk_tab1 (V : (c : Dev nD) → (b : Ref sig .tc) → Buf (Elt Ideal) ((c : Thread nD τ).loc b)) (c : Dev nD) (t : Fin cfg0.N) :
    (iblk0 (F := Ideal) V c 1 t : Vec Ideal S16x16 .f32) = V c main_v6 := by
  funext y
  obtain ⟨-, -, -, -, e0, e1, -⟩ := idx_facts t
  show (V c main_v6 : S16x16.Idx → EReal) (((cfg0.win 1).blk t).view.emb y) = (V c main_v6 : S16x16.Idx → EReal) y
  refine congrArg (V c main_v6 : S16x16.Idx → EReal) (funext fun a => Fin.ext ?_)
  match a with
  | ⟨0, _⟩ => show win0_1.index t (0 : Fin 2) * 16 + 1 * (y 0).val = (y 0).val; rw [e0]; omega
  | ⟨1, _⟩ => show win0_1.index t (1 : Fin 2) * 16 + 1 * (y 1).val = (y 1).val; rw [e1]; omega
theorem iblk_tab2 (V : (c : Dev nD) → (b : Ref sig .tc) → Buf (Elt Ideal) ((c : Thread nD τ).loc b)) (c : Dev nD) (t : Fin cfg0.N) :
    (iblk0 (F := Ideal) V c 2 t : Vec Ideal S16x16 .f32) = V c main_v5 := by
  funext y
  obtain ⟨-, -, -, -, -, -, e0, e1, -⟩ := idx_facts t
  show (V c main_v5 : S16x16.Idx → EReal) (((cfg0.win 2).blk t).view.emb y) = (V c main_v5 : S16x16.Idx → EReal) y
  refine congrArg (V c main_v5 : S16x16.Idx → EReal) (funext fun a => Fin.ext ?_)
  match a with
  | ⟨0, _⟩ => show win0_2.index t (0 : Fin 2) * 16 + 1 * (y 0).val = (y 0).val; rw [e0]; omega
  | ⟨1, _⟩ => show win0_2.index t (1 : Fin 2) * 16 + 1 * (y 1).val = (y 1).val; rw [e1]; omega
theorem iblk_tab3 (V : (c : Dev nD) → (b : Ref sig .tc) → Buf (Elt Ideal) ((c : Thread nD τ).loc b)) (c : Dev nD) (t : Fin cfg0.N) :
    (iblk0 (F := Ideal) V c 3 t : Vec Ideal S16x16 .f32) = V c main_v14 := by
  funext y
  obtain ⟨-, -, -, -, -, -, -, -, e0, e1, -⟩ := idx_facts t
  show (V c main_v14 : S16x16.Idx → EReal) (((cfg0.win 3).blk t).view.emb y) = (V c main_v14 : S16x16.Idx → EReal) y
  refine congrArg (V c main_v14 : S16x16.Idx → EReal) (funext fun a => Fin.ext ?_)
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega
theorem iblk_tab4 (V : (c : Dev nD) → (b : Ref sig .tc) → Buf (Elt Ideal) ((c : Thread nD τ).loc b)) (c : Dev nD) (t : Fin cfg0.N) :
    (iblk0 (F := Ideal) V c 4 t : Vec Ideal S1x16 .f32) = V c main_v1 := by
  funext y
  obtain ⟨-, -, -, -, -, -, -, -, -, -, e0, e1, -⟩ := idx_facts t
  show (V c main_v1 : S1x16.Idx → EReal) (((cfg0.win 4).blk t).view.emb y) = (V c main_v1 : S1x16.Idx → EReal) y
  refine congrArg (V c main_v1 : S1x16.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega
theorem iblk_tab5 (V : (c : Dev nD) → (b : Ref sig .tc) → Buf (Elt Ideal) ((c : Thread nD τ).loc b)) (c : Dev nD) (t : Fin cfg0.N) :
    (iblk0 (F := Ideal) V c 5 t : Vec Ideal S1x16 .f32) = V c main_v4 := by
  funext y
  obtain ⟨-, -, -, -, -, -, -, -, -, -, -, -, e0, e1⟩ := idx_facts t
  show (V c main_v4 : S1x16.Idx → EReal) (((cfg0.win 5).blk t).view.emb y) = (V c main_v4 : S1x16.Idx → EReal) y
  refine congrArg (V c main_v4 : S1x16.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 16 + 1 * (y 1).val = (y 1).val; rw [e1]; omega

/-- What the body leaves in the result window's buffer, at (p, q), when its five table operands are the unary tables
    and row p of its node block is row r of the node tensor: u at (r, q). -/
theorem out_block_apply (x0 : Vec Ideal S4000x16 .f32) (x1 x2 x3 : Vec Ideal S16x16 .f32) (x4 x5 : Vec Ideal S1x16 .f32)
    (a0 : FVec Ideal Spec.SN16 .f32) (a4 : IVec Spec.S8x2 32) (a5 : FVec Ideal Spec.S8x2 .f32) (a8 : FVec Ideal Spec.S8 .f32)
    (h1 : x1 = Spec.M0 a4) (h2 : x2 = Spec.Mt0 a4) (h3 : x3 = Spec.P0) (h4 : x4 = Spec.sgRow0 a5) (h5 : x5 = Spec.wRow0 a8)
    (r0 : ∀ i, a0 i = (((a0 i).toReal : ℝ) : EReal)) (r5 : ∀ i, a5 i = (((a5 i).toReal : ℝ) : EReal))
    (r8 : ∀ i, a8 i = (((a8 i).toReal : ℝ) : EReal)) (n4 : ∀ i, (a4 i).toNat < 16)
    (p : Fin 4000) (q : Fin 16) (r : Fin 100000) (hx : ∀ d : Fin 16, x0 (ix2 p d) = a0 (ix2 r d)) :
    out0_6 (F := Ideal) x0 x1 x2 x3 x4 x5 (ix2 p q) = ((Spec.uR a0 a4 a5 a8 r q : ℝ) : EReal) := by
  subst h1 h2 h3 h4 h5
  unfold out0_6
  rw [View.canon_unit_zero hz]
  simp only [View.ld_unit_zero (S := S4000x16) hz, View.ld_unit_zero (S := S16x16) hz, View.ld_unit_zero (S := S1x16) hz]
  rw [pay_apply x0 a4 a5 a8 r5 r8 n4 p (fun d => by rw [hx d]; exact r0 _) q]
  have e : (fun d : Fin 16 => (x0 (ix2 p d)).toReal) = Spec.xR a0 r := funext fun d => by rw [hx d]; rfl
  rw [e, hx q]
  unfold Spec.uR
  rw [EReal.coe_add]
  exact congrArg (· + _) (r0 _)

/-- u as an array, at an index whose coordinates are r and q. -/
theorem Uarr_at (a0 : FVec Ideal Spec.SN16 .f32) (a4 : IVec Spec.S8x2 32) (a5 : FVec Ideal Spec.S8x2 .f32) (a8 : FVec Ideal Spec.S8 .f32)
    (i : Spec.SN16.Idx) (r : Fin 100000) (q : Fin 16) (h0 : (i 0).val = r.val) (h1 : (i 1).val = q.val) :
    Spec.Uarr a0 a4 a5 a8 i = ((Spec.uR a0 a4 a5 a8 r q : ℝ) : EReal) := by
  show ((Spec.uR a0 a4 a5 a8 ⟨(i 0).val, idx2_lt0 i⟩ ⟨(i 1).val, idx2_lt1 i⟩ : ℝ) : EReal) = _
  have e0 : (⟨(i 0).val, idx2_lt0 i⟩ : Fin 100000) = r := Fin.ext h0
  have e1 : (⟨(i 1).val, idx2_lt1 i⟩ : Fin 16) = q := Fin.ext h1
  rw [e0, e1]

/-- WHAT POINT t WRITES BACK is block t of u. -/
theorem flushed_eq (V : (c : Dev nD) → (b : Ref sig .tc) → Buf (Elt Ideal) ((c : Thread nD τ).loc b)) (c : Dev nD)
    (a0 : FVec Ideal Spec.SN16 .f32) (a4 : IVec Spec.S8x2 32) (a5 : FVec Ideal Spec.S8x2 .f32) (a8 : FVec Ideal Spec.S8 .f32)
    (h0 : V c main_arg0 = a0) (hM : V c main_v6 = Spec.M0 a4) (hMt : V c main_v5 = Spec.Mt0 a4) (hP : V c main_v14 = Spec.P0)
    (hs : V c main_v1 = Spec.sgRow0 a5) (hw : V c main_v4 = Spec.wRow0 a8)
    (r0 : ∀ i, a0 i = (((a0 i).toReal : ℝ) : EReal)) (r5 : ∀ i, a5 i = (((a5 i).toReal : ℝ) : EReal))
    (r8 : ∀ i, a8 i = (((a8 i).toReal : ℝ) : EReal)) (n4 : ∀ i, (a4 i).toNat < 16) (t : Fin cfg0.N) :
    (dat0 (F := Ideal) V c).flushed 6 t = ((cfg0.win 6).blk t).view.read (Elt Ideal) (Spec.Uarr a0 a4 a5 a8) := by
  show (cfg0.win 6).cut (grid0.coords t) ((dat0 (F := Ideal) V c).after 6 t) = _
  rw [after0_6]
  obtain ⟨-, -, e0, e1, -⟩ := idx_facts t
  funext j
  obtain ⟨p, q, rfl⟩ : ∃ (p : Fin 4000) (q : Fin 16), j = ix2 p q := ⟨j 0, j 1, eq_ix2 j⟩
  show out0_6 (iblk0 V c 0 t) (iblk0 V c 1 t) (iblk0 V c 2 t) (iblk0 V c 3 t) (iblk0 V c 4 t) (iblk0 V c 5 t) (ix2 p q)
    = Spec.Uarr a0 a4 a5 a8 (((cfg0.win 6).blk t).view.emb (ix2 p q))
  refine (out_block_apply (iblk0 V c 0 t) (iblk0 V c 1 t) (iblk0 V c 2 t) (iblk0 V c 3 t) (iblk0 V c 4 t) (iblk0 V c 5 t) a0 a4 a5 a8
    ((iblk_tab1 V c t).trans hM) ((iblk_tab2 V c t).trans hMt) ((iblk_tab3 V c t).trans hP) ((iblk_tab4 V c t).trans hs) ((iblk_tab5 V c t).trans hw)
    r0 r5 r8 n4 p q ⟨4000 * t.val + p.val, row_lt t p⟩ (fun d => (iblk_nodes V c t p d).trans (congrFun h0 _))).trans ?_
  refine (Uarr_at a0 a4 a5 a8 _ ⟨4000 * t.val + p.val, row_lt t p⟩ q ?_ ?_).symm
  · show win0_6.index t (0 : Fin 2) * 4000 + 1 * p.val = 4000 * t.val + p.val
    rw [e0]; omega
  · show win0_6.index t (1 : Fin 2) * 16 + 1 * q.val = q.val
    rw [e1]; omega

/-- An index of the result array is in point t's block iff each coordinate is in the block's range on its axis. -/
theorem mem_blk (t : Fin cfg0.N) (i : S100000x16.Idx) :
    i ∈ ((cfg0.win 6).blk t).view.set ↔ ∀ a : Fin 2, win0_6.index t a * S4000x16.size a ≤ (i a).val ∧ (i a).val < win0_6.index t a * S4000x16.size a + S4000x16.size a := by
  show i ∈ ((View.whole main_v15).slice (win0_6.rect t)).set ↔ _
  rw [View.set_slice_whole, Rect.mem_set_unit]
  exact Iff.rfl

/-- Row r of the result array lies in the block of point r / 4000, which writes back. -/
theorem cover (i : S100000x16.Idx) : ∃ t : Fin cfg0.N, (cfg0.win 6).flush t = true ∧ i ∈ ((cfg0.win 6).blk t).view.set := by
  have hi0 : (i 0).val < 100000 := idx2_lt0 i
  have hi1 : (i 1).val < 16 := idx2_lt1 i
  have hN : cfg0.N = 25 := N_0
  obtain ⟨t, ht⟩ : ∃ t : Fin cfg0.N, t.val = (i 0).val / 4000 := ⟨⟨(i 0).val / 4000, by omega⟩, rfl⟩
  obtain ⟨-, -, e0, e1, -⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 16 ≤ (i 1).val ∧ (i 1).val < win0_6.index t (1 : Fin 2) * 16 + 16
    rw [e1]; omega

theorem arr_out (V : (c : Dev nD) → (b : Ref sig .tc) → Buf (Elt Ideal) ((c : Thread nD τ).loc b)) (c : Dev nD)
    (a0 : FVec Ideal Spec.SN16 .f32) (a4 : IVec Spec.S8x2 32) (a5 : FVec Ideal Spec.S8x2 .f32) (a8 : FVec Ideal Spec.S8 .f32)
    (h0 : V c main_arg0 = a0) (hM : V c main_v6 = Spec.M0 a4) (hMt : V c main_v5 = Spec.Mt0 a4) (hP : V c main_v14 = Spec.P0)
    (hs : V c main_v1 = Spec.sgRow0 a5) (hw : V c main_v4 = Spec.wRow0 a8)
    (r0 : (∀ i, a0 i = (((a0 i).toReal : ℝ) : EReal))) (r5 : (∀ i, a5 i = (((a5 i).toReal : ℝ) : EReal))) (r8 : (∀ i, a8 i = (((a8 i).toReal : ℝ) : EReal))) (n4 : ∀ i, (a4 i).toNat < 16) :
    (dat0 (F := Ideal) V c).arrAt 6 cfg0.N = Spec.Uarr a0 a4 a5 a8 := by
  exact (dat0 (F := Ideal) V c).arrAt_eq_of_cover 6 (Spec.Uarr a0 a4 a5 a8)
    (fun t _ => flushed_eq V c a0 a4 a5 a8 h0 hM hMt hP hs hw r0 r5 r8 n4 t) cover

end Cert.KernelIdeal.Region0

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.KTake.lean ====
/-
  jnp.take of the enhanced node tensor at an edge-index input, as the host operations between the launches compute it:
  the index is wrapped when negative, the rows are gathered, and a row whose index falls outside the 100000 nodes is
  filled in; with every index inside the node range no row is filled in and row e is u[index e].
-/
import proofs.«427341_j23287312679568_3_alg».proof.Proof.Gen.KernelIdeal.Frame
import proofs.«427341_j23287312679568_3_alg».proof.Proof.Tables
import proofs.«427341_j23287312679568_3_alg».proof.Proof.KArgs
import proofs.«427341_j23287312679568_3_alg».proof.Proof.LibGatherRows
import Idealize.ShloMosaic.Lib.StableHlo.Run
import Idealize.ShloMosaic.Lib.StableHlo.Predicate
import Idealize.ShloMosaic.Lib.Pipeline.Value

noncomputable section

namespace Cert.KernelIdeal.Take

open Cert.KernelIdeal Cert.KernelIdeal.Gen
open Idealize.ShloMosaic Idealize.ShloMosaic.TcCoe Idealize.SL.Sem Idealize.ShloMosaic.ValueIdx

section Pointwise

/-- A 32-bit word below 100000 reads the same signed and unsigned. -/
theorem toInt_small (x : BitVec 32) (hx : x.toNat < 100000) : x.toInt = (x.toNat : ℤ) :=
  StableHlo.Predicate.toInt_eq_toNat_of_lt (Nat.lt_trans hx (by decide))

/-- The wrap of a possibly negative row index (add the extent when negative) leaves an index inside the range alone. -/
theorem wrap_small (x : BitVec 32) (hx : x.toNat < 100000) :
    Scalar.select (IntOp.cmpi .slt x 0#32) (IntOp.addi x 100000#32) x = x := by
  have h : ¬ IntOp.cmpi .slt x 0#32 = 1#1 := by
    rw [IntOp.cmpi_slt, toInt_small x hx, StableHlo.Predicate.toInt_ofNat_small 0 (by decide)]
    omega
  exact if_neg h

/-- An index inside the range passes the range test 0 ≤ x ≤ 99999. -/
theorem inrange_small (x : BitVec 32) (hx : x.toNat < 100000) :
    IntOp.andi (IntOp.cmpi .sge x 0#32) (IntOp.cmpi .sle x 99999#32) = 1#1 := by
  rw [IntOp.andi_eq_one, IntOp.cmpi_sge, IntOp.cmpi_sle, toInt_small x hx,
    StableHlo.Predicate.toInt_ofNat_small 0 (by decide), StableHlo.Predicate.toInt_ofNat_small 99999 (by decide)]
  constructor <;> omega

/-- A conjunction of ones, folded from one, is one. -/
theorem foldl_andi_ones {ι : Type} (f : ι → BitVec 1) (hf : ∀ n, f n = 1#1) :
    ∀ l : List ι, l.foldl (fun r n => IntOp.andi r (f n)) 1#1 = 1#1
  | [] => rfl
  | n :: l => by
    have e : IntOp.andi 1#1 (f n) = 1#1 := by rw [hf n]; decide
    rw [List.foldl_cons, e]
    exact foldl_andi_ones f hf l

/-- Where the mask is one the select reads its first operand. -/
theorem select_of_one {s : Shape} {α : Type} (c : IVec s 1) (x y : s.Idx → α) (i : s.Idx) (h : c i = 1#1) :
    select c x y i = x i := by
  show Scalar.select (c i) (x i) (y i) = x i
  rw [h]
  exact select_one _ _

/-- Contents moved to a buffer's own type and back are the contents. -/
theorem ofBuf_toBuf {T : BufTy} {Val : EltTy → Type} (x : StableHlo.TRef sig T) (v : T.Contents Val) :
    x.ofBuf (x.toBuf v) = v := by
  obtain ⟨r, h, _, _⟩ := x
  subst h
  rfl

variable (a : IVec Spec.SE 32)

/-- With every index inside the range the wrapped index vector is the index vector. -/
theorem wrap_vec (hn : ∀ i, (a i).toNat < 100000) (hb : S_.BroadcastsInDim S3200000 ![]) :
    select (cmpi .slt a (broadcastInDim S3200000 ![] hb (constantI S_ 32 0#32)))
      (addi a (broadcastInDim S3200000 ![] hb (constantI S_ 32 100000#32))) a = a :=
  funext fun i => wrap_small (a i) (hn i)

/-- The index vector as a column. -/
abbrev idxCol (hb5 : S3200000.BroadcastsInDim S3200000x1 ![0]) : IVec Spec.SE1 32 :=
  broadcastInDim S3200000x1 ![0] hb5 a

/-- The column at (r, 0) is the vector at r. -/
theorem idxCol_apply (hb5 : S3200000.BroadcastsInDim S3200000x1 ![0]) (r : Fin 3200000) (z : Fin 1) :
    idxCol a hb5 (ix2 r z) = a (ix1 r) :=
  broadcastInDim_apply ![0] hb5 a (ix2 r z) (ix1 r) (by
    intro k
    match k with
    | ⟨0, _⟩ =>
      show r.val = if (3200000 : ℕ) = 1 then 0 else r.val
      rw [if_neg (by decide)])

/-- The range mask, reduced by "and" over the column's one-element axis, is one at every edge. -/
theorem mask_one (idx : IVec Spec.SE1 32) (hidx : ∀ i, (idx i).toNat < 100000)
    (hb6 : S_.BroadcastsInDim S3200000x1 ![]) (hb8 : S1.BroadcastsInDim S1x1 ![1])
    (hb9 : S1x1.BroadcastsInDim S3200000x1 ![0, 1]) (hr : S3200000x1.ReducesTo [1] S3200000) (hu : 0 < S_.numel)
    (j : S3200000.Idx) :
    Host.reduce IntOp.andi
      (andi (cmpi .sge idx (broadcastInDim S3200000x1 ![] hb6 (constantI S_ 32 0#32)))
        (cmpi .sle idx (broadcastInDim S3200000x1 ![0, 1] hb9 (broadcastInDim S1x1 ![1] hb8 (constantI S1 32 99999#32)))))
      (constantI S_ 1 1#1) hr hu j = 1#1 := by
  rw [Host.reduce_eq_foldl]
  exact foldl_andi_ones _ (fun i => inrange_small (idx i) (hidx i)) _

/-- The masked row gather with every index inside the range: no row is filled in, and row e is the table's row at
    index e. -/
theorem take_value (hn : ∀ i, (a i).toNat < 100000) (U : FVec Ideal Spec.SN16 .f32)
    (hb5 : S3200000.BroadcastsInDim S3200000x1 ![0])
    (hb6 : S_.BroadcastsInDim S3200000x1 ![]) (hb8 : S1.BroadcastsInDim S1x1 ![1])
    (hb9 : S1x1.BroadcastsInDim S3200000x1 ![0, 1]) (hr : S3200000x1.ReducesTo [1] S3200000) (hu : 0 < S_.numel)
    (hbm : S3200000.BroadcastsInDim S3200000x16 ![0]) (hbf : S_.BroadcastsInDim S3200000x16 ![]) :
    select
      (broadcastInDim S3200000x16 ![0] hbm
        (Host.reduce IntOp.andi
          (andi (cmpi .sge (idxCol a hb5) (broadcastInDim S3200000x1 ![] hb6 (constantI S_ 32 0#32)))
            (cmpi .sle (idxCol a hb5)
              (broadcastInDim S3200000x1 ![0, 1] hb9 (broadcastInDim S1x1 ![1] hb8 (constantI S1 32 99999#32)))))
          (constantI S_ 1 1#1) hr hu))
      (Host.gather gather_S100000x16_S3200000x1_S3200000x16_1_0_n_n_0_1_116 U (idxCol a hb5))
      (broadcastInDim S3200000x16 ![] hbf (constant (F := Ideal) S_ .f32 0x7FC00000#32))
    = (fun i => U (ix2 (Spec.nodeOf a ⟨(i 0).val, idx2_lt0 i⟩) (⟨(i 1).val, idx2_lt1 i⟩ : Fin 16)) :
        FVec Ideal Spec.SE16 .f32) := by
  funext i
  obtain ⟨r, t, rfl⟩ : ∃ (r : Fin 3200000) (t : Fin 16), i = ix2 r t := ⟨i 0, i 1, eq_ix2 i⟩
  have hidx : ∀ k : Spec.SE1.Idx, (idxCol a hb5 k).toNat < 100000 := by
    intro k
    obtain ⟨r', z, rfl⟩ : ∃ (r' : Fin 3200000) (z : Fin 1), k = ix2 r' z := ⟨k 0, k 1, eq_ix2 k⟩
    rw [idxCol_apply]
    exact hn _
  refine (select_of_one _ _ _ _ ?_).trans ?_
  · unfold broadcastInDim
    exact mask_one (idxCol a hb5) hidx hb6 hb8 hb9 hr hu _
  · refine (Cert.LibGatherRows.gather_rows_apply (N := 100000) (D := 16) (R := 3200000) (by decide)
      gather_S100000x16_S3200000x1_S3200000x16_1_0_n_n_0_1_116.wf U (idxCol a hb5) r t).trans ?_
    have hx := hn (ix1 r)
    have e1 : (idxCol a hb5 (ix2 r (0 : Fin 1))).toInt.toNat = (a (ix1 r)).toNat := by
      rw [idxCol_apply, toInt_small _ hx]
      exact Int.toNat_natCast _
    refine congrArg U (congrArg₂ ix2 (Fin.ext ?_) (Fin.ext rfl))
    show min (idxCol a hb5 (ix2 r (0 : Fin 1))).toInt.toNat (100000 - 1) = (a (ix1 r)).toNat % 100000
    rw [e1, Nat.mod_eq_of_lt hx]
    omega

/-! The argument, table and result buffers hold contents of their own types: the moves to and from them are identities. -/

theorem ofBuf_arg2 (p1 : main_arg2.ty = (⟨S3200000, .i32⟩ : BufTy)) (p2 : main_arg2.space ≠ .host)
    (p3 : main_arg2.isScoped = false) (v : IVec Spec.SE 32) :
    (StableHlo.TRef.of main_arg2 p1 p2 p3).ofBuf (Val := Elt Ideal) v = v := rfl
theorem ofBuf_arg3 (p1 : main_arg3.ty = (⟨S3200000, .i32⟩ : BufTy)) (p2 : main_arg3.space ≠ .host)
    (p3 : main_arg3.isScoped = false) (v : IVec Spec.SE 32) :
    (StableHlo.TRef.of main_arg3 p1 p2 p3).ofBuf (Val := Elt Ideal) v = v := rfl
theorem ofBuf_v15 (p1 : main_v15.ty = (⟨S100000x16, .f32⟩ : BufTy)) (p2 : main_v15.space ≠ .host)
    (p3 : main_v15.isScoped = false) (v : FVec Ideal Spec.SN16 .f32) :
    (StableHlo.TRef.of main_v15 p1 p2 p3).ofBuf (Val := Elt Ideal) v = v := rfl
theorem toBuf_v16 (p1 : main_v16.ty = (⟨S3200000x16, .f32⟩ : BufTy)) (p2 : main_v16.space ≠ .host)
    (p3 : main_v16.isScoped = false) (v : FVec Ideal Spec.SE16 .f32) :
    (StableHlo.TRef.of main_v16 p1 p2 p3).toBuf (Val := Elt Ideal) v = v := rfl
theorem toBuf_v17 (p1 : main_v17.ty = (⟨S3200000x16, .f32⟩ : BufTy)) (p2 : main_v17.space ≠ .host)
    (p3 : main_v17.isScoped = false) (v : FVec Ideal Spec.SE16 .f32) :
    (StableHlo.TRef.of main_v17 p1 p2 p3).toBuf (Val := Elt Ideal) v = v := rfl

end Pointwise

theorem take1 (V : Valuation τ sig (Elt Ideal)) (U : FVec Ideal Spec.SN16 .f32) (a : IVec Spec.SE 32)
    (hU : V (Proc.devRef .tc main_v15) = U) (ha : V (Proc.devRef .tc main_arg2) = a)
    (hn : ∀ i, (a i).toNat < 100000) :
    StableHlo.after (hostOps1 (F := Ideal)) V (Proc.devRef .tc main_v16)
      = (fun i => U (ix2 (Spec.nodeOf a ⟨(i 0).val, idx2_lt0 i⟩) (⟨(i 1).val, idx2_lt1 i⟩ : Fin 16)) : FVec Ideal Spec.SE16 .f32) := by
  after_results_simp
  repeat rw [ofBuf_toBuf]
  rw [hU, ha, toBuf_v16, ofBuf_v15, ofBuf_arg2, wrap_vec a hn]
  exact take_value a hn U _ _ _ _ _ _ _ _

theorem take2 (V : Valuation τ sig (Elt Ideal)) (U : FVec Ideal Spec.SN16 .f32) (a : IVec Spec.SE 32)
    (hU : V (Proc.devRef .tc main_v15) = U) (ha : V (Proc.devRef .tc main_arg3) = a)
    (hn : ∀ i, (a i).toNat < 100000) :
    StableHlo.after (hostOps1_1 (F := Ideal)) V (Proc.devRef .tc main_v17)
      = (fun i => U (ix2 (Spec.nodeOf a ⟨(i 0).val, idx2_lt0 i⟩) (⟨(i 1).val, idx2_lt1 i⟩ : Fin 16)) : FVec Ideal Spec.SE16 .f32) := by
  after_results_simp
  repeat rw [ofBuf_toBuf]
  rw [hU, ha, toBuf_v17, ofBuf_v15, ofBuf_arg3, wrap_vec a hn]
  exact take_value a hn U _ _ _ _ _ _ _ _

end Cert.KernelIdeal.Take

end
-- ==== Proof.KTab1.lean ====
/-
  What the second launch finds in its twelve input arrays, given that the first left u in its output array: the two
  row gathers of u at the edge-index inputs (inside the node range no row is filled in), binary as a column, and the
  nine small tables of the binary clauses; and that u itself passes unchanged to the end of the second launch.

  Each stretch of host operations is read once, from ANY contents of the buffers before it: what it leaves in a buffer
  it writes is a function of what the buffers it reads held. The stretches are then chained from the launch's memory:
  a buffer no later stretch writes keeps what the writing stretch left.

  The selection table of the binary stage is a one-hot: entry (f, d) is 1 exactly when the index word of flat literal
  f (clause f / 3, position f % 3) is the number d, d over the 33 joined columns. The kernel takes it, and its
  transpose, in three blocks: joined columns 0..15 (the first node), 16..31 (the second node), 32 (the edge itself).
  The clause table compares the clause numbers f / 3 of two flat literals; jnp.floor_divide of 0..23 by 3 is that
  number (the dividend is never negative, so the correction for unlike signs never applies).
-/
import proofs.«427341_j23287312679568_3_alg».proof.Proof.Gen.KernelIdeal.Frame
import proofs.«427341_j23287312679568_3_alg».proof.Proof.Tables
import proofs.«427341_j23287312679568_3_alg».proof.Proof.KArgs
import proofs.«427341_j23287312679568_3_alg».proof.Proof.KTake
import Idealize.ShloMosaic.Lib.StableHlo.Run
import Idealize.ShloMosaic.Lib.StableHlo.Predicate
import Idealize.ShloMosaic.Lib.Pipeline.Value

noncomputable section

namespace Cert.KernelIdeal.Tab1

open Cert.KernelIdeal Cert.KernelIdeal.Gen
open Idealize.ShloMosaic Idealize.ShloMosaic.TcCoe Idealize.SL.Sem Idealize.ShloMosaic.ValueIdx

open Cert.KernelIdeal.KV

variable (m : (ℓ : Loc nD τ sig) → Buf (Elt Ideal) ℓ) (ρ : Dev nD → PrngReg) (c : Dev nD)

/-- A stretch of host operations none of which writes the buffer read leaves it as it was: the buffer is compared
    with each operation's result buffer. -/
local macro "skip_stretch " h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Words and indicators -/

/-- A 0/1 word turned into a float is the indicator of the equality it tests. -/
theorem uitofp_eq_ind (x y : BitVec 32) :
    (FloatOps.uitofp (F := Ideal) .f32 (IntOp.cmpi .eq x y)) = Spec.ind (x = y) := by
  show (((IntOp.cmpi .eq x y).toNat : ℝ) : EReal) = _
  unfold Spec.ind IntOp.cmpi
  by_cases h : x = y
  · simp [h]
  · simp [h]

/-- Two numbers below 24 are equal when their 32-bit words are. -/
theorem ofNat_eq_iff {a b : ℕ} (ha : a < 24) (hb : b < 24) : BitVec.ofNat 32 a = BitVec.ofNat 32 b ↔ a = b := by
  constructor
  · intro h
    have e := congrArg BitVec.toNat h
    rw [BitVec.toNat_ofNat, BitVec.toNat_ofNat] at e
    omega
  · rintro rfl
    rfl

/-- The sign of a word as jnp.sign gives it. -/
def sgnW (x : BitVec 32) : BitVec 32 := if x = 0 then 0 else if x.msb then -1 else 1

/-- jnp.floor_divide by 3 on one word: the truncated quotient, lowered by one when the signs of dividend and divisor
    differ and the division is not exact. -/
def fdiv3 (x : BitVec 32) : BitVec 32 :=
  Scalar.select
    (IntOp.andi (IntOp.cmpi .ne (sgnW x) (sgnW 3#32)) (IntOp.cmpi .ne (IntOp.remsi .host x 3#32) 0#32))
    (IntOp.subi (IntOp.divsi .host x 3#32) 1#32) (IntOp.divsi .host x 3#32)

/-- On the flat literal numbers 0..23 it is the clause number f / 3. -/
theorem fdiv3_ofNat : ∀ k : Fin 24, fdiv3 (BitVec.ofNat 32 k.val) = BitVec.ofNat 32 (k.val / 3) := by decide

/-! ## The three casts of the clause layout (flat literal f = 3·clause + position) -/

/-- The 8 x 3 clause layout cast to one row of 24 reads (clause f / 3, position f % 3) at column f. -/
theorem cast_8x3_row {α : Type} (x : Spec.S8x3.Idx → α) (h : Spec.S8x3.ShapeCasts Spec.S1x24) (i : Spec.S1x24.Idx) :
    shapeCast Spec.S1x24 x h i
      = x (ix2 (⟨(i 1).val / 3, by have := idx2_lt1 i; omega⟩ : Fin 8) (⟨(i 1).val % 3, by omega⟩ : Fin 3)) := by
  refine shapeCast_apply x h i _ ?_
  rw [Shape.rowMajor_val_two, Shape.rowMajor_val_two]
  show (i 1).val / 3 * 3 + (i 1).val % 3 = (i 0).val * 24 + (i 1).val
  have h0 := idx2_lt0 i
  omega

/-- The same layout cast to a flat vector of 24. -/
theorem cast_8x3_flat {α : Type} (x : Spec.S8x3.Idx → α) (h : Spec.S8x3.ShapeCasts (⟨1, ![24]⟩ : Shape)) (f : Fin 24) :
    shapeCast (⟨1, ![24]⟩ : Shape) x h (ix1 f)
      = x (ix2 (⟨f.val / 3, by omega⟩ : Fin 8) (⟨f.val % 3, by omega⟩ : Fin 3)) := by
  refine shapeCast_apply x h (ix1 f) _ ?_
  rw [Shape.rowMajor_val_two, Shape.rowMajor_val_one]
  show f.val / 3 * 3 + f.val % 3 = f.val
  omega

/-- A flat vector of 24 as one row. -/
theorem cast_flat_row {α : Type} (x : (⟨1, ![24]⟩ : Shape).Idx → α) (h : (⟨1, ![24]⟩ : Shape).ShapeCasts Spec.S1x24)
    (i : Spec.S1x24.Idx) :
    shapeCast Spec.S1x24 x h i = x (ix1 (⟨(i 1).val, idx2_lt1 i⟩ : Fin 24)) := by
  refine shapeCast_apply x h i _ ?_
  rw [Shape.rowMajor_val_two, Shape.rowMajor_val_one]
  show (i 1).val = (i 0).val * 24 + (i 1).val
  have h0 := idx2_lt0 i
  omega

/-! ## Each stretch read from any contents V of the buffers before it -/

/-- binary as a column: entry (e, 0) is binary e. -/
theorem ops1_2_v18 (V : Valuation τ sig (Elt Ideal)) :
    StableHlo.after (hostOps1_2 (F := Ideal)) V (Proc.devRef .tc main_v18)
      = broadcastInDim S3200000x1 ![0] bcast_S3200000_S3200000x1_0 (V (Proc.devRef .tc main_arg1)) := by
  after_results

/-- The index words of the binary clauses in flat order. -/
theorem ops1_2_v19 (V : Valuation τ sig (Elt Ideal)) (a6 : IVec Spec.S8x3 32) (h6 : V (Proc.devRef .tc main_arg6) = a6) :
    StableHlo.after (hostOps1_2 (F := Ideal)) V (Proc.devRef .tc main_v19)
      = (fun i => Spec.wordB a6 (i 0).val (i 0).isLt : IVec (⟨1, ![24]⟩ : Shape) 32) := by
  after_results
  rw [h6]
  funext i
  obtain ⟨f, rfl⟩ : ∃ f : Fin 24, i = ix1 f := ⟨i 0, eq_ix1 i⟩
  exact cast_8x3_flat a6 shapeCasts_S8x3_S24 f

/-- The polarities in flat order, as one row. -/
theorem ops1_2_v20 (V : Valuation τ sig (Elt Ideal)) (a7 : FVec Ideal Spec.S8x3 .f32) (h7 : V (Proc.devRef .tc main_arg7) = a7) :
    StableHlo.after (hostOps1_2 (F := Ideal)) V (Proc.devRef .tc main_v20) = Spec.sgRow1 a7 := by
  after_results
  rw [h7]
  funext i
  exact cast_8x3_row a7 shapeCasts_S8x3_S1x24 i

/-- The clause weights, each repeated over its clause's three literals, as one row. -/
theorem ops1_2_v23 (V : Valuation τ sig (Elt Ideal)) (a9 : FVec Ideal Spec.S8 .f32) (h9 : V (Proc.devRef .tc main_arg9) = a9) :
    StableHlo.after (hostOps1_2 (F := Ideal)) V (Proc.devRef .tc main_v23) = Spec.wRow1 a9 := by
  after_results
  rw [h9]
  funext i
  refine (cast_flat_row _ shapeCasts_S24_S1x24 i).trans ?_
  refine (cast_8x3_flat _ shapeCasts_S8x3_S24 _).trans ?_
  exact broadcastInDim_apply _ _ a9 _ (ix1 (⟨(i 1).val / 3, by have := idx2_lt1 i; omega⟩ : Fin 8)) (fun a => by
    match a with
    | ⟨0, _⟩ => rfl)

/-- The one-hot of the flat index words over the 33 joined columns: entry (f, d) is 1 exactly when word f is d. The
    words are repeated along the rows' columns and the column numbers along the rows, then compared. -/
theorem ops1_3_v24 (V : Valuation τ sig (Elt Ideal)) (w : IVec (⟨1, ![24]⟩ : Shape) 32) (hw : V (Proc.devRef .tc main_v19) = w) :
    StableHlo.after (hostOps1_3 (F := Ideal)) V (Proc.devRef .tc main_v24)
      = (fun i => Spec.ind (w (ix1 (⟨(i 0).val, idx2_lt0 i⟩ : Fin 24)) = BitVec.ofNat 32 (i 1).val) :
          FVec Ideal (⟨2, ![24, 33]⟩ : Shape) .f32) := by
  after_results
  simp only [StableHlo.TRef.ofBuf, StableHlo.TRef.toBuf, cast_eq]
  rw [hw]
  funext i
  refine Eq.trans ?_ (uitofp_eq_ind _ _)
  show FloatOps.uitofp (F := Ideal) .f32 (IntOp.cmpi .eq _ _) = _
  refine congrArg (FloatOps.uitofp (F := Ideal) .f32) (congrArg₂ (IntOp.cmpi .eq) ?_ ?_)
  · refine (broadcastInDim_apply _ _ _ i (ix2 (⟨(i 0).val, idx2_lt0 i⟩ : Fin 24) (0 : Fin 1)) (fun a => by
      match a with
      | ⟨0, _⟩ => rfl
      | ⟨1, _⟩ => rfl)).trans ?_
    exact broadcastInDim_apply _ _ w _ (ix1 (⟨(i 0).val, idx2_lt0 i⟩ : Fin 24)) (fun a => by
      match a with
      | ⟨0, _⟩ => rfl)
  · exact broadcastInDim_apply _ _ _ i (ix2 (0 : Fin 1) (⟨(i 1).val, idx2_lt1 i⟩ : Fin 33)) (fun a => by
      match a with
      | ⟨0, _⟩ => rfl
      | ⟨1, _⟩ => rfl)

/-- Its transpose: entry (d, f) is entry (f, d). -/
theorem ops1_4_v25 (V : Valuation τ sig (Elt Ideal)) (x : FVec Ideal (⟨2, ![24, 33]⟩ : Shape) .f32)
    (hx : V (Proc.devRef .tc main_v24) = x) :
    StableHlo.after (hostOps1_4 (F := Ideal)) V (Proc.devRef .tc main_v25)
      = (fun i => x (ix2 (⟨(i 1).val, idx2_lt1 i⟩ : Fin 24) (⟨(i 0).val, idx2_lt0 i⟩ : Fin 33)) :
          FVec Ideal (⟨2, ![33, 24]⟩ : Shape) .f32) := by
  after_results
  rw [hx]
  funext i
  exact transpose_apply _ x _ i _ (fun b => by
    match b with
    | ⟨0, _⟩ => rfl
    | ⟨1, _⟩ => rfl)

/-- The flat literal numbers 0..23 … -/
theorem ops1_4_v26 (V : Valuation τ sig (Elt Ideal)) :
    StableHlo.after (hostOps1_4 (F := Ideal)) V (Proc.devRef .tc main_v26) = iotaInDim S24 32 0 := by
  after_results

/-- … and the clause length 3. -/
theorem ops1_4_c0 (V : Valuation τ sig (Elt Ideal)) :
    StableHlo.after (hostOps1_4 (F := Ideal)) V (Proc.devRef .tc main_c_0) = constantI S_ 32 3#32 := by
  after_results

/-- jnp.floor_divide of the flat literal numbers by the clause length: the clause number of each flat literal. -/
theorem ops1_5_v27 (V : Valuation τ sig (Elt Ideal))
    (h26 : V (Proc.devRef .tc main_v26) = iotaInDim S24 32 0) (hc : V (Proc.devRef .tc main_c_0) = constantI S_ 32 3#32) :
    StableHlo.after (hostOps1_5 (F := Ideal)) V (Proc.devRef .tc main_v27)
      = (fun i => BitVec.ofNat 32 ((i 0).val / 3) : IVec (⟨1, ![24]⟩ : Shape) 32) := by
  after_results_simp
  simp only [StableHlo.TRef.ofBuf, StableHlo.TRef.toBuf, cast_eq]
  rw [h26, hc]
  funext i
  exact fdiv3_ofNat ⟨(i 0).val, (i 0).isLt⟩

/-- The clause table: 1 where the clause numbers of the two flat literals agree (the numbers repeated along the rows
    and, transposed, along the columns, then compared). -/
theorem ops1_6_v33 (V : Valuation τ sig (Elt Ideal)) (q : IVec (⟨1, ![24]⟩ : Shape) 32)
    (hq : V (Proc.devRef .tc main_v27) = q) :
    StableHlo.after (hostOps1_6 (F := Ideal)) V (Proc.devRef .tc main_v33)
      = (fun i => Spec.ind (q (ix1 (⟨(i 0).val, idx2_lt0 i⟩ : Fin 24)) = q (ix1 (⟨(i 1).val, idx2_lt1 i⟩ : Fin 24))) :
          FVec Ideal Spec.S24x24 .f32) := by
  after_results
  rw [hq]
  funext i
  refine Eq.trans ?_ (uitofp_eq_ind _ _)
  show FloatOps.uitofp (F := Ideal) .f32 (IntOp.cmpi .eq _ _) = _
  refine congrArg (FloatOps.uitofp (F := Ideal) .f32) (congrArg₂ (IntOp.cmpi .eq) ?_ ?_)
  · refine (broadcastInDim_apply _ _ _ i (ix2 (⟨(i 0).val, idx2_lt0 i⟩ : Fin 24) (0 : Fin 1)) (fun a => by
      match a with
      | ⟨0, _⟩ => rfl
      | ⟨1, _⟩ => rfl)).trans ?_
    exact broadcastInDim_apply _ _ q _ (ix1 (⟨(i 0).val, idx2_lt0 i⟩ : Fin 24)) (fun a => by
      match a with
      | ⟨0, _⟩ => rfl)
  · refine (broadcastInDim_apply _ _ _ i (ix2 (0 : Fin 1) (⟨(i 1).val, idx2_lt1 i⟩ : Fin 24)) (fun a => by
      match a with
      | ⟨0, _⟩ => rfl
      | ⟨1, _⟩ => rfl)).trans ?_
    refine (transpose_apply _ _ _ _ (ix2 (⟨(i 1).val, idx2_lt1 i⟩ : Fin 24) (0 : Fin 1)) (fun b => by
      match b with
      | ⟨0, _⟩ => rfl
      | ⟨1, _⟩ => rfl)).trans ?_
    exact broadcastInDim_apply _ _ q _ (ix1 (⟨(i 1).val, idx2_lt1 i⟩ : Fin 24)) (fun a => by
      match a with
      | ⟨0, _⟩ => rfl)

/-- The three row blocks of the transposed selection table: rows 0..15 … -/
theorem ops1_6_v34 (V : Valuation τ sig (Elt Ideal)) (y : FVec Ideal (⟨2, ![33, 24]⟩ : Shape) .f32)
    (hy : V (Proc.devRef .tc main_v25) = y) :
    StableHlo.after (hostOps1_6 (F := Ideal)) V (Proc.devRef .tc main_v34)
      = (fun i => y (ix2 (⟨(i 0).val, by have := idx2_lt0 i; omega⟩ : Fin 33) (⟨(i 1).val, idx2_lt1 i⟩ : Fin 24)) :
          FVec Ideal Spec.S16x24 .f32) := by
  after_results
  rw [hy]
  funext i
  exact extractStridedSlice_apply _ y _ i _ (fun a => by
    match a with
    | ⟨0, _⟩ => exact (Nat.zero_add _).symm
    | ⟨1, _⟩ => exact (Nat.zero_add _).symm)

/-- … rows 16..31 … -/
theorem ops1_6_v35 (V : Valuation τ sig (Elt Ideal)) (y : FVec Ideal (⟨2, ![33, 24]⟩ : Shape) .f32)
    (hy : V (Proc.devRef .tc main_v25) = y) :
    StableHlo.after (hostOps1_6 (F := Ideal)) V (Proc.devRef .tc main_v35)
      = (fun i => y (ix2 (⟨16 + (i 0).val, by have := idx2_lt0 i; omega⟩ : Fin 33) (⟨(i 1).val, idx2_lt1 i⟩ : Fin 24)) :
          FVec Ideal Spec.S16x24 .f32) := by
  after_results
  rw [hy]
  funext i
  exact extractStridedSlice_apply _ y _ i _ (fun a => by
    match a with
    | ⟨0, _⟩ => rfl
    | ⟨1, _⟩ => exact (Nat.zero_add _).symm)

/-- … and row 32. -/
theorem ops1_6_v36 (V : Valuation τ sig (Elt Ideal)) (y : FVec Ideal (⟨2, ![33, 24]⟩ : Shape) .f32)
    (hy : V (Proc.devRef .tc main_v25) = y) :
    StableHlo.after (hostOps1_6 (F := Ideal)) V (Proc.devRef .tc main_v36)
      = (fun i => y (ix2 (⟨32, by decide⟩ : Fin 33) (⟨(i 1).val, idx2_lt1 i⟩ : Fin 24)) : FVec Ideal Spec.S1x24 .f32) := by
  after_results
  rw [hy]
  funext i
  exact extractStridedSlice_apply _ y _ i _ (fun a => by
    match a with
    | ⟨0, _⟩ =>
      show 32 = 32 + (i 0).val
      have := idx2_lt0 i
      omega
    | ⟨1, _⟩ => exact (Nat.zero_add _).symm)

/-- The three column blocks of the selection table: columns 0..15 … -/
theorem ops1_6_v37 (V : Valuation τ sig (Elt Ideal)) (x : FVec Ideal (⟨2, ![24, 33]⟩ : Shape) .f32)
    (hx : V (Proc.devRef .tc main_v24) = x) :
    StableHlo.after (hostOps1_6 (F := Ideal)) V (Proc.devRef .tc main_v37)
      = (fun i => x (ix2 (⟨(i 0).val, idx2_lt0 i⟩ : Fin 24) (⟨(i 1).val, by have := idx2_lt1 i; omega⟩ : Fin 33)) :
          FVec Ideal Spec.S24x16 .f32) := by
  after_results
  rw [hx]
  funext i
  exact extractStridedSlice_apply _ x _ i _ (fun a => by
    match a with
    | ⟨0, _⟩ => exact (Nat.zero_add _).symm
    | ⟨1, _⟩ => exact (Nat.zero_add _).symm)

/-- … columns 16..31 … -/
theorem ops1_6_v38 (V : Valuation τ sig (Elt Ideal)) (x : FVec Ideal (⟨2, ![24, 33]⟩ : Shape) .f32)
    (hx : V (Proc.devRef .tc main_v24) = x) :
    StableHlo.after (hostOps1_6 (F := Ideal)) V (Proc.devRef .tc main_v38)
      = (fun i => x (ix2 (⟨(i 0).val, idx2_lt0 i⟩ : Fin 24) (⟨16 + (i 1).val, by have := idx2_lt1 i; omega⟩ : Fin 33)) :
          FVec Ideal Spec.S24x16 .f32) := by
  after_results
  rw [hx]
  funext i
  exact extractStridedSlice_apply _ x _ i _ (fun a => by
    match a with
    | ⟨0, _⟩ => exact (Nat.zero_add _).symm
    | ⟨1, _⟩ => rfl)

/-- … and column 32. -/
theorem ops1_6_v39 (V : Valuation τ sig (Elt Ideal)) (x : FVec Ideal (⟨2, ![24, 33]⟩ : Shape) .f32)
    (hx : V (Proc.devRef .tc main_v24) = x) :
    StableHlo.after (hostOps1_6 (F := Ideal)) V (Proc.devRef .tc main_v39)
      = (fun i => x (ix2 (⟨(i 0).val, idx2_lt0 i⟩ : Fin 24) (⟨32, by decide⟩ : Fin 33)) : FVec Ideal Spec.S24x1 .f32) := by
  after_results
  rw [hx]
  funext i
  exact extractStridedSlice_apply _ x _ i _ (fun a => by
    match a with
    | ⟨0, _⟩ => exact (Nat.zero_add _).symm
    | ⟨1, _⟩ =>
      show 32 = 32 + (i 1).val
      have := idx2_lt1 i
      omega)

/-! ## The arguments at the first launch's exit: nothing before it writes an argument -/

theorem w6_arg1 : W6 (F := Ideal) m ρ c (Proc.devRef .tc main_arg1) = A1 m c :=
  calc W6 (F := Ideal) m ρ c (Proc.devRef .tc main_arg1)
    _ = W5 m ρ c (Proc.devRef .tc main_arg1) := W6_of_ne m ρ c main_arg1 (by decide)
    _ = W4 m ρ c (Proc.devRef .tc main_arg1) := by skip_stretch hostOps0_4
    _ = W3 m ρ c (Proc.devRef .tc main_arg1) := by skip_stretch hostOps0_3
    _ = W2 m ρ c (Proc.devRef .tc main_arg1) := by skip_stretch hostOps0_2
    _ = W1 m ρ c (Proc.devRef .tc main_arg1) := by skip_stretch hostOps0_1
    _ = W0 m ρ c (Proc.devRef .tc main_arg1) := by skip_stretch hostOps0
    _ = A1 m c := rfl

theorem w6_arg2 : W6 (F := Ideal) m ρ c (Proc.devRef .tc main_arg2) = A2 m c :=
  calc W6 (F := Ideal) m ρ c (Proc.devRef .tc main_arg2)
    _ = W5 m ρ c (Proc.devRef .tc main_arg2) := W6_of_ne m ρ c main_arg2 (by decide)
    _ = W4 m ρ c (Proc.devRef .tc main_arg2) := by skip_stretch hostOps0_4
    _ = W3 m ρ c (Proc.devRef .tc main_arg2) := by skip_stretch hostOps0_3
    _ = W2 m ρ c (Proc.devRef .tc main_arg2) := by skip_stretch hostOps0_2
    _ = W1 m ρ c (Proc.devRef .tc main_arg2) := by skip_stretch hostOps0_1
    _ = W0 m ρ c (Proc.devRef .tc main_arg2) := by skip_stretch hostOps0
    _ = A2 m c := rfl

theorem w6_arg3 : W6 (F := Ideal) m ρ c (Proc.devRef .tc main_arg3) = A3 m c :=
  calc W6 (F := Ideal) m ρ c (Proc.devRef .tc main_arg3)
    _ = W5 m ρ c (Proc.devRef .tc main_arg3) := W6_of_ne m ρ c main_arg3 (by decide)
    _ = W4 m ρ c (Proc.devRef .tc main_arg3) := by skip_stretch hostOps0_4
    _ = W3 m ρ c (Proc.devRef .tc main_arg3) := by skip_stretch hostOps0_3
    _ = W2 m ρ c (Proc.devRef .tc main_arg3) := by skip_stretch hostOps0_2
    _ = W1 m ρ c (Proc.devRef .tc main_arg3) := by skip_stretch hostOps0_1
    _ = W0 m ρ c (Proc.devRef .tc main_arg3) := by skip_stretch hostOps0
    _ = A3 m c := rfl

theorem w6_arg6 : W6 (F := Ideal) m ρ c (Proc.devRef .tc main_arg6) = A6 m c :=
  calc W6 (F := Ideal) m ρ c (Proc.devRef .tc main_arg6)
    _ = W5 m ρ c (Proc.devRef .tc main_arg6) := W6_of_ne m ρ c main_arg6 (by decide)
    _ = W4 m ρ c (Proc.devRef .tc main_arg6) := by skip_stretch hostOps0_4
    _ = W3 m ρ c (Proc.devRef .tc main_arg6) := by skip_stretch hostOps0_3
    _ = W2 m ρ c (Proc.devRef .tc main_arg6) := by skip_stretch hostOps0_2
    _ = W1 m ρ c (Proc.devRef .tc main_arg6) := by skip_stretch hostOps0_1
    _ = W0 m ρ c (Proc.devRef .tc main_arg6) := by skip_stretch hostOps0
    _ = A6 m c := rfl

theorem w6_arg7 : W6 (F := Ideal) m ρ c (Proc.devRef .tc main_arg7) = A7 m c :=
  calc W6 (F := Ideal) m ρ c (Proc.devRef .tc main_arg7)
    _ = W5 m ρ c (Proc.devRef .tc main_arg7) := W6_of_ne m ρ c main_arg7 (by decide)
    _ = W4 m ρ c (Proc.devRef .tc main_arg7) := by skip_stretch hostOps0_4
    _ = W3 m ρ c (Proc.devRef .tc main_arg7) := by skip_stretch hostOps0_3
    _ = W2 m ρ c (Proc.devRef .tc main_arg7) := by skip_stretch hostOps0_2
    _ = W1 m ρ c (Proc.devRef .tc main_arg7) := by skip_stretch hostOps0_1
    _ = W0 m ρ c (Proc.devRef .tc main_arg7) := by skip_stretch hostOps0
    _ = A7 m c := rfl

theorem w6_arg9 : W6 (F := Ideal) m ρ c (Proc.devRef .tc main_arg9) = A9 m c :=
  calc W6 (F := Ideal) m ρ c (Proc.devRef .tc main_arg9)
    _ = W5 m ρ c (Proc.devRef .tc main_arg9) := W6_of_ne m ρ c main_arg9 (by decide)
    _ = W4 m ρ c (Proc.devRef .tc main_arg9) := by skip_stretch hostOps0_4
    _ = W3 m ρ c (Proc.devRef .tc main_arg9) := by skip_stretch hostOps0_3
    _ = W2 m ρ c (Proc.devRef .tc main_arg9) := by skip_stretch hostOps0_2
    _ = W1 m ρ c (Proc.devRef .tc main_arg9) := by skip_stretch hostOps0_1
    _ = W0 m ρ c (Proc.devRef .tc main_arg9) := by skip_stretch hostOps0
    _ = A9 m c := rfl

/-! ## The same arguments where the later stretches read them: the two gathers write none of them -/

theorem w7_arg3 : W7 (F := Ideal) m ρ c (Proc.devRef .tc main_arg3) = A3 m c :=
  calc W7 (F := Ideal) m ρ c (Proc.devRef .tc main_arg3)
    _ = W6 m ρ c (Proc.devRef .tc main_arg3) := by skip_stretch hostOps1
    _ = A3 m c := w6_arg3 m ρ c

theorem w7_u : W7 (F := Ideal) m ρ c (Proc.devRef .tc main_v15) = W6 (F := Ideal) m ρ c (Proc.devRef .tc main_v15) := by
  skip_stretch hostOps1

theorem w8_arg1 : W8 (F := Ideal) m ρ c (Proc.devRef .tc main_arg1) = A1 m c :=
  calc W8 (F := Ideal) m ρ c (Proc.devRef .tc main_arg1)
    _ = W7 m ρ c (Proc.devRef .tc main_arg1) := by skip_stretch hostOps1_1
    _ = W6 m ρ c (Proc.devRef .tc main_arg1) := by skip_stretch hostOps1
    _ = A1 m c := w6_arg1 m ρ c

theorem w8_arg6 : W8 (F := Ideal) m ρ c (Proc.devRef .tc main_arg6) = A6 m c :=
  calc W8 (F := Ideal) m ρ c (Proc.devRef .tc main_arg6)
    _ = W7 m ρ c (Proc.devRef .tc main_arg6) := by skip_stretch hostOps1_1
    _ = W6 m ρ c (Proc.devRef .tc main_arg6) := by skip_stretch hostOps1
    _ = A6 m c := w6_arg6 m ρ c

theorem w8_arg7 : W8 (F := Ideal) m ρ c (Proc.devRef .tc main_arg7) = A7 m c :=
  calc W8 (F := Ideal) m ρ c (Proc.devRef .tc main_arg7)
    _ = W7 m ρ c (Proc.devRef .tc main_arg7) := by skip_stretch hostOps1_1
    _ = W6 m ρ c (Proc.devRef .tc main_arg7) := by skip_stretch hostOps1
    _ = A7 m c := w6_arg7 m ρ c

theorem w8_arg9 : W8 (F := Ideal) m ρ c (Proc.devRef .tc main_arg9) = A9 m c :=
  calc W8 (F := Ideal) m ρ c (Proc.devRef .tc main_arg9)
    _ = W7 m ρ c (Proc.devRef .tc main_arg9) := by skip_stretch hostOps1_1
    _ = W6 m ρ c (Proc.devRef .tc main_arg9) := by skip_stretch hostOps1
    _ = A9 m c := w6_arg9 m ρ c

/-! ## The selection table and the clause numbers, as functions of the clause inputs -/

/-- The selection table of the binary stage over all 33 joined columns, literals x columns. -/
def OH (a6 : IVec Spec.S8x3 32) : FVec Ideal (⟨2, ![24, 33]⟩ : Shape) .f32 :=
  fun i => Spec.ind (Spec.wordB a6 (i 0).val (idx2_lt0 i) = BitVec.ofNat 32 (i 1).val)

/-- Its transpose, columns x literals. -/
def OHt (a6 : IVec Spec.S8x3 32) : FVec Ideal (⟨2, ![33, 24]⟩ : Shape) .f32 :=
  fun i => Spec.ind (Spec.wordB a6 (i 1).val (idx2_lt1 i) = BitVec.ofNat 32 (i 0).val)

theorem w9_v19 : W9 (F := Ideal) m ρ c (Proc.devRef .tc main_v19)
    = (fun i => Spec.wordB (A6 m c) (i 0).val (i 0).isLt : IVec (⟨1, ![24]⟩ : Shape) 32) :=
  ops1_2_v19 (W8 (F := Ideal) m ρ c) (A6 m c) (w8_arg6 m ρ c)

theorem w10_v24 : W10 (F := Ideal) m ρ c (Proc.devRef .tc main_v24) = OH (A6 m c) :=
  ops1_3_v24 (W9 (F := Ideal) m ρ c) _ (w9_v19 m ρ c)

theorem w12_v24 : W12 (F := Ideal) m ρ c (Proc.devRef .tc main_v24) = OH (A6 m c) :=
  calc W12 (F := Ideal) m ρ c (Proc.devRef .tc main_v24)
    _ = W11 m ρ c (Proc.devRef .tc main_v24) := by skip_stretch hostOps1_5
    _ = W10 m ρ c (Proc.devRef .tc main_v24) := by skip_stretch hostOps1_4
    _ = OH (A6 m c) := w10_v24 m ρ c

theorem w12_v25 : W12 (F := Ideal) m ρ c (Proc.devRef .tc main_v25) = OHt (A6 m c) :=
  calc W12 (F := Ideal) m ρ c (Proc.devRef .tc main_v25)
    _ = W11 m ρ c (Proc.devRef .tc main_v25) := by skip_stretch hostOps1_5
    _ = OHt (A6 m c) := ops1_4_v25 (W10 (F := Ideal) m ρ c) _ (w10_v24 m ρ c)

theorem w12_v27 : W12 (F := Ideal) m ρ c (Proc.devRef .tc main_v27)
    = (fun i => BitVec.ofNat 32 ((i 0).val / 3) : IVec (⟨1, ![24]⟩ : Shape) 32) :=
  ops1_5_v27 (W11 (F := Ideal) m ρ c) (ops1_4_v26 (W10 (F := Ideal) m ρ c)) (ops1_4_c0 (W10 (F := Ideal) m ρ c))

/-! ## The statements -/

/-- No host operation between the launches and no window of the second launch writes the first launch's output array. -/
theorem w14_u : W14 (F := Ideal) m ρ c (Proc.devRef .tc main_v15) = W6 (F := Ideal) m ρ c (Proc.devRef .tc main_v15) :=
  calc W14 (F := Ideal) m ρ c (Proc.devRef .tc main_v15)
    _ = W13 m ρ c (Proc.devRef .tc main_v15) := W14_of_ne m ρ c main_v15 (by decide)
    _ = W12 m ρ c (Proc.devRef .tc main_v15) := by skip_stretch hostOps1_6
    _ = W11 m ρ c (Proc.devRef .tc main_v15) := by skip_stretch hostOps1_5
    _ = W10 m ρ c (Proc.devRef .tc main_v15) := by skip_stretch hostOps1_4
    _ = W9 m ρ c (Proc.devRef .tc main_v15) := by skip_stretch hostOps1_3
    _ = W8 m ρ c (Proc.devRef .tc main_v15) := by skip_stretch hostOps1_2
    _ = W7 m ρ c (Proc.devRef .tc main_v15) := by skip_stretch hostOps1_1
    _ = W6 m ρ c (Proc.devRef .tc main_v15) := by skip_stretch hostOps1
theorem v13_g1 (hU : W6 (F := Ideal) m ρ c (Proc.devRef .tc main_v15) = Spec.Uarr (A0 m c) (A4 m c) (A5 m c) (A8 m c)) (hadm : AdmK m c) :
    V13 (F := Ideal) m ρ c main_v16 = Spec.Garr (A0 m c) (A4 m c) (A5 m c) (A8 m c) (A2 m c) := by
  calc V13 (F := Ideal) m ρ c main_v16
    _ = W12 m ρ c (Proc.devRef .tc main_v16) := by skip_stretch hostOps1_6
    _ = W11 m ρ c (Proc.devRef .tc main_v16) := by skip_stretch hostOps1_5
    _ = W10 m ρ c (Proc.devRef .tc main_v16) := by skip_stretch hostOps1_4
    _ = W9 m ρ c (Proc.devRef .tc main_v16) := by skip_stretch hostOps1_3
    _ = W8 m ρ c (Proc.devRef .tc main_v16) := by skip_stretch hostOps1_2
    _ = W7 m ρ c (Proc.devRef .tc main_v16) := by skip_stretch hostOps1_1
    _ = _ := Take.take1 (W6 (F := Ideal) m ρ c) _ (A2 m c) hU (w6_arg2 m ρ c) hadm.n2
    _ = Spec.Garr (A0 m c) (A4 m c) (A5 m c) (A8 m c) (A2 m c) := by
      funext i
      rfl
theorem v13_g2 (hU : W6 (F := Ideal) m ρ c (Proc.devRef .tc main_v15) = Spec.Uarr (A0 m c) (A4 m c) (A5 m c) (A8 m c)) (hadm : AdmK m c) :
    V13 (F := Ideal) m ρ c main_v17 = Spec.Garr (A0 m c) (A4 m c) (A5 m c) (A8 m c) (A3 m c) := by
  calc V13 (F := Ideal) m ρ c main_v17
    _ = W12 m ρ c (Proc.devRef .tc main_v17) := by skip_stretch hostOps1_6
    _ = W11 m ρ c (Proc.devRef .tc main_v17) := by skip_stretch hostOps1_5
    _ = W10 m ρ c (Proc.devRef .tc main_v17) := by skip_stretch hostOps1_4
    _ = W9 m ρ c (Proc.devRef .tc main_v17) := by skip_stretch hostOps1_3
    _ = W8 m ρ c (Proc.devRef .tc main_v17) := by skip_stretch hostOps1_2
    _ = _ := Take.take2 (W7 (F := Ideal) m ρ c) _ (A3 m c) ((w7_u m ρ c).trans hU) (w7_arg3 m ρ c) hadm.n3
    _ = Spec.Garr (A0 m c) (A4 m c) (A5 m c) (A8 m c) (A3 m c) := by
      funext i
      rfl
theorem v13_bc  :
    V13 (F := Ideal) m ρ c main_v18 = Spec.BCarr (A1 m c) := by
  calc V13 (F := Ideal) m ρ c main_v18
    _ = W12 m ρ c (Proc.devRef .tc main_v18) := by skip_stretch hostOps1_6
    _ = W11 m ρ c (Proc.devRef .tc main_v18) := by skip_stretch hostOps1_5
    _ = W10 m ρ c (Proc.devRef .tc main_v18) := by skip_stretch hostOps1_4
    _ = W9 m ρ c (Proc.devRef .tc main_v18) := by skip_stretch hostOps1_3
    _ = broadcastInDim S3200000x1 ![0] bcast_S3200000_S3200000x1_0 (W8 (F := Ideal) m ρ c (Proc.devRef .tc main_arg1)) :=
      ops1_2_v18 (W8 (F := Ideal) m ρ c)
    _ = Spec.BCarr (A1 m c) := by
      rw [w8_arg1]
      funext i
      exact broadcastInDim_apply _ _ _ i (ix1 ⟨(i 0).val, idx2_lt0 i⟩) (fun a => by
        match a with
        | ⟨0, _⟩ => rfl)
theorem v13_Mg1  :
    V13 (F := Ideal) m ρ c main_v34 = Spec.Mg1 (A6 m c) :=
  (ops1_6_v34 (W12 (F := Ideal) m ρ c) _ (w12_v25 m ρ c)).trans (funext fun i => rfl)
theorem v13_Mg2  :
    V13 (F := Ideal) m ρ c main_v35 = Spec.Mg2 (A6 m c) :=
  (ops1_6_v35 (W12 (F := Ideal) m ρ c) _ (w12_v25 m ρ c)).trans (funext fun i => rfl)
theorem v13_Mbin  :
    V13 (F := Ideal) m ρ c main_v36 = Spec.Mbin (A6 m c) :=
  (ops1_6_v36 (W12 (F := Ideal) m ρ c) _ (w12_v25 m ρ c)).trans (funext fun i => rfl)
theorem v13_Mtg1  :
    V13 (F := Ideal) m ρ c main_v37 = Spec.Mtg1 (A6 m c) :=
  (ops1_6_v37 (W12 (F := Ideal) m ρ c) _ (w12_v24 m ρ c)).trans (funext fun i => rfl)
theorem v13_Mtg2  :
    V13 (F := Ideal) m ρ c main_v38 = Spec.Mtg2 (A6 m c) :=
  (ops1_6_v38 (W12 (F := Ideal) m ρ c) _ (w12_v24 m ρ c)).trans (funext fun i => rfl)
theorem v13_Mtbin  :
    V13 (F := Ideal) m ρ c main_v39 = Spec.Mtbin (A6 m c) :=
  (ops1_6_v39 (W12 (F := Ideal) m ρ c) _ (w12_v24 m ρ c)).trans (funext fun i => rfl)
theorem v13_P  :
    V13 (F := Ideal) m ρ c main_v33 = Spec.P1 := by
  refine (ops1_6_v33 (W12 (F := Ideal) m ρ c) _ (w12_v27 m ρ c)).trans ?_
  funext i
  show Spec.ind (BitVec.ofNat 32 ((i 0).val / 3) = BitVec.ofNat 32 ((i 1).val / 3)) = Spec.ind ((i 0).val / 3 = (i 1).val / 3)
  have h0 : (i 0).val < 24 := idx2_lt0 i
  have h1 : (i 1).val < 24 := idx2_lt1 i
  unfold Spec.ind
  exact if_congr (ofNat_eq_iff (by omega) (by omega)) rfl rfl
theorem v13_sg  :
    V13 (F := Ideal) m ρ c main_v20 = Spec.sgRow1 (A7 m c) :=
  calc V13 (F := Ideal) m ρ c main_v20
    _ = W12 m ρ c (Proc.devRef .tc main_v20) := by skip_stretch hostOps1_6
    _ = W11 m ρ c (Proc.devRef .tc main_v20) := by skip_stretch hostOps1_5
    _ = W10 m ρ c (Proc.devRef .tc main_v20) := by skip_stretch hostOps1_4
    _ = W9 m ρ c (Proc.devRef .tc main_v20) := by skip_stretch hostOps1_3
    _ = Spec.sgRow1 (A7 m c) := ops1_2_v20 (W8 (F := Ideal) m ρ c) (A7 m c) (w8_arg7 m ρ c)
theorem v13_w  :
    V13 (F := Ideal) m ρ c main_v23 = Spec.wRow1 (A9 m c) :=
  calc V13 (F := Ideal) m ρ c main_v23
    _ = W12 m ρ c (Proc.devRef .tc main_v23) := by skip_stretch hostOps1_6
    _ = W11 m ρ c (Proc.devRef .tc main_v23) := by skip_stretch hostOps1_5
    _ = W10 m ρ c (Proc.devRef .tc main_v23) := by skip_stretch hostOps1_4
    _ = W9 m ρ c (Proc.devRef .tc main_v23) := by skip_stretch hostOps1_3
    _ = Spec.wRow1 (A9 m c) := ops1_2_v23 (W8 (F := Ideal) m ρ c) (A9 m c) (w8_arg9 m ρ c)

end Cert.KernelIdeal.Tab1

end
-- ==== Proof.KRegion1.lean ====
/-
  The second launch (640 blocks of 5000 edges): whatever contents V it is entered from, if its twelve input arrays hold
  the two gathered node rows, the binary column and the binary tables, then after its last write-back its output
  array holds, per edge, the boost of the joined row in columns 0..31 and binary + boost in column 32.

  The body stores three pieces that tile the 5000 × 33 block (columns 0..15, 16..31 and 32).  At one row the selection
  products pick, for each of the 24 literals, the joined row's entry in the literal's column; the row maximum is a real
  number, constant on every clause, so the shifted clause softmaxes, weighted, signed and scattered back through the
  transposed tables, are the knowledge enhancer's boost of that row.  Block t holds the edges 5000 t .. 5000 t + 4999,
  and the blocks cover the array.
-/
import proofs.«427341_j23287312679568_3_alg».proof.Proof.Gen.KernelIdeal.Frame
import proofs.«427341_j23287312679568_3_alg».proof.Proof.Tables
import proofs.«427341_j23287312679568_3_alg».proof.Proof.KeLaw
import Idealize.ShloMosaic.Lib.Pipeline.Value
import Idealize.ShloMosaic.Lib.ValueLayout
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem Idealize.ShloMosaic.ValueIdx

/-! ## Layout and product operations read at an index -/

section Generic
variable {α : Type}

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Generic

/-- The plain product of an m×k by a k×n matrix into the zero accumulator, read at `(a, b)` at the ideal values: the
    sum over the contracted coordinate of the products of the entries. -/
theorem matmul_plain_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The word `0xFF800000` is −∞. -/
theorem ofBits_neg_inf : Ideal.ofBits .f32 0xFF800000#32 = (⊥ : EReal) := by
  simp [Ideal.ofBits, Ideal.ieee]

/-- A row maximum of a `[a, b]` array from −∞, read at row `r`: the fold of `max` from −∞ over the row's entries. -/
theorem rowmax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max (⊥ : EReal) (fun f => src (ix2 r f)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [ofBits_neg_inf]
  refine congrArg (fun g => (Finset.univ : Finset (Fin b)).fold max (⊥ : EReal) g) (funext fun f => ?_)
  show src (h.lift (ix1 r) f) = src (ix2 r f)
  refine congrArg src (funext fun ax => Fin.ext ?_)
  match ax with
  | ⟨0, _⟩ => rfl
  | ⟨1, _⟩ => rfl

/-! ## The joined row's entry a literal reads, through the three selection tables -/

/-- Under the range fact on the index words, literal `f`'s word is the number `n` exactly when its column is `n`. -/
theorem wordB_eq_iff (a6 : IVec Spec.S8x3 32) (hn6 : ∀ i, (a6 i).toNat < 33) (f : Fin 24) (n : ℕ) (hn : n < 33) :
    Spec.wordB a6 f.val f.isLt = BitVec.ofNat 32 n ↔ (Spec.colB a6 f).val = n := by
  have hw := hn6 (ix2 (⟨f.val / 3, by omega⟩ : Fin 8) (⟨f.val % 3, by omega⟩ : Fin 3))
  show a6 (ix2 (⟨f.val / 3, _⟩ : Fin 8) (⟨f.val % 3, _⟩ : Fin 3)) = _
    ↔ (a6 (ix2 (⟨f.val / 3, _⟩ : Fin 8) (⟨f.val % 3, _⟩ : Fin 3))).toNat % 33 = n
  rw [Nat.mod_eq_of_lt hw, ← BitVec.toNat_inj, BitVec.toNat_ofNat, Nat.mod_eq_of_lt (by omega : n < 2 ^ 32)]

/-- Selecting, among the entries `o .. o + n − 1` of a row `z`, the one whose position is `k`: the entry `z k` when `k`
    lies in that range, nothing otherwise. -/
theorem sum_sel {N : ℕ} (z : Fin N → ℝ) (k : Fin N) (n o : ℕ) (ho : o + n ≤ N) :
    (∑ d : Fin n, if k.val = o + d.val then ((z ⟨o + d.val, by have := d.isLt; omega⟩ : ℝ) : EReal) else 0)
      = if o ≤ k.val ∧ k.val < o + n then ((z k : ℝ) : EReal) else 0 := by
  by_cases h : o ≤ k.val ∧ k.val < o + n
  · rw [if_pos h, Finset.sum_eq_single (⟨k.val - o, by omega⟩ : Fin n)]
    · rw [if_pos (show k.val = o + (k.val - o) by omega)]
      exact congrArg (fun i => ((z i : ℝ) : EReal)) (Fin.ext (show o + (k.val - o) = k.val by omega))
    · intro d _ hd
      exact if_neg fun e => hd (Fin.ext (show d.val = k.val - o by omega))
    · intro h'; exact absurd (Finset.mem_univ _) h'
  · rw [if_neg h]
    exact Finset.sum_eq_zero fun d _ => if_neg (by have := d.isLt; omega)

/-- The literal's pre-activation: the two gathered node rows against the two node tables plus the edge's own entry against
    its table pick, of the joined row `z` (first node's 16, second node's 16, the edge's one), the entry in column `k`,
    when the literal's word `w` names column `k`. -/
theorem lit_row (z : Fin 33 → ℝ) (k : Fin 33) (A B : Fin 16 → EReal) (C : EReal) (w : BitVec 32)
    (hA : ∀ d : Fin 16, A d = ((z ⟨d.val, by have := d.isLt; omega⟩ : ℝ) : EReal))
    (hB : ∀ d : Fin 16, B d = ((z ⟨16 + d.val, by have := d.isLt; omega⟩ : ℝ) : EReal))
    (hC : C = ((z ⟨32, by omega⟩ : ℝ) : EReal))
    (hw : ∀ n, n < 33 → (w = BitVec.ofNat 32 n ↔ k.val = n)) :
    (∑ d : Fin 16, A d * Spec.ind (w = BitVec.ofNat 32 d.val))
        + (∑ d : Fin 16, B d * Spec.ind (w = BitVec.ofNat 32 (16 + d.val)))
        + C * Spec.ind (w = BitVec.ofNat 32 32) = ((z k : ℝ) : EReal) := by
  have e1 : (∑ d : Fin 16, A d * Spec.ind (w = BitVec.ofNat 32 d.val))
      = if 0 ≤ k.val ∧ k.val < 0 + 16 then ((z k : ℝ) : EReal) else 0 := by
    rw [← sum_sel z k 16 0 (by omega)]
    refine Finset.sum_congr rfl fun d _ => ?_
    have hd := d.isLt
    rw [Spec.mul_ind, hA d]
    refine if_congr ((hw d.val (by omega)).trans (by rw [Nat.zero_add])) ?_ rfl
    exact congrArg (fun i => ((z i : ℝ) : EReal)) (Fin.ext (Nat.zero_add _).symm)
  have e2 : (∑ d : Fin 16, B d * Spec.ind (w = BitVec.ofNat 32 (16 + d.val)))
      = if 16 ≤ k.val ∧ k.val < 16 + 16 then ((z k : ℝ) : EReal) else 0 := by
    rw [← sum_sel z k 16 16 (by omega)]
    refine Finset.sum_congr rfl fun d _ => ?_
    have hd := d.isLt
    rw [Spec.mul_ind, hB d]
    exact if_congr (hw (16 + d.val) (by omega)) rfl rfl
  have e3 : C * Spec.ind (w = BitVec.ofNat 32 32) = if k.val = 32 then ((z k : ℝ) : EReal) else 0 := by
    rw [Spec.mul_ind, hC]
    by_cases h : k.val = 32
    · rw [if_pos ((hw 32 (by omega)).mpr h), if_pos h]
      exact congrArg (fun i => ((z i : ℝ) : EReal)) (Fin.ext h.symm)
    · rw [if_neg (fun e => h ((hw 32 (by omega)).mp e)), if_neg h]
  rw [e1, e2, e3]
  have hk := k.isLt
  by_cases h1 : k.val < 16
  · rw [if_pos ⟨Nat.zero_le _, by omega⟩, if_neg (by omega), if_neg (by omega), add_zero, add_zero]
  · by_cases h2 : k.val < 32
    · rw [if_neg (by omega), if_pos ⟨by omega, by omega⟩, if_neg (by omega), zero_add, add_zero]
    · rw [if_neg (by omega), if_neg (by omega), if_pos (by omega), zero_add, zero_add]

/-! ## The body's arithmetic, stage by stage, read at one row -/

section Stages

variable (x0 x1 : FVec Ideal S5000x16 .f32) (x2 : FVec Ideal S5000x1 .f32) (x3 x4 : FVec Ideal S16x24 .f32)
  (x5 : FVec Ideal S1x24 .f32) (x6 x7 : FVec Ideal S24x16 .f32) (x8 : FVec Ideal S24x1 .f32)
  (x9 : FVec Ideal S24x24 .f32) (x10 x11 : FVec Ideal S1x24 .f32)

theorem mm_16_24 (A : FVec Ideal S5000x16 .f32) (B : FVec Ideal S16x24 .f32) (r : Fin 5000) (f : Fin 24) :
    matmul dot_S5000x16_S16x24_S5000x24_1_0_0_1_n_n (some .fp32) A B (constant (F := Ideal) S5000x24 .f32 0x00000000#32) (ix2 r f)
      = ∑ d : Fin 16, A (ix2 r d) * B (ix2 d f) :=
  matmul_plain_apply dot_S5000x16_S16x24_S5000x24_1_0_0_1_n_n_wf (some .fp32) A B r f

theorem mm_24_24 (A : FVec Ideal S5000x24 .f32) (B : FVec Ideal S24x24 .f32) (r : Fin 5000) (f : Fin 24) :
    matmul dot_S5000x24_S24x24_S5000x24_1_0_0_1_n_n (some .fp32) A B (constant (F := Ideal) S5000x24 .f32 0x00000000#32) (ix2 r f)
      = ∑ d : Fin 24, A (ix2 r d) * B (ix2 d f) :=
  matmul_plain_apply dot_S5000x24_S24x24_S5000x24_1_0_0_1_n_n_wf (some .fp32) A B r f

theorem mm_24_16 (A : FVec Ideal S5000x24 .f32) (B : FVec Ideal S24x16 .f32) (r : Fin 5000) (j : Fin 16) :
    matmul dot_S5000x24_S24x16_S5000x16_1_0_0_1_n_n (some .fp32) A B (constant (F := Ideal) S5000x16 .f32 0x00000000#32) (ix2 r j)
      = ∑ d : Fin 24, A (ix2 r d) * B (ix2 d j) :=
  matmul_plain_apply dot_S5000x24_S24x16_S5000x16_1_0_0_1_n_n_wf (some .fp32) A B r j

theorem mm_24_1 (A : FVec Ideal S5000x24 .f32) (B : FVec Ideal S24x1 .f32) (r : Fin 5000) (u : Fin 1) :
    matmul dot_S5000x24_S24x1_S5000x1_1_0_0_1_n_n (some .fp32) A B (constant (F := Ideal) S5000x1 .f32 0x00000000#32) (ix2 r u)
      = ∑ d : Fin 24, A (ix2 r d) * B (ix2 d u) :=
  matmul_plain_apply dot_S5000x24_S24x1_S5000x1_1_0_0_1_n_n_wf (some .fp32) A B r u

/-- The literals' pre-activations: the two gathered rows through their selection tables plus the edge's own entry
    through its table. -/
def litV : FVec Ideal S5000x24 .f32 :=
  addf (addf (matmul dot_S5000x16_S16x24_S5000x24_1_0_0_1_n_n (some .fp32) x0 x3 (constant S5000x24 .f32 0x00000000#32))
      (matmul dot_S5000x16_S16x24_S5000x24_1_0_0_1_n_n (some .fp32) x1 x4 (constant S5000x24 .f32 0x00000000#32)))
    (mulf (broadcastTo S5000x24 x2 broadcasts_S5000x1_S5000x24) (broadcastTo S5000x24 x5 broadcasts_S1x24_S5000x24))

/-- The signed pre-activations. -/
def scV (v19 : FVec Ideal S5000x24 .f32) : FVec Ideal S5000x24 .f32 :=
  mulf v19 (broadcastTo S5000x24 x10 broadcasts_S1x24_S5000x24)

/-- Their exponentials after the row's maximum is subtracted. -/
def exV (v25 : FVec Ideal S5000x24 .f32) : FVec Ideal S5000x24 .f32 :=
  exp (subf v25 (broadcastTo S5000x24
    (shapeCast S5000x1 (multiReduction .maximumf [1] S5000 v25 0xFF800000#32 reduces_S5000x24_S5000 (.inl rfl) rfl)
      shapeCasts_S5000_S5000x1) broadcasts_S5000x1_S5000x24))

/-- The weighted quotients by the clause sums. -/
def smV (v30 : FVec Ideal S5000x24 .f32) : FVec Ideal S5000x24 .f32 :=
  mulf (broadcastTo S5000x24 x11 broadcasts_S1x24_S5000x24)
    (divf v30 (matmul dot_S5000x24_S24x24_S5000x24_1_0_0_1_n_n (some .fp32) v30 x9 (constant S5000x24 .f32 0x00000000#32)))

/-- The body's value before the scatter products is these four stages composed. -/
theorem pay7_eq : k1_pay7 (F := Ideal) x0 x1 x2 x5 x3 x4 x10 x11 x9
    = smV x9 x11 (exV (scV x10 (litV x0 x1 x2 x3 x4 x5))) := by
  unfold k1_pay7 k1_pay5 k1_pay6 smV exV scV litV
  simp only [shapeCast_self]

theorem litV_apply (r : Fin 5000) (f : Fin 24) :
    litV x0 x1 x2 x3 x4 x5 (ix2 r f)
      = (∑ d : Fin 16, x0 (ix2 r d) * x3 (ix2 d f)) + (∑ d : Fin 16, x1 (ix2 r d) * x4 (ix2 d f))
        + x2 (ix2 r (0 : Fin 1)) * x5 (ix2 (0 : Fin 1) f) := by
  unfold litV
  rw [addf_apply, addf_apply, mulf_apply, mm_16_24, mm_16_24]
  rw [show broadcastTo S5000x24 x2 broadcasts_S5000x1_S5000x24 (ix2 r f) = x2 (ix2 r (0 : Fin 1)) from
      broadcastTo_a1_ab_apply x2 broadcasts_S5000x1_S5000x24 r f,
    show broadcastTo S5000x24 x5 broadcasts_S1x24_S5000x24 (ix2 r f) = x5 (ix2 (0 : Fin 1) f) from
      broadcastTo_1b_ab_apply x5 broadcasts_S1x24_S5000x24 r f]

theorem scV_apply (v19 : FVec Ideal S5000x24 .f32) (r : Fin 5000) (f : Fin 24) :
    scV x10 v19 (ix2 r f) = v19 (ix2 r f) * x10 (ix2 (0 : Fin 1) f) := by
  unfold scV
  rw [mulf_apply]
  rw [show broadcastTo S5000x24 x10 broadcasts_S1x24_S5000x24 (ix2 r f) = x10 (ix2 (0 : Fin 1) f) from
      broadcastTo_1b_ab_apply x10 broadcasts_S1x24_S5000x24 r f]

theorem exV_apply (v25 : FVec Ideal S5000x24 .f32) (r : Fin 5000) (f : Fin 24) :
    exV v25 (ix2 r f)
      = Ideal.exp (v25 (ix2 r f) - (Finset.univ : Finset (Fin 24)).fold max (⊥ : EReal) (fun f' => v25 (ix2 r f'))) := by
  unfold exV
  show Ideal.exp (v25 (ix2 r f) - broadcastTo S5000x24 _ broadcasts_S5000x1_S5000x24 (ix2 r f)) = _
  rw [show broadcastTo S5000x24 (shapeCast S5000x1 (multiReduction .maximumf [1] S5000 v25 0xFF800000#32 reduces_S5000x24_S5000 (.inl rfl) rfl)
        shapeCasts_S5000_S5000x1) broadcasts_S5000x1_S5000x24 (ix2 r f)
      = shapeCast S5000x1 (multiReduction .maximumf [1] S5000 v25 0xFF800000#32 reduces_S5000x24_S5000 (.inl rfl) rfl)
        shapeCasts_S5000_S5000x1 (ix2 r (0 : Fin 1)) from broadcastTo_a1_ab_apply _ broadcasts_S5000x1_S5000x24 r f,
    show shapeCast S5000x1 (multiReduction .maximumf [1] S5000 v25 0xFF800000#32 reduces_S5000x24_S5000 (.inl rfl) rfl)
        shapeCasts_S5000_S5000x1 (ix2 r (0 : Fin 1))
      = multiReduction .maximumf [1] S5000 v25 0xFF800000#32 reduces_S5000x24_S5000 (.inl rfl) rfl (ix1 r) from
        shapeCast_a_a1_apply _ shapeCasts_S5000_S5000x1 r 0,
    show multiReduction .maximumf [1] S5000 v25 0xFF800000#32 reduces_S5000x24_S5000 (.inl rfl) rfl (ix1 r)
      = (Finset.univ : Finset (Fin 24)).fold max (⊥ : EReal) (fun f' => v25 (ix2 r f')) from
        rowmax_apply v25 reduces_S5000x24_S5000 (.inl rfl) rfl r]

theorem smV_apply (v30 : FVec Ideal S5000x24 .f32) (r : Fin 5000) (f : Fin 24) :
    smV x9 x11 v30 (ix2 r f)
      = x11 (ix2 (0 : Fin 1) f) * Ideal.div (v30 (ix2 r f)) (∑ f' : Fin 24, v30 (ix2 r f') * x9 (ix2 f' f)) := by
  unfold smV
  rw [mulf_apply, divf_apply, mm_24_24]
  rw [show broadcastTo S5000x24 x11 broadcasts_S1x24_S5000x24 (ix2 r f) = x11 (ix2 (0 : Fin 1) f) from
      broadcastTo_1b_ab_apply x11 broadcasts_S1x24_S5000x24 r f]

theorem pay1_apply (v36 : FVec Ideal S5000x24 .f32) (r : Fin 5000) (f : Fin 24) :
    k1_pay1 (F := Ideal) (k1_pay6 x10) v36 (ix2 r f) = v36 (ix2 r f) * x10 (ix2 (0 : Fin 1) f) := by
  unfold k1_pay1 k1_pay6
  simp only [shapeCast_self]
  rw [mulf_apply]
  rw [show broadcastTo S5000x24 x10 broadcasts_S1x24_S5000x24 (ix2 r f) = x10 (ix2 (0 : Fin 1) f) from
      broadcastTo_1b_ab_apply x10 broadcasts_S1x24_S5000x24 r f]

theorem pay2_apply (v21 : FVec Ideal S1x24 .f32) (v36 : FVec Ideal S5000x24 .f32) (r : Fin 5000) (j : Fin 16) :
    k1_pay2 (F := Ideal) v21 v36 x6 (ix2 r j) = ∑ f : Fin 24, k1_pay1 (F := Ideal) v21 v36 (ix2 r f) * x6 (ix2 f j) := by
  unfold k1_pay2
  simp only [shapeCast_self]
  exact mm_24_16 _ x6 r j

theorem pay3_apply (v21 : FVec Ideal S1x24 .f32) (v36 : FVec Ideal S5000x24 .f32) (r : Fin 5000) (j : Fin 16) :
    k1_pay3 (F := Ideal) v21 v36 x7 (ix2 r j) = ∑ f : Fin 24, k1_pay1 (F := Ideal) v21 v36 (ix2 r f) * x7 (ix2 f j) := by
  unfold k1_pay3
  simp only [shapeCast_self]
  exact mm_24_16 _ x7 r j

theorem pay4_apply (v5 : FVec Ideal S5000x1 .f32) (v21 : FVec Ideal S1x24 .f32) (v36 : FVec Ideal S5000x24 .f32) (r : Fin 5000) (u : Fin 1) :
    k1_pay4 (F := Ideal) v5 v21 v36 x8 (ix2 r u)
      = v5 (ix2 r u) + ∑ f : Fin 24, k1_pay1 (F := Ideal) v21 v36 (ix2 r f) * x8 (ix2 f u) := by
  unfold k1_pay4
  simp only [shapeCast_self]
  rw [addf_apply, mm_24_1]

end Stages

/-! ## One row of the block: the three stored pieces are the boost of the joined row -/

section Row

variable (x0 x1 : FVec Ideal S5000x16 .f32) (x2 : FVec Ideal S5000x1 .f32) (x3 x4 : FVec Ideal S16x24 .f32)
  (x5 : FVec Ideal S1x24 .f32) (x6 x7 : FVec Ideal S24x16 .f32) (x8 : FVec Ideal S24x1 .f32)
  (x9 : FVec Ideal S24x24 .f32) (x10 x11 : FVec Ideal S1x24 .f32)
  (z : Fin 33 → ℝ) (col : Fin 24 → Fin 33) (sg w : Fin 24 → ℝ) (r : Fin 5000)

theorem pay5_eq : k1_pay5 (F := Ideal) x2 = x2 := by
  unfold k1_pay5
  exact shapeCast_self _ _

/-- With the literals' pre-activations the joined row's entries, real polarities and weights, and the clause table: every
    literal's weighted, signed softmax within its clause, shifted by one real number (the row's maximum). -/
theorem delta_row
    (hlit : ∀ f : Fin 24, litV x0 x1 x2 x3 x4 x5 (ix2 r f) = ((z (col f) : ℝ) : EReal))
    (hsg : ∀ f : Fin 24, x10 (ix2 (0 : Fin 1) f) = ((sg f : ℝ) : EReal))
    (hw : ∀ f : Fin 24, x11 (ix2 (0 : Fin 1) f) = ((w f : ℝ) : EReal))
    (hP : ∀ f' f : Fin 24, x9 (ix2 f' f) = Spec.ind (f'.val / 3 = f.val / 3)) :
    ∃ μ : ℝ, ∀ f : Fin 24,
      k1_pay1 (F := Ideal) (k1_pay6 x10) (k1_pay7 (F := Ideal) x0 x1 x2 x5 x3 x4 x10 x11 x9) (ix2 r f)
        = ((w f : ℝ) : EReal) * Ideal.div (Ideal.exp (((sg f * z (col f) : ℝ) : EReal) - ((μ : ℝ) : EReal)))
            (∑ f' : Fin 24, if f'.val / 3 = f.val / 3 then
              Ideal.exp (((sg f' * z (col f') : ℝ) : EReal) - ((μ : ℝ) : EReal)) else 0)
          * ((sg f : ℝ) : EReal) := by
  obtain ⟨μ, hμ⟩ := Spec.fold_max_coe (by norm_num : 0 < 24) (fun f => sg f * z (col f))
  refine ⟨μ, fun f => ?_⟩
  have h25 : ∀ f' : Fin 24, scV x10 (litV x0 x1 x2 x3 x4 x5) (ix2 r f') = ((sg f' * z (col f') : ℝ) : EReal) :=
    fun f' => by rw [scV_apply, hlit, hsg, ← EReal.coe_mul, mul_comm]
  have h30 : ∀ f' : Fin 24, exV (scV x10 (litV x0 x1 x2 x3 x4 x5)) (ix2 r f')
      = Ideal.exp (((sg f' * z (col f') : ℝ) : EReal) - ((μ : ℝ) : EReal)) := fun f' => by
    rw [exV_apply]
    simp only [h25]
    rw [hμ]
  rw [pay1_apply, pay7_eq, smV_apply, hw, hsg]
  simp only [h30, hP, Spec.mul_ind]

variable (a6 : IVec Spec.S8x3 32)

/-- A scatter product against the transposed selection table of column `n` (1 where a literal's word is `n`): the boost
    of column `n`. -/
theorem scatter_row (hn6 : ∀ i, (a6 i).toNat < 33) (T : Fin 24 → EReal) (μ : ℝ)
    (hT : ∀ f : Fin 24, T f = ((w f : ℝ) : EReal) * Ideal.div (Ideal.exp (((sg f * z (Spec.colB a6 f) : ℝ) : EReal) - ((μ : ℝ) : EReal)))
            (∑ f' : Fin 24, if f'.val / 3 = f.val / 3 then
              Ideal.exp (((sg f' * z (Spec.colB a6 f') : ℝ) : EReal) - ((μ : ℝ) : EReal)) else 0)
          * ((sg f : ℝ) : EReal))
    (n : ℕ) (hn : n < 33) :
    (∑ f : Fin 24, T f * Spec.ind (Spec.wordB a6 f.val f.isLt = BitVec.ofNat 32 n))
      = ((Spec.keR z (Spec.colB a6) sg w (fun f => f.val / 3) ⟨n, hn⟩ : ℝ) : EReal) := by
  have key := Spec.ke_shift z (Spec.colB a6) sg w (fun f => f.val / 3) (fun _ => μ) (fun _ _ _ => rfl) ⟨n, hn⟩
  beta_reduce at key
  rw [← key]
  refine Finset.sum_congr rfl fun f _ => ?_
  rw [Spec.mul_ind, hT f]
  exact if_congr ((wordB_eq_iff a6 hn6 f n hn).trans (@Fin.ext_iff 33 (Spec.colB a6 f) ⟨n, hn⟩).symm) rfl rfl

end Row

/-! ## What the body leaves in the output's staging buffer: three stored pieces that tile the 5000 × 33 block -/

theorem hz2 : (![0, 0] : Fin 2 → Nat) = fun _ => 0 := funext fun a => by fin_cases a <;> rfl

/-- If the three stored payloads (columns 0..15, columns 16..31, column 32) are, entry by entry, the values of one
    function `G` of the block's index, the buffer the body leaves is `G`. -/
theorem out1_apply (c : Dev nD) (i : grid1.Coords) (arg1 : Memref sig .tc .vmem S5000x16 .f32) (harg1 : arg1.IsWhole) (arg2 : Memref sig .tc .vmem S5000x16 .f32) (harg2 : arg2.IsWhole) (arg3 : Memref sig .tc .vmem S5000x1 .f32) (harg3 : arg3.IsWhole) (arg4 : Memref sig .tc .vmem S16x24 .f32) (harg4 : arg4.IsWhole) (arg5 : Memref sig .tc .vmem S16x24 .f32) (harg5 : arg5.IsWhole) (arg6 : Memref sig .tc .vmem S1x24 .f32) (harg6 : arg6.IsWhole) (arg7 : Memref sig .tc .vmem S24x16 .f32) (harg7 : arg7.IsWhole) (arg8 : Memref sig .tc .vmem S24x16 .f32) (harg8 : arg8.IsWhole) (arg9 : Memref sig .tc .vmem S24x1 .f32) (harg9 : arg9.IsWhole) (arg10 : Memref sig .tc .vmem S24x24 .f32) (harg10 : arg10.IsWhole) (arg11 : Memref sig .tc .vmem S1x24 .f32) (harg11 : arg11.IsWhole) (arg12 : Memref sig .tc .vmem S1x24 .f32) (harg12 : arg12.IsWhole) (arg13 : Memref sig .tc .vmem S5000x33 .f32) (harg13 : arg13.IsWhole)
    (x0 : Vec Ideal S5000x16 .f32) (x1 : Vec Ideal S5000x16 .f32) (x2 : Vec Ideal S5000x1 .f32) (x3 : Vec Ideal S16x24 .f32) (x4 : Vec Ideal S16x24 .f32) (x5 : Vec Ideal S1x24 .f32) (x6 : Vec Ideal S24x16 .f32) (x7 : Vec Ideal S24x16 .f32) (x8 : Vec Ideal S24x1 .f32) (x9 : Vec Ideal S24x24 .f32) (x10 : Vec Ideal S1x24 .f32) (x11 : Vec Ideal S1x24 .f32)
    (G : S5000x33.Idx → Ideal .f32)
    (h2 : ∀ (r : Fin 5000) (j : Fin 16),
      k1_pay2 (F := Ideal) (k1_pay6 x10) (k1_pay7 (F := Ideal) x0 x1 x2 x5 x3 x4 x10 x11 x9) x6 (ix2 r j)
        = G (ix2 r (⟨j.val, by have := j.isLt; omega⟩ : Fin 33)))
    (h3 : ∀ (r : Fin 5000) (j : Fin 16),
      k1_pay3 (F := Ideal) (k1_pay6 x10) (k1_pay7 (F := Ideal) x0 x1 x2 x5 x3 x4 x10 x11 x9) x7 (ix2 r j)
        = G (ix2 r (⟨16 + j.val, by have := j.isLt; omega⟩ : Fin 33)))
    (h4 : ∀ (r : Fin 5000) (u : Fin 1),
      k1_pay4 (F := Ideal) (k1_pay5 x2) (k1_pay6 x10) (k1_pay7 (F := Ideal) x0 x1 x2 x5 x3 x4 x10 x11 x9) x8 (ix2 r u)
        = G (ix2 r (⟨32, by omega⟩ : Fin 33))) :
    out1_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 = G := by
  funext y
  unfold out1_A_12
  rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11)]
  refine View.canon_apply_of_pieces G _ ?_ y (cover1_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 y)
  unfold kernelRun1_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, View.ld_unit_zero (S := S5000x16) hz2, View.ld_unit_zero (S := S5000x1) hz2,
    View.ld_unit_zero (S := S16x24) hz2, View.ld_unit_zero (S := S1x24) hz2, View.ld_unit_zero (S := S24x16) hz2,
    View.ld_unit_zero (S := S24x1) hz2, View.ld_unit_zero (S := S24x24) hz2]
  intro p hp
  rcases List.mem_cons.mp hp with rfl | hp
  · intro x
    obtain ⟨r, u, rfl⟩ : ∃ (r : Fin 5000) (u : Fin 1), x = ix2 r u := ⟨x 0, x 1, eq_ix2 x⟩
    refine (h4 r u).trans (congrArg G (funext fun ax => Fin.ext ?_))
    match ax with
    | ⟨0, _⟩ => show r.val = 0 + 1 * r.val; omega
    | ⟨1, _⟩ => show 32 = 32 + 1 * u.val; omega
  rcases List.mem_cons.mp hp with rfl | hp
  · intro x
    obtain ⟨r, j, rfl⟩ : ∃ (r : Fin 5000) (j : Fin 16), x = ix2 r j := ⟨x 0, x 1, eq_ix2 x⟩
    refine (h3 r j).trans (congrArg G (funext fun ax => Fin.ext ?_))
    match ax with
    | ⟨0, _⟩ => show r.val = 0 + 1 * r.val; omega
    | ⟨1, _⟩ => show 16 + j.val = 16 + 1 * j.val; omega
  rcases List.mem_cons.mp hp with rfl | hp
  · intro x
    obtain ⟨r, j, rfl⟩ : ∃ (r : Fin 5000) (j : Fin 16), x = ix2 r j := ⟨x 0, x 1, eq_ix2 x⟩
    refine (h2 r j).trans (congrArg G (funext fun ax => Fin.ext ?_))
    match ax with
    | ⟨0, _⟩ => show r.val = 0 + 1 * r.val; omega
    | ⟨1, _⟩ => show j.val = 0 + 1 * j.val; omega
  exact absurd hp List.not_mem_nil

/-! ## The block's rows against the specification: gathered rows, tables, and the result's entries -/

section RowSpec

variable (a0 : FVec Ideal Spec.SN16 .f32) (a1 : FVec Ideal Spec.SE .f32) (a2 a3 : IVec Spec.SE 32)
  (a4 : IVec Spec.S8x2 32) (a5 : FVec Ideal Spec.S8x2 .f32) (a6 : IVec Spec.S8x3 32) (a7 : FVec Ideal Spec.S8x3 .f32)
  (a8 a9 : FVec Ideal Spec.S8 .f32)

/-- The first gathered row is the joined row's first 16 entries. -/
theorem joined_lo (e : Fin 3200000) (d : Fin 16) :
    Spec.Garr a0 a4 a5 a8 a2 (ix2 e d)
      = ((Spec.joinedR a0 a1 a2 a3 a4 a5 a8 e ⟨d.val, by have := d.isLt; omega⟩ : ℝ) : EReal) := by
  unfold Spec.joinedR Spec.Garr
  dsimp only
  rw [dif_pos d.isLt]

/-- The second gathered row is its entries 16..31. -/
theorem joined_hi (e : Fin 3200000) (d : Fin 16) :
    Spec.Garr a0 a4 a5 a8 a3 (ix2 e d)
      = ((Spec.joinedR a0 a1 a2 a3 a4 a5 a8 e ⟨16 + d.val, by have := d.isLt; omega⟩ : ℝ) : EReal) := by
  have hd := d.isLt
  unfold Spec.joinedR Spec.Garr
  dsimp only
  rw [dif_neg (by omega : ¬ 16 + d.val < 16), dif_pos (by omega : 16 + d.val < 32)]
  simp only [Nat.add_sub_cancel_left]

/-- The edge's own pre-activation, a real number, is its last entry. -/
theorem joined_bin (hr1 : ∀ i, a1 i = (((a1 i).toReal : ℝ) : EReal)) (e : Fin 3200000) :
    Spec.BCarr a1 (ix2 e (0 : Fin 1))
      = ((Spec.joinedR a0 a1 a2 a3 a4 a5 a8 e ⟨32, by omega⟩ : ℝ) : EReal) := by
  unfold Spec.joinedR Spec.BCarr
  dsimp only
  rw [dif_neg (by omega : ¬ 32 < 16), dif_neg (by omega : ¬ 32 < 32)]
  exact hr1 (ix1 e)

variable (x0 x1 : FVec Ideal S5000x16 .f32) (x2 : FVec Ideal S5000x1 .f32) (e : Fin 3200000) (r : Fin 5000)

/-- Row `r` of a block whose gathered rows and binary entry are edge `e`'s: every literal's weighted, signed, shifted
    softmax over edge `e`'s joined row. -/
theorem row_delta (hn6 : ∀ i, (a6 i).toNat < 33) (hr1 : ∀ i, a1 i = (((a1 i).toReal : ℝ) : EReal))
    (hr7 : ∀ i, a7 i = (((a7 i).toReal : ℝ) : EReal)) (hr9 : ∀ i, a9 i = (((a9 i).toReal : ℝ) : EReal))
    (h0 : ∀ d : Fin 16, x0 (ix2 r d) = Spec.Garr a0 a4 a5 a8 a2 (ix2 e d))
    (h1 : ∀ d : Fin 16, x1 (ix2 r d) = Spec.Garr a0 a4 a5 a8 a3 (ix2 e d))
    (h2 : x2 (ix2 r (0 : Fin 1)) = Spec.BCarr a1 (ix2 e (0 : Fin 1))) :
    ∃ μ : ℝ, ∀ f : Fin 24,
      k1_pay1 (F := Ideal) (k1_pay6 (Spec.sgRow1 a7))
          (k1_pay7 (F := Ideal) x0 x1 x2 (Spec.Mbin a6) (Spec.Mg1 a6) (Spec.Mg2 a6) (Spec.sgRow1 a7) (Spec.wRow1 a9) Spec.P1) (ix2 r f)
        = ((Spec.wB a9 f : ℝ) : EReal) * Ideal.div (Ideal.exp (((Spec.sgB a7 f * Spec.joinedR a0 a1 a2 a3 a4 a5 a8 e (Spec.colB a6 f) : ℝ) : EReal) - ((μ : ℝ) : EReal)))
            (∑ f' : Fin 24, if f'.val / 3 = f.val / 3 then
              Ideal.exp (((Spec.sgB a7 f' * Spec.joinedR a0 a1 a2 a3 a4 a5 a8 e (Spec.colB a6 f') : ℝ) : EReal) - ((μ : ℝ) : EReal)) else 0)
          * ((Spec.sgB a7 f : ℝ) : EReal) := by
  refine delta_row x0 x1 x2 (Spec.Mg1 a6) (Spec.Mg2 a6) (Spec.Mbin a6) Spec.P1 (Spec.sgRow1 a7) (Spec.wRow1 a9)
    (Spec.joinedR a0 a1 a2 a3 a4 a5 a8 e) (Spec.colB a6) (Spec.sgB a7) (Spec.wB a9) r (fun f => ?_) (fun f => ?_) (fun f => ?_)
    (fun f' f => rfl)
  · rw [litV_apply]
    exact lit_row (Spec.joinedR a0 a1 a2 a3 a4 a5 a8 e) (Spec.colB a6 f) (fun d => x0 (ix2 r d)) (fun d => x1 (ix2 r d))
      (x2 (ix2 r (0 : Fin 1))) (Spec.wordB a6 f.val f.isLt)
      (fun d => (h0 d).trans (joined_lo a0 a1 a2 a3 a4 a5 a8 e d))
      (fun d => (h1 d).trans (joined_hi a0 a1 a2 a3 a4 a5 a8 e d))
      (h2.trans (joined_bin a0 a1 a2 a3 a4 a5 a8 hr1 e))
      (fun n hn => wordB_eq_iff a6 hn6 f n hn)
  · exact hr7 _
  · exact hr9 _

/-- Columns 0..15 of the row: the boost's first 16 columns. -/
theorem row_pay2 (hn6 : ∀ i, (a6 i).toNat < 33) (hr1 : ∀ i, a1 i = (((a1 i).toReal : ℝ) : EReal))
    (hr7 : ∀ i, a7 i = (((a7 i).toReal : ℝ) : EReal)) (hr9 : ∀ i, a9 i = (((a9 i).toReal : ℝ) : EReal))
    (h0 : ∀ d : Fin 16, x0 (ix2 r d) = Spec.Garr a0 a4 a5 a8 a2 (ix2 e d))
    (h1 : ∀ d : Fin 16, x1 (ix2 r d) = Spec.Garr a0 a4 a5 a8 a3 (ix2 e d))
    (h2 : x2 (ix2 r (0 : Fin 1)) = Spec.BCarr a1 (ix2 e (0 : Fin 1))) (j : Fin 16) :
    k1_pay2 (F := Ideal) (k1_pay6 (Spec.sgRow1 a7))
        (k1_pay7 (F := Ideal) x0 x1 x2 (Spec.Mbin a6) (Spec.Mg1 a6) (Spec.Mg2 a6) (Spec.sgRow1 a7) (Spec.wRow1 a9) Spec.P1)
        (Spec.Mtg1 a6) (ix2 r j)
      = Spec.OUTarr a0 a1 a2 a3 a4 a5 a6 a7 a8 a9 (ix2 e (⟨j.val, by have := j.isLt; omega⟩ : Fin 33)) := by
  have hj := j.isLt
  obtain ⟨μ, hd⟩ := row_delta a0 a1 a2 a3 a4 a5 a6 a7 a8 a9 x0 x1 x2 e r hn6 hr1 hr7 hr9 h0 h1 h2
  rw [pay2_apply]
  refine (scatter_row (Spec.joinedR a0 a1 a2 a3 a4 a5 a8 e) (Spec.sgB a7) (Spec.wB a9) a6 hn6 _ μ hd j.val (by omega)).trans ?_
  unfold Spec.OUTarr Spec.DBarr Spec.dbR
  dsimp only
  rw [if_pos (by omega : j.val < 32)]

/-- Columns 16..31 of the row: the boost's columns 16..31. -/
theorem row_pay3 (hn6 : ∀ i, (a6 i).toNat < 33) (hr1 : ∀ i, a1 i = (((a1 i).toReal : ℝ) : EReal))
    (hr7 : ∀ i, a7 i = (((a7 i).toReal : ℝ) : EReal)) (hr9 : ∀ i, a9 i = (((a9 i).toReal : ℝ) : EReal))
    (h0 : ∀ d : Fin 16, x0 (ix2 r d) = Spec.Garr a0 a4 a5 a8 a2 (ix2 e d))
    (h1 : ∀ d : Fin 16, x1 (ix2 r d) = Spec.Garr a0 a4 a5 a8 a3 (ix2 e d))
    (h2 : x2 (ix2 r (0 : Fin 1)) = Spec.BCarr a1 (ix2 e (0 : Fin 1))) (j : Fin 16) :
    k1_pay3 (F := Ideal) (k1_pay6 (Spec.sgRow1 a7))
        (k1_pay7 (F := Ideal) x0 x1 x2 (Spec.Mbin a6) (Spec.Mg1 a6) (Spec.Mg2 a6) (Spec.sgRow1 a7) (Spec.wRow1 a9) Spec.P1)
        (Spec.Mtg2 a6) (ix2 r j)
      = Spec.OUTarr a0 a1 a2 a3 a4 a5 a6 a7 a8 a9 (ix2 e (⟨16 + j.val, by have := j.isLt; omega⟩ : Fin 33)) := by
  have hj := j.isLt
  obtain ⟨μ, hd⟩ := row_delta a0 a1 a2 a3 a4 a5 a6 a7 a8 a9 x0 x1 x2 e r hn6 hr1 hr7 hr9 h0 h1 h2
  rw [pay3_apply]
  refine (scatter_row (Spec.joinedR a0 a1 a2 a3 a4 a5 a8 e) (Spec.sgB a7) (Spec.wB a9) a6 hn6 _ μ hd (16 + j.val) (by omega)).trans ?_
  unfold Spec.OUTarr Spec.DBarr Spec.dbR
  dsimp only
  rw [if_pos (by omega : 16 + j.val < 32)]

/-- Column 32 of the row: the edge's own pre-activation plus the boost's last column. -/
theorem row_pay4 (hn6 : ∀ i, (a6 i).toNat < 33) (hr1 : ∀ i, a1 i = (((a1 i).toReal : ℝ) : EReal))
    (hr7 : ∀ i, a7 i = (((a7 i).toReal : ℝ) : EReal)) (hr9 : ∀ i, a9 i = (((a9 i).toReal : ℝ) : EReal))
    (h0 : ∀ d : Fin 16, x0 (ix2 r d) = Spec.Garr a0 a4 a5 a8 a2 (ix2 e d))
    (h1 : ∀ d : Fin 16, x1 (ix2 r d) = Spec.Garr a0 a4 a5 a8 a3 (ix2 e d))
    (h2 : x2 (ix2 r (0 : Fin 1)) = Spec.BCarr a1 (ix2 e (0 : Fin 1))) (u : Fin 1) :
    k1_pay4 (F := Ideal) (k1_pay5 x2) (k1_pay6 (Spec.sgRow1 a7))
        (k1_pay7 (F := Ideal) x0 x1 x2 (Spec.Mbin a6) (Spec.Mg1 a6) (Spec.Mg2 a6) (Spec.sgRow1 a7) (Spec.wRow1 a9) Spec.P1)
        (Spec.Mtbin a6) (ix2 r u)
      = Spec.OUTarr a0 a1 a2 a3 a4 a5 a6 a7 a8 a9 (ix2 e (⟨32, by omega⟩ : Fin 33)) := by
  obtain rfl : u = 0 := Subsingleton.elim _ _
  obtain ⟨μ, hd⟩ := row_delta a0 a1 a2 a3 a4 a5 a6 a7 a8 a9 x0 x1 x2 e r hn6 hr1 hr7 hr9 h0 h1 h2
  rw [pay4_apply, pay5_eq, h2]
  rw [show (∑ f : Fin 24, k1_pay1 (F := Ideal) (k1_pay6 (Spec.sgRow1 a7))
        (k1_pay7 (F := Ideal) x0 x1 x2 (Spec.Mbin a6) (Spec.Mg1 a6) (Spec.Mg2 a6) (Spec.sgRow1 a7) (Spec.wRow1 a9) Spec.P1) (ix2 r f)
          * Spec.Mtbin a6 (ix2 f (0 : Fin 1)))
      = ((Spec.keR (Spec.joinedR a0 a1 a2 a3 a4 a5 a8 e) (Spec.colB a6) (Spec.sgB a7) (Spec.wB a9) (fun f => f.val / 3) ⟨32, by omega⟩ : ℝ) : EReal) from
    scatter_row (Spec.joinedR a0 a1 a2 a3 a4 a5 a8 e) (Spec.sgB a7) (Spec.wB a9) a6 hn6 _ μ hd 32 (by omega)]
  unfold Spec.OUTarr Spec.DBarr Spec.dbR Spec.BCarr
  dsimp only
  rw [if_neg (by omega : ¬ 32 < 32)]

end RowSpec

/-! ## From blocks to the array -/

section Blocks

variable (V : (c : Dev nD) → (b : Ref sig .tc) → Buf (Elt Ideal) ((c : Thread nD τ).loc b)) (c : Dev nD)

/-- The printed index maps of the four row-blocked windows, decided over the grid: block `t` on the row axis, block 0 on
    the column axis. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_12.index t (0 : Fin 2) = t.val ∧ win1_12.index t (1 : Fin 2) = 0 :=
  (by decide +kernel : ∀ t : Fin grid1.N, _)

/-- Row `r` of point `t`'s block of the first gathered array is row `5000 t + r` of the array. -/
theorem blk0_apply (t : Fin cfg1.N) (r : Fin 5000) (d : Fin 16) (e : Fin 3200000) (he : e.val = 5000 * t.val + r.val) :
    (iblk1 V c 0 t : Vec Ideal S5000x16 .f32) (ix2 r d) = V c main_v16 (ix2 e d) := by
  obtain ⟨e0, e1, -⟩ := idx_rows t
  show V c main_v16 (((cfg1.win 0).blk t).view.emb (ix2 r d)) = V c main_v16 (ix2 e d)
  refine congrArg (V c main_v16) (funext fun ax => Fin.ext ?_)
  match ax with
  | ⟨0, _⟩ => show win1_0.index t (0 : Fin 2) * 5000 + 1 * r.val = e.val; rw [e0, he]; omega
  | ⟨1, _⟩ => show win1_0.index t (1 : Fin 2) * 16 + 1 * d.val = d.val; rw [e1]; omega

/-- The same for the second gathered array. -/
theorem blk1_apply (t : Fin cfg1.N) (r : Fin 5000) (d : Fin 16) (e : Fin 3200000) (he : e.val = 5000 * t.val + r.val) :
    (iblk1 V c 1 t : Vec Ideal S5000x16 .f32) (ix2 r d) = V c main_v17 (ix2 e d) := by
  obtain ⟨-, -, e0, e1, -⟩ := idx_rows t
  show V c main_v17 (((cfg1.win 1).blk t).view.emb (ix2 r d)) = V c main_v17 (ix2 e d)
  refine congrArg (V c main_v17) (funext fun ax => Fin.ext ?_)
  match ax with
  | ⟨0, _⟩ => show win1_1.index t (0 : Fin 2) * 5000 + 1 * r.val = e.val; rw [e0, he]; omega
  | ⟨1, _⟩ => show win1_1.index t (1 : Fin 2) * 16 + 1 * d.val = d.val; rw [e1]; omega

/-- The same for the binary column. -/
theorem blk2_apply (t : Fin cfg1.N) (r : Fin 5000) (u : Fin 1) (e : Fin 3200000) (he : e.val = 5000 * t.val + r.val) :
    (iblk1 V c 2 t : Vec Ideal S5000x1 .f32) (ix2 r u) = V c main_v18 (ix2 e u) := by
  obtain ⟨-, -, -, -, e0, e1, -⟩ := idx_rows t
  show V c main_v18 (((cfg1.win 2).blk t).view.emb (ix2 r u)) = V c main_v18 (ix2 e u)
  refine congrArg (V c main_v18) (funext fun ax => Fin.ext ?_)
  match ax with
  | ⟨0, _⟩ => show win1_2.index t (0 : Fin 2) * 5000 + 1 * r.val = e.val; rw [e0, he]; omega
  | ⟨1, _⟩ => show win1_2.index t (1 : Fin 2) * 1 + 1 * u.val = u.val; rw [e1]; omega

/-! The nine small tables are each one block, the whole array, at every point. -/

theorem idx1_3 : ∀ t : Fin cfg1.N, win1_3.index t (0 : Fin 2) = 0 ∧ win1_3.index t (1 : Fin 2) = 0 :=
  (by decide +kernel : ∀ t : Fin grid1.N, _)

theorem tab3_eq (t : Fin cfg1.N) : (iblk1 V c 3 t : Vec Ideal S16x24 .f32) = V c main_v34 := by
  obtain ⟨e0, e1⟩ := idx1_3 t
  funext y
  show V c main_v34 (((cfg1.win 3).blk t).view.emb y) = V c main_v34 y
  refine congrArg (V c main_v34) (funext fun ax => Fin.ext ?_)
  match ax with
  | ⟨0, _⟩ => show win1_3.index t (0 : Fin 2) * 16 + 1 * (y 0).val = (y 0).val; rw [e0]; omega
  | ⟨1, _⟩ => show win1_3.index t (1 : Fin 2) * 24 + 1 * (y 1).val = (y 1).val; rw [e1]; omega

theorem idx1_4 : ∀ t : Fin cfg1.N, win1_4.index t (0 : Fin 2) = 0 ∧ win1_4.index t (1 : Fin 2) = 0 :=
  (by decide +kernel : ∀ t : Fin grid1.N, _)

theorem tab4_eq (t : Fin cfg1.N) : (iblk1 V c 4 t : Vec Ideal S16x24 .f32) = V c main_v35 := by
  obtain ⟨e0, e1⟩ := idx1_4 t
  funext y
  show V c main_v35 (((cfg1.win 4).blk t).view.emb y) = V c main_v35 y
  refine congrArg (V c main_v35) (funext fun ax => Fin.ext ?_)
  match ax with
  | ⟨0, _⟩ => show win1_4.index t (0 : Fin 2) * 16 + 1 * (y 0).val = (y 0).val; rw [e0]; omega
  | ⟨1, _⟩ => show win1_4.index t (1 : Fin 2) * 24 + 1 * (y 1).val = (y 1).val; rw [e1]; omega

theorem idx1_5 : ∀ t : Fin cfg1.N, win1_5.index t (0 : Fin 2) = 0 ∧ win1_5.index t (1 : Fin 2) = 0 :=
  (by decide +kernel : ∀ t : Fin grid1.N, _)

theorem tab5_eq (t : Fin cfg1.N) : (iblk1 V c 5 t : Vec Ideal S1x24 .f32) = V c main_v36 := by
  obtain ⟨e0, e1⟩ := idx1_5 t
  funext y
  show V c main_v36 (((cfg1.win 5).blk t).view.emb y) = V c main_v36 y
  refine congrArg (V c main_v36) (funext fun ax => Fin.ext ?_)
  match ax with
  | ⟨0, _⟩ => show win1_5.index t (0 : Fin 2) * 1 + 1 * (y 0).val = (y 0).val; rw [e0]; omega
  | ⟨1, _⟩ => show win1_5.index t (1 : Fin 2) * 24 + 1 * (y 1).val = (y 1).val; rw [e1]; omega

theorem idx1_6 : ∀ t : Fin cfg1.N, win1_6.index t (0 : Fin 2) = 0 ∧ win1_6.index t (1 : Fin 2) = 0 :=
  (by decide +kernel : ∀ t : Fin grid1.N, _)

theorem tab6_eq (t : Fin cfg1.N) : (iblk1 V c 6 t : Vec Ideal S24x16 .f32) = V c main_v37 := by
  obtain ⟨e0, e1⟩ := idx1_6 t
  funext y
  show V c main_v37 (((cfg1.win 6).blk t).view.emb y) = V c main_v37 y
  refine congrArg (V c main_v37) (funext fun ax => Fin.ext ?_)
  match ax with
  | ⟨0, _⟩ => show win1_6.index t (0 : Fin 2) * 24 + 1 * (y 0).val = (y 0).val; rw [e0]; omega
  | ⟨1, _⟩ => show win1_6.index t (1 : Fin 2) * 16 + 1 * (y 1).val = (y 1).val; rw [e1]; omega

theorem idx1_7 : ∀ t : Fin cfg1.N, win1_7.index t (0 : Fin 2) = 0 ∧ win1_7.index t (1 : Fin 2) = 0 :=
  (by decide +kernel : ∀ t : Fin grid1.N, _)

theorem tab7_eq (t : Fin cfg1.N) : (iblk1 V c 7 t : Vec Ideal S24x16 .f32) = V c main_v38 := by
  obtain ⟨e0, e1⟩ := idx1_7 t
  funext y
  show V c main_v38 (((cfg1.win 7).blk t).view.emb y) = V c main_v38 y
  refine congrArg (V c main_v38) (funext fun ax => Fin.ext ?_)
  match ax with
  | ⟨0, _⟩ => show win1_7.index t (0 : Fin 2) * 24 + 1 * (y 0).val = (y 0).val; rw [e0]; omega
  | ⟨1, _⟩ => show win1_7.index t (1 : Fin 2) * 16 + 1 * (y 1).val = (y 1).val; rw [e1]; omega

theorem idx1_8 : ∀ t : Fin cfg1.N, win1_8.index t (0 : Fin 2) = 0 ∧ win1_8.index t (1 : Fin 2) = 0 :=
  (by decide +kernel : ∀ t : Fin grid1.N, _)

theorem tab8_eq (t : Fin cfg1.N) : (iblk1 V c 8 t : Vec Ideal S24x1 .f32) = V c main_v39 := by
  obtain ⟨e0, e1⟩ := idx1_8 t
  funext y
  show V c main_v39 (((cfg1.win 8).blk t).view.emb y) = V c main_v39 y
  refine congrArg (V c main_v39) (funext fun ax => Fin.ext ?_)
  match ax with
  | ⟨0, _⟩ => show win1_8.index t (0 : Fin 2) * 24 + 1 * (y 0).val = (y 0).val; rw [e0]; omega
  | ⟨1, _⟩ => show win1_8.index t (1 : Fin 2) * 1 + 1 * (y 1).val = (y 1).val; rw [e1]; omega

theorem idx1_9 : ∀ t : Fin cfg1.N, win1_9.index t (0 : Fin 2) = 0 ∧ win1_9.index t (1 : Fin 2) = 0 :=
  (by decide +kernel : ∀ t : Fin grid1.N, _)

theorem tab9_eq (t : Fin cfg1.N) : (iblk1 V c 9 t : Vec Ideal S24x24 .f32) = V c main_v33 := by
  obtain ⟨e0, e1⟩ := idx1_9 t
  funext y
  show V c main_v33 (((cfg1.win 9).blk t).view.emb y) = V c main_v33 y
  refine congrArg (V c main_v33) (funext fun ax => Fin.ext ?_)
  match ax with
  | ⟨0, _⟩ => show win1_9.index t (0 : Fin 2) * 24 + 1 * (y 0).val = (y 0).val; rw [e0]; omega
  | ⟨1, _⟩ => show win1_9.index t (1 : Fin 2) * 24 + 1 * (y 1).val = (y 1).val; rw [e1]; omega

theorem idx1_10 : ∀ t : Fin cfg1.N, win1_10.index t (0 : Fin 2) = 0 ∧ win1_10.index t (1 : Fin 2) = 0 :=
  (by decide +kernel : ∀ t : Fin grid1.N, _)

theorem tab10_eq (t : Fin cfg1.N) : (iblk1 V c 10 t : Vec Ideal S1x24 .f32) = V c main_v20 := by
  obtain ⟨e0, e1⟩ := idx1_10 t
  funext y
  show V c main_v20 (((cfg1.win 10).blk t).view.emb y) = V c main_v20 y
  refine congrArg (V c main_v20) (funext fun ax => Fin.ext ?_)
  match ax with
  | ⟨0, _⟩ => show win1_10.index t (0 : Fin 2) * 1 + 1 * (y 0).val = (y 0).val; rw [e0]; omega
  | ⟨1, _⟩ => show win1_10.index t (1 : Fin 2) * 24 + 1 * (y 1).val = (y 1).val; rw [e1]; omega

theorem idx1_11 : ∀ t : Fin cfg1.N, win1_11.index t (0 : Fin 2) = 0 ∧ win1_11.index t (1 : Fin 2) = 0 :=
  (by decide +kernel : ∀ t : Fin grid1.N, _)

theorem tab11_eq (t : Fin cfg1.N) : (iblk1 V c 11 t : Vec Ideal S1x24 .f32) = V c main_v23 := by
  obtain ⟨e0, e1⟩ := idx1_11 t
  funext y
  show V c main_v23 (((cfg1.win 11).blk t).view.emb y) = V c main_v23 y
  refine congrArg (V c main_v23) (funext fun ax => Fin.ext ?_)
  match ax with
  | ⟨0, _⟩ => show win1_11.index t (0 : Fin 2) * 1 + 1 * (y 0).val = (y 0).val; rw [e0]; omega
  | ⟨1, _⟩ => show win1_11.index t (1 : Fin 2) * 24 + 1 * (y 1).val = (y 1).val; rw [e1]; omega

end Blocks

section Final

variable (V : (c : Dev nD) → (b : Ref sig .tc) → Buf (Elt Ideal) ((c : Thread nD τ).loc b)) (c : Dev nD)
  (a0 : FVec Ideal Spec.SN16 .f32) (a1 : FVec Ideal Spec.SE .f32) (a2 a3 : IVec Spec.SE 32)
  (a4 : IVec Spec.S8x2 32) (a5 : FVec Ideal Spec.S8x2 .f32) (a6 : IVec Spec.S8x3 32) (a7 : FVec Ideal Spec.S8x3 .f32)
  (a8 a9 : FVec Ideal Spec.S8 .f32)

/-- Block `t` of the result: rows `5000 t .. 5000 t + 4999` of the specified array. -/
def blockOut (t : ℕ) (ht : t < 640) : S5000x33.Idx → Ideal .f32 :=
  fun y => Spec.OUTarr a0 a1 a2 a3 a4 a5 a6 a7 a8 a9
    (ix2 (⟨5000 * t + (y 0).val, by have := idx2_lt0 y; omega⟩ : Fin 3200000) (⟨(y 1).val, idx2_lt1 y⟩ : Fin 33))

theorem lt_640 (t : Fin cfg1.N) : t.val < 640 := Nat.lt_of_lt_of_eq t.isLt N_1

/-- What the body leaves at point `t` is block `t` of the specified array. -/
theorem outsAt_eq (hg1 : V c main_v16 = Spec.Garr a0 a4 a5 a8 a2) (hg2 : V c main_v17 = Spec.Garr a0 a4 a5 a8 a3) (hbc : V c main_v18 = Spec.BCarr a1)
    (hMg1 : V c main_v34 = Spec.Mg1 a6) (hMg2 : V c main_v35 = Spec.Mg2 a6) (hMb : V c main_v36 = Spec.Mbin a6)
    (hMtg1 : V c main_v37 = Spec.Mtg1 a6) (hMtg2 : V c main_v38 = Spec.Mtg2 a6) (hMtb : V c main_v39 = Spec.Mtbin a6)
    (hP : V c main_v33 = Spec.P1) (hs : V c main_v20 = Spec.sgRow1 a7) (hw : V c main_v23 = Spec.wRow1 a9)
    (hadm : Spec.Adm a0 a1 a2 a3 a4 a5 a6 a7 a8 a9) (t : Fin cfg1.N) :
    outsAt1 (F := Ideal) V c t = blockOut a0 a1 a2 a3 a4 a5 a6 a7 a8 a9 t.val (lt_640 t) := by
  have ht := lt_640 t
  have e3 : (iblk1 V c 3 t : Vec Ideal S16x24 .f32) = Spec.Mg1 a6 := (tab3_eq V c t).trans hMg1
  have e4 : (iblk1 V c 4 t : Vec Ideal S16x24 .f32) = Spec.Mg2 a6 := (tab4_eq V c t).trans hMg2
  have e5 : (iblk1 V c 5 t : Vec Ideal S1x24 .f32) = Spec.Mbin a6 := (tab5_eq V c t).trans hMb
  have e6 : (iblk1 V c 6 t : Vec Ideal S24x16 .f32) = Spec.Mtg1 a6 := (tab6_eq V c t).trans hMtg1
  have e7 : (iblk1 V c 7 t : Vec Ideal S24x16 .f32) = Spec.Mtg2 a6 := (tab7_eq V c t).trans hMtg2
  have e8 : (iblk1 V c 8 t : Vec Ideal S24x1 .f32) = Spec.Mtbin a6 := (tab8_eq V c t).trans hMtb
  have e9 : (iblk1 V c 9 t : Vec Ideal S24x24 .f32) = Spec.P1 := (tab9_eq V c t).trans hP
  have e10 : (iblk1 V c 10 t : Vec Ideal S1x24 .f32) = Spec.sgRow1 a7 := (tab10_eq V c t).trans hs
  have e11 : (iblk1 V c 11 t : Vec Ideal S1x24 .f32) = Spec.wRow1 a9 := (tab11_eq V c t).trans hw
  have h0 : ∀ (r : Fin 5000) (d : Fin 16), (iblk1 V c 0 t : Vec Ideal S5000x16 .f32) (ix2 r d)
      = Spec.Garr a0 a4 a5 a8 a2 (ix2 (⟨5000 * t.val + r.val, by have := r.isLt; omega⟩ : Fin 3200000) d) :=
    fun r d => (blk0_apply V c t r d _ rfl).trans (congrFun hg1 _)
  have h1 : ∀ (r : Fin 5000) (d : Fin 16), (iblk1 V c 1 t : Vec Ideal S5000x16 .f32) (ix2 r d)
      = Spec.Garr a0 a4 a5 a8 a3 (ix2 (⟨5000 * t.val + r.val, by have := r.isLt; omega⟩ : Fin 3200000) d) :=
    fun r d => (blk1_apply V c t r d _ rfl).trans (congrFun hg2 _)
  have h2 : ∀ (r : Fin 5000), (iblk1 V c 2 t : Vec Ideal S5000x1 .f32) (ix2 r (0 : Fin 1))
      = Spec.BCarr a1 (ix2 (⟨5000 * t.val + r.val, by have := r.isLt; omega⟩ : Fin 3200000) (0 : Fin 1)) :=
    fun r => (blk2_apply V c t r 0 _ rfl).trans (congrFun hbc _)
  unfold outsAt1
  rw [e3, e4, e5, e6, e7, e8, e9, e10, e11]
  exact out1_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t)
    (iblk1 V c 0 t) (iblk1 V c 1 t) (iblk1 V c 2 t) (Spec.Mg1 a6) (Spec.Mg2 a6) (Spec.Mbin a6) (Spec.Mtg1 a6) (Spec.Mtg2 a6)
    (Spec.Mtbin a6) Spec.P1 (Spec.sgRow1 a7) (Spec.wRow1 a9) (blockOut a0 a1 a2 a3 a4 a5 a6 a7 a8 a9 t.val ht)
    (fun r j => row_pay2 a0 a1 a2 a3 a4 a5 a6 a7 a8 a9 (iblk1 V c 0 t) (iblk1 V c 1 t) (iblk1 V c 2 t)
      (⟨5000 * t.val + r.val, by have := r.isLt; omega⟩ : Fin 3200000) r hadm.n6 hadm.r1 hadm.r7 hadm.r9 (h0 r) (h1 r) (h2 r) j)
    (fun r j => row_pay3 a0 a1 a2 a3 a4 a5 a6 a7 a8 a9 (iblk1 V c 0 t) (iblk1 V c 1 t) (iblk1 V c 2 t)
      (⟨5000 * t.val + r.val, by have := r.isLt; omega⟩ : Fin 3200000) r hadm.n6 hadm.r1 hadm.r7 hadm.r9 (h0 r) (h1 r) (h2 r) j)
    (fun r u => row_pay4 a0 a1 a2 a3 a4 a5 a6 a7 a8 a9 (iblk1 V c 0 t) (iblk1 V c 1 t) (iblk1 V c 2 t)
      (⟨5000 * t.val + r.val, by have := r.isLt; omega⟩ : Fin 3200000) r hadm.n6 hadm.r1 hadm.r7 hadm.r9 (h0 r) (h1 r) (h2 r) u)

/-- What point `t` writes back is block `t` of the specified array, read through the window. -/
theorem flushed_eq (hg1 : V c main_v16 = Spec.Garr a0 a4 a5 a8 a2) (hg2 : V c main_v17 = Spec.Garr a0 a4 a5 a8 a3) (hbc : V c main_v18 = Spec.BCarr a1)
    (hMg1 : V c main_v34 = Spec.Mg1 a6) (hMg2 : V c main_v35 = Spec.Mg2 a6) (hMb : V c main_v36 = Spec.Mbin a6)
    (hMtg1 : V c main_v37 = Spec.Mtg1 a6) (hMtg2 : V c main_v38 = Spec.Mtg2 a6) (hMtb : V c main_v39 = Spec.Mtbin a6)
    (hP : V c main_v33 = Spec.P1) (hs : V c main_v20 = Spec.sgRow1 a7) (hw : V c main_v23 = Spec.wRow1 a9)
    (hadm : Spec.Adm a0 a1 a2 a3 a4 a5 a6 a7 a8 a9) (t : Fin cfg1.N) :
    (dat1 (F := Ideal) V c).flushed 12 t = ((cfg1.win 12).blk t).view.read (Elt Ideal) (Spec.OUTarr a0 a1 a2 a3 a4 a5 a6 a7 a8 a9) := by
  obtain ⟨-, -, -, -, -, -, e0, e1⟩ := idx_rows t
  show (cfg1.win 12).cut (grid1.coords t) ((dat1 (F := Ideal) V c).after 12 t) = _
  rw [after1_12, outsAt_eq V c a0 a1 a2 a3 a4 a5 a6 a7 a8 a9 hg1 hg2 hbc hMg1 hMg2 hMb hMtg1 hMtg2 hMtb hP hs hw hadm t]
  funext y
  show Spec.OUTarr a0 a1 a2 a3 a4 a5 a6 a7 a8 a9 (ix2 (⟨5000 * t.val + (y 0).val, _⟩ : Fin 3200000) (⟨(y 1).val, _⟩ : Fin 33))
    = Spec.OUTarr a0 a1 a2 a3 a4 a5 a6 a7 a8 a9 (((cfg1.win 12).blk t).view.emb y)
  refine congrArg (Spec.OUTarr a0 a1 a2 a3 a4 a5 a6 a7 a8 a9) (funext fun ax => Fin.ext ?_)
  match ax with
  | ⟨0, _⟩ => show 5000 * t.val + (y 0).val = win1_12.index t (0 : Fin 2) * 5000 + 1 * (y 0).val; rw [e0]; omega
  | ⟨1, _⟩ => show (y 1).val = win1_12.index t (1 : Fin 2) * 33 + 1 * (y 1).val; rw [e1]; omega

/-- Every edge row lies in the block of the point `row / 5000`. -/
theorem cover_out (i : Spec.SE33.Idx) :
    ∃ t : Fin cfg1.N, (cfg1.win 12).flush t = true ∧ i ∈ ((cfg1.win 12).blk t).view.set := by
  have hi0 : (i 0).val < 3200000 := idx2_lt0 i
  have hi1 : (i 1).val < 33 := idx2_lt1 i
  have hN : cfg1.N = 640 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx_rows t
  refine ⟨t, flush1_12 t, ?_⟩
  show i ∈ ((View.whole main_v40).slice (win1_12.rect t)).set
  rw [View.set_slice_whole, Rect.mem_set_unit]
  intro a
  match a with
  | ⟨0, _⟩ =>
    show win1_12.index t (0 : Fin 2) * 5000 ≤ (i 0).val ∧ (i 0).val < win1_12.index t (0 : Fin 2) * 5000 + 5000
    rw [e0, ht]
    omega
  | ⟨1, _⟩ =>
    show win1_12.index t (1 : Fin 2) * 33 ≤ (i 1).val ∧ (i 1).val < win1_12.index t (1 : Fin 2) * 33 + 33
    rw [e1]
    omega

end Final

/-- The second launch's output array after its last write-back: per edge, the boost of the joined row in columns 0..31 and
    binary plus the boost in column 32. -/
theorem arr_out1 (V : (c : Dev nD) → (b : Ref sig .tc) → Buf (Elt Ideal) ((c : Thread nD τ).loc b)) (c : Dev nD)
    (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32)
    (hg1 : V c main_v16 = Spec.Garr a0 a4 a5 a8 a2) (hg2 : V c main_v17 = Spec.Garr a0 a4 a5 a8 a3) (hbc : V c main_v18 = Spec.BCarr a1)
    (hMg1 : V c main_v34 = Spec.Mg1 a6) (hMg2 : V c main_v35 = Spec.Mg2 a6) (hMb : V c main_v36 = Spec.Mbin a6)
    (hMtg1 : V c main_v37 = Spec.Mtg1 a6) (hMtg2 : V c main_v38 = Spec.Mtg2 a6) (hMtb : V c main_v39 = Spec.Mtbin a6)
    (hP : V c main_v33 = Spec.P1) (hs : V c main_v20 = Spec.sgRow1 a7) (hw : V c main_v23 = Spec.wRow1 a9)
    (hadm : Spec.Adm a0 a1 a2 a3 a4 a5 a6 a7 a8 a9) :
    (dat1 (F := Ideal) V c).arrAt 12 cfg1.N = Spec.OUTarr a0 a1 a2 a3 a4 a5 a6 a7 a8 a9 :=
  (dat1 (F := Ideal) V c).arrAt_eq_of_cover 12 (Spec.OUTarr a0 a1 a2 a3 a4 a5 a6 a7 a8 a9)
    (fun t _ => flushed_eq V c a0 a1 a2 a3 a4 a5 a6 a7 a8 a9 hg1 hg2 hbc hMg1 hMg2 hMb hMtg1 hMtg2 hMtb hP hs hw hadm t) cover_out

end Cert.KernelIdeal.Region1

end
-- ==== Proof.KTail.lean ====
/-
  The host operations after the second launch: from u and the second launch's output array they cut the two 16-column
  updates and the last column, scatter the updates at the edge-index inputs into zeros, and add.
-/
import proofs.«427341_j23287312679568_3_alg».proof.Proof.Gen.KernelIdeal.Frame
import proofs.«427341_j23287312679568_3_alg».proof.Proof.Tables
import proofs.«427341_j23287312679568_3_alg».proof.Proof.KArgs
import Idealize.ShloMosaic.Lib.StableHlo.Run
import Idealize.ShloMosaic.Lib.Pipeline.Value

noncomputable section

namespace Cert.KernelIdeal.Tail

open Cert.KernelIdeal Cert.KernelIdeal.Gen
open Idealize.ShloMosaic Idealize.ShloMosaic.TcCoe Idealize.SL.Sem Idealize.ShloMosaic.ValueIdx

open Cert.KernelIdeal.KV

section Columns

variable (a0 : FVec Ideal Spec.SN16 .f32) (a1 : FVec Ideal Spec.SE .f32) (a2 a3 : IVec Spec.SE 32)
  (a4 : IVec Spec.S8x2 32) (a5 : FVec Ideal Spec.S8x2 .f32) (a6 : IVec Spec.S8x3 32) (a7 : FVec Ideal Spec.S8x3 .f32)
  (a8 a9 : FVec Ideal Spec.S8 .f32)

/-- Below column 32 the second launch's output is the boost itself. -/
theorem out_lt (r : Fin 3200000) (d : Fin 33) (hd : d.val < 32) :
    Spec.OUTarr a0 a1 a2 a3 a4 a5 a6 a7 a8 a9 (ix2 r d)
      = ((Spec.dbR a0 a1 a2 a3 a4 a5 a6 a7 a8 a9 r d : ℝ) : EReal) := by
  show (if ((ix2 r d : Spec.SE33.Idx) 1).val < 32 then Spec.DBarr a0 a1 a2 a3 a4 a5 a6 a7 a8 a9 (ix2 r d) else _) = _
  rw [if_pos (show ((ix2 r d : Spec.SE33.Idx) 1).val < 32 from hd)]
  rfl

/-- In column 32 it is the edge's own pre-activation plus the boost. -/
theorem out_32 (r : Fin 3200000) :
    Spec.OUTarr a0 a1 a2 a3 a4 a5 a6 a7 a8 a9 (ix2 r (⟨32, by decide⟩ : Fin 33))
      = a1 (ix1 r) + ((Spec.dbR a0 a1 a2 a3 a4 a5 a6 a7 a8 a9 r (⟨32, by decide⟩ : Fin 33) : ℝ) : EReal) := by
  show (if ((ix2 r (⟨32, by decide⟩ : Fin 33) : Spec.SE33.Idx) 1).val < 32 then _
    else a1 (ix1 r) + Spec.DBarr a0 a1 a2 a3 a4 a5 a6 a7 a8 a9 (ix2 r (⟨32, by decide⟩ : Fin 33))) = _
  rw [if_neg (show ¬ ((ix2 r (⟨32, by decide⟩ : Fin 33) : Spec.SE33.Idx) 1).val < 32 from Nat.lt_irrefl 32)]
  rfl

/-- Columns 0..15 of the output are the first node's update. -/
theorem slice_ux (h : Spec.SE33.Slices ![0, 0] Spec.SE16) :
    extractStridedSlice Spec.SE16 ![0, 0] (Spec.OUTarr a0 a1 a2 a3 a4 a5 a6 a7 a8 a9) h
      = Spec.UX a0 a1 a2 a3 a4 a5 a6 a7 a8 a9 := by
  funext j
  obtain ⟨r, t, rfl⟩ : ∃ (r : Fin 3200000) (t : Fin 16), j = ix2 r t := ⟨j 0, j 1, eq_ix2 j⟩
  refine (extractStridedSlice_apply ![0, 0] _ h (ix2 r t) (ix2 r (⟨t.val, by omega⟩ : Fin 33)) ?_).trans ?_
  · intro a
    match a with
    | ⟨0, _⟩ => show r.val = 0 + r.val; omega
    | ⟨1, _⟩ => show t.val = 0 + t.val; omega
  · refine (out_lt a0 a1 a2 a3 a4 a5 a6 a7 a8 a9 r _ (show t.val < 32 by omega)).trans ?_
    rfl

/-- Columns 16..31 are the second node's update. -/
theorem slice_uy (h : Spec.SE33.Slices ![0, 16] Spec.SE16) :
    extractStridedSlice Spec.SE16 ![0, 16] (Spec.OUTarr a0 a1 a2 a3 a4 a5 a6 a7 a8 a9) h
      = Spec.UY a0 a1 a2 a3 a4 a5 a6 a7 a8 a9 := by
  funext j
  obtain ⟨r, t, rfl⟩ : ∃ (r : Fin 3200000) (t : Fin 16), j = ix2 r t := ⟨j 0, j 1, eq_ix2 j⟩
  refine (extractStridedSlice_apply ![0, 16] _ h (ix2 r t) (ix2 r (⟨16 + t.val, by omega⟩ : Fin 33)) ?_).trans ?_
  · intro a
    match a with
    | ⟨0, _⟩ => show r.val = 0 + r.val; omega
    | ⟨1, _⟩ => show 16 + t.val = 16 + t.val; rfl
  · refine (out_lt a0 a1 a2 a3 a4 a5 a6 a7 a8 a9 r _ (show 16 + t.val < 32 by omega)).trans ?_
    rfl

/-- Column 32, as a vector over the edges, is the second result. -/
theorem col_32 (h1 : Spec.SE33.Slices ![0, 32] Spec.SE1) (h2 : Spec.SE1.ShapeCasts Spec.SE) :
    shapeCast Spec.SE (extractStridedSlice Spec.SE1 ![0, 32] (Spec.OUTarr a0 a1 a2 a3 a4 a5 a6 a7 a8 a9) h1) h2
      = Spec.resB a0 a1 a2 a3 a4 a5 a6 a7 a8 a9 := by
  funext e
  obtain ⟨r, rfl⟩ : ∃ r : Fin 3200000, e = ix1 r := ⟨e 0, eq_ix1 e⟩
  refine (shapeCast_apply _ h2 (ix1 r) (ix2 r (0 : Fin 1)) ?_).trans ?_
  · rw [Shape.rowMajor_val_two, Shape.rowMajor_val_one]
    show r.val * 1 + 0 = r.val
    omega
  refine (extractStridedSlice_apply ![0, 32] _ h1 (ix2 r (0 : Fin 1)) (ix2 r (⟨32, by decide⟩ : Fin 33)) ?_).trans ?_
  · intro a
    match a with
    | ⟨0, _⟩ => show r.val = 0 + r.val; omega
    | ⟨1, _⟩ => show 32 = 32 + 0; rfl
  · refine (out_32 a0 a1 a2 a3 a4 a5 a6 a7 a8 a9 r).trans ?_
    rfl

/-- Two row scatters with equal dimension numbers, operands, index columns and updates are equal (the scatter itself is
    never opened). -/
theorem scatter_congr {d d' : ScatterDims Spec.SN16 Spec.SE1 Spec.SE16} {z z' : FVec Ideal Spec.SN16 .f32}
    {i i' : IVec Spec.SE1 32} {u u' : FVec Ideal Spec.SE16 .f32} (hd : d = d') (hz : z = z') (hi : i = i') (hu : u = u') :
    Host.scatter d (fun _ b => b) z i u = Host.scatter d' (fun _ b => b) z' i' u' := by
  subst hd hz hi hu; rfl

end Columns

variable (m : (ℓ : Loc nD τ sig) → Buf (Elt Ideal) ℓ) (ρ : Dev nD → PrngReg) (c : Dev nD)

/-- No host operation after the second launch writes the first edge-index input, and neither launch nor any earlier
    host operation does: at the second launch's exit it holds its launch contents. -/
theorem w14_arg2 : W14 (F := Ideal) m ρ c (Proc.devRef .tc main_arg2) = A2 m c :=
  (StableHlo.after_of_forall_not_mem (b := Proc.devRef .tc main_arg2) (hostOps2 (F := Ideal)) (W14 (F := Ideal) m ρ c)
    (List.forall_iff_forall_mem.mp (by
      simp only [hostOps2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).symm.trans (W15_main_arg2 (F := Ideal) m ρ c)

/-- The same for the second edge-index input. -/
theorem w14_arg3 : W14 (F := Ideal) m ρ c (Proc.devRef .tc main_arg3) = A3 m c :=
  (StableHlo.after_of_forall_not_mem (b := Proc.devRef .tc main_arg3) (hostOps2 (F := Ideal)) (W14 (F := Ideal) m ρ c)
    (List.forall_iff_forall_mem.mp (by
      simp only [hostOps2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).symm.trans (W15_main_arg3 (F := Ideal) m ρ c)

theorem w15_u (hU : W14 (F := Ideal) m ρ c (Proc.devRef .tc main_v15) = Spec.Uarr (A0 m c) (A4 m c) (A5 m c) (A8 m c))
    (hO : W14 (F := Ideal) m ρ c (Proc.devRef .tc main_v40) = Spec.OUTarr (A0 m c) (A1 m c) (A2 m c) (A3 m c) (A4 m c) (A5 m c) (A6 m c) (A7 m c) (A8 m c) (A9 m c)) :
    W15 (F := Ideal) m ρ c (Proc.devRef .tc main_v62) = Spec.resU (A0 m c) (A1 m c) (A2 m c) (A3 m c) (A4 m c) (A5 m c) (A6 m c) (A7 m c) (A8 m c) (A9 m c) := by
  show StableHlo.after hostOps2 (W14 (F := Ideal) m ρ c) (Proc.devRef .tc main_v62) = _
  after_results_simp
  rw [hU, hO, w14_arg2 m ρ c, w14_arg3 m ρ c]
  exact congrArg₂ addf rfl (congrArg₂ addf
    (scatter_congr rfl rfl rfl (slice_ux (A0 m c) (A1 m c) (A2 m c) (A3 m c) (A4 m c) (A5 m c) (A6 m c) (A7 m c) (A8 m c) (A9 m c) _))
    (scatter_congr rfl rfl rfl (slice_uy (A0 m c) (A1 m c) (A2 m c) (A3 m c) (A4 m c) (A5 m c) (A6 m c) (A7 m c) (A8 m c) (A9 m c) _)))
theorem w15_b (hO : W14 (F := Ideal) m ρ c (Proc.devRef .tc main_v40) = Spec.OUTarr (A0 m c) (A1 m c) (A2 m c) (A3 m c) (A4 m c) (A5 m c) (A6 m c) (A7 m c) (A8 m c) (A9 m c)) :
    W15 (F := Ideal) m ρ c (Proc.devRef .tc main_v44) = Spec.resB (A0 m c) (A1 m c) (A2 m c) (A3 m c) (A4 m c) (A5 m c) (A6 m c) (A7 m c) (A8 m c) (A9 m c) := by
  show StableHlo.after hostOps2 (W14 (F := Ideal) m ρ c) (Proc.devRef .tc main_v44) = _
  after_results_simp
  rw [hO]
  exact col_32 (A0 m c) (A1 m c) (A2 m c) (A3 m c) (A4 m c) (A5 m c) (A6 m c) (A7 m c) (A8 m c) (A9 m c) _ _

end Cert.KernelIdeal.Tail

end
-- ==== Proof.KValue.lean ====
/-
  The idealized kernel program's run with its two results named: the first launch leaves u, the host operations between
  the launches gather it, the second launch leaves the boost of every edge's joined row, and the host operations after it
  scatter and add.
-/
import proofs.«427341_j23287312679568_3_alg».proof.Proof.KernelRun
import proofs.«427341_j23287312679568_3_alg».proof.Proof.KTab0
import proofs.«427341_j23287312679568_3_alg».proof.Proof.KRegion0
import proofs.«427341_j23287312679568_3_alg».proof.Proof.KTab1
import proofs.«427341_j23287312679568_3_alg».proof.Proof.KRegion1
import proofs.«427341_j23287312679568_3_alg».proof.Proof.KTail

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- After the first launch its output array holds u. -/
theorem w6_u (hadm : AdmK m c) : W6 (F := Ideal) m ρ c (Proc.devRef .tc main_v15) = Spec.Uarr (A0 m c) (A4 m c) (A5 m c) (A8 m c) :=
  (W6_arr m ρ c 6).trans
    (Region0.arr_out (V5 m ρ) c _ _ _ _ (Tab0.v5_x m ρ c) (Tab0.v5_M m ρ c) (Tab0.v5_Mt m ρ c) (Tab0.v5_P m ρ c)
      (Tab0.v5_sg m ρ c) (Tab0.v5_w m ρ c) hadm.r0 hadm.r5 hadm.r8 hadm.n4)

/-- After the second launch its output array holds the boost (and binary + boost in the last column). -/
theorem w14_out (hadm : AdmK m c) : W14 (F := Ideal) m ρ c (Proc.devRef .tc main_v40) = Spec.OUTarr (A0 m c) (A1 m c) (A2 m c) (A3 m c) (A4 m c) (A5 m c) (A6 m c) (A7 m c) (A8 m c) (A9 m c) :=
  (W14_arr m ρ c 12).trans
    (Region1.arr_out1 (V13 m ρ) c _ _ _ _ _ _ _ _ _ _
      (Tab1.v13_g1 m ρ c (w6_u m ρ c hadm) hadm) (Tab1.v13_g2 m ρ c (w6_u m ρ c hadm) hadm) (Tab1.v13_bc m ρ c)
      (Tab1.v13_Mg1 m ρ c) (Tab1.v13_Mg2 m ρ c) (Tab1.v13_Mbin m ρ c) (Tab1.v13_Mtg1 m ρ c) (Tab1.v13_Mtg2 m ρ c)
      (Tab1.v13_Mtbin m ρ c) (Tab1.v13_P m ρ c) (Tab1.v13_sg m ρ c) (Tab1.v13_w m ρ c) hadm)

theorem w14_u' (hadm : AdmK m c) : W14 (F := Ideal) m ρ c (Proc.devRef .tc main_v15) = Spec.Uarr (A0 m c) (A4 m c) (A5 m c) (A8 m c) :=
  (Tab1.w14_u m ρ c).trans (w6_u m ρ c hadm)

/-- The run, its results named by the specification. -/
theorem run (hadm : ∀ c, AdmK m c) :
    θ_run (defs (F := Ideal)) (onTc (τ := τ) (main (F := Ideal))) ⟨m, fun _ => 0, ρ⟩ (fun r => ∀ c : Dev nD,
      r.2.mem ((c.tc : Thread nD τ).loc main_v62) = Spec.resU (A0 m c) (A1 m c) (A2 m c) (A3 m c) (A4 m c) (A5 m c) (A6 m c) (A7 m c) (A8 m c) (A9 m c)
      ∧ r.2.mem ((c.tc : Thread nD τ).loc main_v44) = Spec.resB (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c).1.trans (Tail.w15_u m ρ c (w14_u' m ρ c (hadm c)) (w14_out m ρ c (hadm c))),
       (h c).2.1.trans (Tail.w15_b m ρ c (w14_out m ρ c (hadm c))), (h c).2.2⟩)
    (RunValue.run_results (F := Ideal) m ρ)

end Cert.KernelIdeal.KV

end
-- ==== Proof.RefU.lean ====
/-
  The reference's enhanced node tensor (its column gather of the literals, the per-clause stable softmax, and the
  scatter-add of the per-literal boosts back onto the 16 columns) is u = unary + boost.

  Row r of the reference, literal by literal: the gather reads the row at the column the literal's word names (the
  word lies inside the 16 columns, so neither the wrap of a negative index nor the gather's clamp moves it); the
  exponent sg · z(col) is a real number, and so is the maximum of a clause's two exponents; the softmax divides
  exp (exponent − maximum) by the sum of the same over the clause's two positions, which in the flat order
  f = 2 · clause + position is the sum over the flat literals that f / 2 sends to the clause; the scatter-add sums,
  into column d, the boosts of the literals whose word is d.  The shift law (the maximum is constant on a clause)
  then gives the knowledge enhancer's boost.
-/
import proofs.«427341_j23287312679568_3_alg».proof.Proof.RefRead
import proofs.«427341_j23287312679568_3_alg».proof.Proof.Tables
import proofs.«427341_j23287312679568_3_alg».proof.Proof.KeLaw
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! The auxiliary lemmas of this module live in their own namespace. -/
namespace Unary

/-! ## Index words inside the 16 columns -/

/-- A word below 16 reads the same signed and unsigned. -/
theorem toInt_small (w : BitVec 32) (h : w.toNat < 16) : w.toInt = (w.toNat : Int) := by
  rw [BitVec.toInt_eq_msb_cond, BitVec.msb_eq_false_iff_two_mul_lt.mpr (by omega)]
  simp

/-- The wrap of a possibly negative index (add the extent when negative) leaves a word below 16 alone. -/
theorem wrap_small (w : BitVec 32) (h : w.toNat < 16) :
    Scalar.select (IntOp.cmpi .slt w 0#32) (IntOp.addi w 16#32) w = w := by
  have hc : IntOp.cmpi .slt w 0#32 = 0#1 := by
    unfold IntOp.cmpi
    have : w.slt 0#32 = false := by
      simp only [BitVec.slt, toInt_small w h]
      simp
    rw [this]; rfl
  rw [hc]; exact select_zero _ _

/-- The column gather at (r, c, l): row r of the operand at the column the word at (c, l, 0) names, read signed and
    clamped into the 16 columns. -/
theorem gather_cols (x0 : FVec Ideal S100000x16 .f32) (idx : IVec S8x2x1 32)
    (r : Fin 100000) (c : Fin 8) (l : Fin 2) :
    Host.gather gather_S100000x16_S8x2x1_S100000x8x2_0_1_n_n_1_2_1000001 x0 idx (ix3 r c l)
      = x0 (ix2 r ⟨min (idx (ix3 c l (0 : Fin 1))).toInt.toNat 15, by omega⟩) := by
  unfold Host.gather
  congr 1
  funext a
  refine Fin.ext ?_
  match a with
  | ⟨0, _⟩ =>
    show GatherDims.start _ _ idx 0 + GatherDims.batchCoord _ _ 0 + GatherDims.offCoord _ _ 0 = r.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start GatherDims.offCoord
    rw [dif_pos (by decide), dif_neg (by decide)]
    simp only [Nat.add_zero]
    refine congrArg₂ min (congrArg (fun j => (idx j).toInt.toNat) ?_) rfl
    funext b
    refine Fin.ext ?_
    match b with
    | ⟨0, _⟩ => rfl
    | ⟨1, _⟩ => rfl
    | ⟨2, _⟩ => rfl

/-- The same for a word below 16: the clamp does nothing, and the column is the word. -/
theorem gather_cols_small (x0 : FVec Ideal S100000x16 .f32) (idx : IVec S8x2x1 32)
    (r : Fin 100000) (c : Fin 8) (l : Fin 2) (h : (idx (ix3 c l (0 : Fin 1))).toNat < 16) :
    Host.gather gather_S100000x16_S8x2x1_S100000x8x2_0_1_n_n_1_2_1000001 x0 idx (ix3 r c l)
      = x0 (ix2 r (⟨(idx (ix3 c l (0 : Fin 1))).toNat, h⟩ : Fin 16)) := by
  rw [gather_cols]
  refine congrArg x0 (congrArg (ix2 r) (Fin.ext ?_))
  show min (idx (ix3 c l (0 : Fin 1))).toInt.toNat 15 = (idx (ix3 c l (0 : Fin 1))).toNat
  rw [toInt_small _ h, Int.toNat_natCast]
  omega

/-- Under the column scatter an update at (r', f) whose index word is below 16 lands at (r', word). -/
theorem scatter_lands (idx : IVec S16x1 32) (r' : Fin 100000) (f : Fin 16)
    (h : (idx (ix2 f (0 : Fin 1))).toNat < 16) :
    scatter_S100000x16_S16x1_S100000x16_0_1_1_1.resultIdx? (ix2 r' f) idx
      = some (ix2 r' (⟨(idx (ix2 f (0 : Fin 1))).toNat, h⟩ : Fin 16)) := by
  have hs0 : scatter_S100000x16_S16x1_S100000x16_0_1_1_1.start (ix2 r' f) idx 0 = 0 := by
    unfold ScatterDims.start; rw [dif_neg (by decide)]
  have hw0 : scatter_S100000x16_S16x1_S100000x16_0_1_1_1.window (ix2 r' f) 0 = r'.val := by
    unfold ScatterDims.window; rw [dif_pos (by decide)]; rfl
  have hs1 : scatter_S100000x16_S16x1_S100000x16_0_1_1_1.start (ix2 r' f) idx 1 = ((idx (ix2 f (0 : Fin 1))).toNat : Int) := by
    unfold ScatterDims.start; rw [dif_pos (by decide), ← toInt_small _ h]
    refine congrArg (fun j => (idx j).toInt) ?_
    funext b
    refine Fin.ext ?_
    match b with
    | ⟨0, _⟩ => rfl
    | ⟨1, _⟩ => rfl
  have hw1 : scatter_S100000x16_S16x1_S100000x16_0_1_1_1.window (ix2 r' f) 1 = 0 := by
    unfold ScatterDims.window; rw [dif_neg (by decide)]
  have hcond : ∀ a : Fin S100000x16.rank, 0 ≤ scatter_S100000x16_S16x1_S100000x16_0_1_1_1.start (ix2 r' f) idx a + scatter_S100000x16_S16x1_S100000x16_0_1_1_1.window (ix2 r' f) a
      ∧ scatter_S100000x16_S16x1_S100000x16_0_1_1_1.start (ix2 r' f) idx a + scatter_S100000x16_S16x1_S100000x16_0_1_1_1.window (ix2 r' f) a < S100000x16.size a := by
    intro a
    match a with
    | ⟨0, _⟩ =>
      have := r'.isLt
      show 0 ≤ scatter_S100000x16_S16x1_S100000x16_0_1_1_1.start (ix2 r' f) idx 0 + scatter_S100000x16_S16x1_S100000x16_0_1_1_1.window (ix2 r' f) 0 ∧ scatter_S100000x16_S16x1_S100000x16_0_1_1_1.start (ix2 r' f) idx 0 + scatter_S100000x16_S16x1_S100000x16_0_1_1_1.window (ix2 r' f) 0 < (100000 : Nat)
      rw [hs0, hw0]; omega
    | ⟨1, _⟩ =>
      show 0 ≤ scatter_S100000x16_S16x1_S100000x16_0_1_1_1.start (ix2 r' f) idx 1 + scatter_S100000x16_S16x1_S100000x16_0_1_1_1.window (ix2 r' f) 1 ∧ scatter_S100000x16_S16x1_S100000x16_0_1_1_1.start (ix2 r' f) idx 1 + scatter_S100000x16_S16x1_S100000x16_0_1_1_1.window (ix2 r' f) 1 < (16 : Nat)
      rw [hs1, hw1]; omega
  unfold ScatterDims.resultIdx?
  rw [dif_pos hcond]
  congr 1
  funext a
  refine Fin.ext ?_
  match a with
  | ⟨0, _⟩ =>
    show (scatter_S100000x16_S16x1_S100000x16_0_1_1_1.start (ix2 r' f) idx 0 + scatter_S100000x16_S16x1_S100000x16_0_1_1_1.window (ix2 r' f) 0).toNat = r'.val
    rw [hs0, hw0]; omega
  | ⟨1, _⟩ =>
    show (scatter_S100000x16_S16x1_S100000x16_0_1_1_1.start (ix2 r' f) idx 1 + scatter_S100000x16_S16x1_S100000x16_0_1_1_1.window (ix2 r' f) 1).toNat = (idx (ix2 f (0 : Fin 1))).toNat
    rw [hs1, hw1]; omega

/-- The column scatter-add at (r, d): the operand there plus the updates of row r whose index word is d. -/
theorem scatterAdd_cols (x upd : FVec Ideal S100000x16 .f32) (idx : IVec S16x1 32)
    (hidx : ∀ f : Fin 16, (idx (ix2 f (0 : Fin 1))).toNat < 16) (r : Fin 100000) (d : Fin 16) :
    Host.scatterAdd (F := Ideal) scatter_S100000x16_S16x1_S100000x16_0_1_1_1 x idx upd (ix2 r d)
      = x (ix2 r d) + ∑ f : Fin 16, if (idx (ix2 f (0 : Fin 1))).toNat = d.val then upd (ix2 r f) else 0 := by
  show Ideal.hostScatterAdd _ x idx upd (ix2 r d) = _
  unfold Ideal.hostScatterAdd
  refine congrArg (x (ix2 r d) + ·) ?_
  rw [Finset.sum_filter, sum_idx2, Finset.sum_eq_single r]
  · refine Finset.sum_congr rfl (fun f _ => ?_)
    rw [scatter_lands idx r f (hidx f)]
    by_cases h : (idx (ix2 f (0 : Fin 1))).toNat = d.val
    · rw [if_pos h, if_pos]
      exact congrArg some (congrArg (ix2 r) (Fin.ext h))
    · rw [if_neg h, if_neg]
      intro he
      exact h (congrArg Fin.val (congrFun (Option.some.inj he) 1))
  · intro r' _ hne
    refine Finset.sum_eq_zero (fun f _ => ?_)
    rw [scatter_lands idx r' f (hidx f), if_neg]
    intro he
    exact hne (congrFun (Option.some.inj he) 0)
  · intro h; exact absurd (Finset.mem_univ r) h

/-- The maximum-reduce over a clause's two positions, from −∞, at (r, c). -/
theorem reduce_max_clause (x : FVec Ideal S100000x8x2 .f32) (r : Fin 100000) (c : Fin 8) :
    Host.reduce FloatOps.maximumf x (constant (F := Ideal) S_ .f32 0xFF800000#32)
        reducesTo_S100000x8x2_S100000x8_d2 h_S_ (ix2 r c)
      = (Finset.univ : Finset (Fin 2)).fold max (⊥ : EReal) (fun l => x (ix3 r c l)) := by
  have hR : S100000x8x2.Reduces [2] S100000x8 := by decide
  rw [Host.reduce_eq_fold_single FloatOps.maximumf x _ reducesTo_S100000x8x2_S100000x8_d2 hR h_S_]
  show Finset.fold max (Ideal.ofBits .f32 0xFF800000#32) (fun l : Fin 2 => x (hR.lift (ix2 r c) l)) (Finset.univ : Finset (Fin 2)) = _
  have hb : Ideal.ofBits .f32 0xFF800000#32 = (⊥ : EReal) := by simp [Ideal.ofBits, Ideal.ieee]
  rw [hb]
  refine congrArg (fun g => Finset.fold max (⊥ : EReal) g (Finset.univ : Finset (Fin 2))) ?_
  funext l
  refine congrArg x ?_
  funext a
  refine Fin.ext ?_
  match a with
  | ⟨0, _⟩ => rfl
  | ⟨1, _⟩ => rfl
  | ⟨2, _⟩ => rfl

/-! ## Flat literals: f = 2 · clause + position -/

/-- The flat index of position l in clause c. -/
def fl (c : Fin 8) (l : Fin 2) : Fin 16 := ⟨2 * c.val + l.val, by omega⟩

theorem fl_div (c : Fin 8) (l : Fin 2) : (fl c l).val / 2 = c.val := by
  show (2 * c.val + l.val) / 2 = c.val; omega

theorem fl_mod (c : Fin 8) (l : Fin 2) : (fl c l).val % 2 = l.val := by
  show (2 * c.val + l.val) % 2 = l.val; omega

/-- Every flat literal is the one of its clause and position. -/
theorem fl_split (f : Fin 16) : fl ⟨f.val / 2, by omega⟩ ⟨f.val % 2, by omega⟩ = f :=
  Fin.ext (by show 2 * (f.val / 2) + f.val % 2 = f.val; omega)

/-- The (clause, position) index read off the flat literal of (c, l) is (c, l). -/
theorem ix2_fl (c : Fin 8) (l : Fin 2) :
    ix2 (⟨(fl c l).val / 2, by have := (fl c l).isLt; omega⟩ : Fin 8) (⟨(fl c l).val % 2, by omega⟩ : Fin 2) = ix2 c l := by
  have h1 : (⟨(fl c l).val / 2, by have := (fl c l).isLt; omega⟩ : Fin 8) = c := Fin.ext (fl_div c l)
  have h2 : (⟨(fl c l).val % 2, by omega⟩ : Fin 2) = l := Fin.ext (fl_mod c l)
  rw [h1, h2]

/-! ## One row of the reference, literal by literal -/

section Row

variable (a0 : FVec Ideal Spec.SN16 .f32) (a4 : IVec Spec.S8x2 32) (a5 : FVec Ideal Spec.S8x2 .f32) (a8 : FVec Ideal Spec.S8 .f32)

/-- The exponent of literal f on row r: polarity times the entry of the column it reads. -/
def sR (r : Fin 100000) (f : Fin 16) : ℝ := Spec.sgU a5 f * Spec.xR a0 r (Spec.colU a4 f)

/-- The maximum of clause c's two exponents on row r is a real number … -/
theorem exists_max (r : Fin 100000) (c : Fin 8) :
    ∃ μ : ℝ, (Finset.univ : Finset (Fin 2)).fold max (⊥ : EReal) (fun l => ((sR a0 a4 a5 r (fl c l) : ℝ) : EReal)) = ((μ : ℝ) : EReal) :=
  Spec.fold_max_coe (by decide) (fun l => sR a0 a4 a5 r (fl c l))

/-- … this one. -/
def mC (r : Fin 100000) (c : Fin 8) : ℝ := Classical.choose (exists_max a0 a4 a5 r c)

theorem mC_spec (r : Fin 100000) (c : Fin 8) :
    (Finset.univ : Finset (Fin 2)).fold max (⊥ : EReal) (fun l => ((sR a0 a4 a5 r (fl c l) : ℝ) : EReal)) = ((mC a0 a4 a5 r c : ℝ) : EReal) :=
  Classical.choose_spec (exists_max a0 a4 a5 r c)

/-- The shift of literal f: its clause's maximum. -/
def muR (r : Fin 100000) (f : Fin 16) : ℝ := mC a0 a4 a5 r ⟨f.val / 2, by omega⟩

theorem muR_fl (r : Fin 100000) (c : Fin 8) (l : Fin 2) : muR a0 a4 a5 r (fl c l) = mC a0 a4 a5 r c :=
  congrArg (mC a0 a4 a5 r) (Fin.ext (fl_div c l))

/-- The shift is constant on a clause. -/
theorem muR_clause (r : Fin 100000) (f f' : Fin 16) (h : f'.val / 2 = f.val / 2) : muR a0 a4 a5 r f' = muR a0 a4 a5 r f :=
  congrArg (mC a0 a4 a5 r) (Fin.ext h)

/-- The shifted exponential of literal f on row r. -/
def eR (r : Fin 100000) (f : Fin 16) : EReal :=
  Ideal.exp (((sR a0 a4 a5 r f : ℝ) : EReal) - ((muR a0 a4 a5 r f : ℝ) : EReal))

/-- The wrapped index words, as the gather takes them: the words themselves. -/
theorem word6 (n4 : ∀ i, (a4 i).toNat < 16) (c : Fin 8) (l : Fin 2) :
    val_main_v6 (F := Ideal) a4 (ix3 c l (0 : Fin 1)) = a4 (ix2 c l) := by
  rw [val_main_v6_apply, val_main_v5_apply, val_main_v2_apply, val_main_v4_apply, val_main_v1_apply, val_main_v3_apply,
    val_main_c_apply, val_main_c_0_apply]
  have e : idx_main_v6 (ix3 c l (0 : Fin 1)) = ix2 c l :=
    funext fun a => Fin.ext (by match a with | ⟨0, _⟩ => rfl | ⟨1, _⟩ => rfl)
  rw [e]
  exact wrap_small _ (n4 _)

/-- The gathered entry at (r, c, l): row r at the literal's column. -/
theorem v7_at (r0 : ∀ i, a0 i = (((a0 i).toReal : ℝ) : EReal)) (n4 : ∀ i, (a4 i).toNat < 16)
    (r : Fin 100000) (c : Fin 8) (l : Fin 2) :
    val_main_v7 (F := Ideal) a0 a4 (ix3 r c l) = ((Spec.xR a0 r (Spec.colU a4 (fl c l)) : ℝ) : EReal) := by
  unfold val_main_v7
  have hw := word6 a4 n4 c l
  have hlt : (val_main_v6 (F := Ideal) a4 (ix3 c l (0 : Fin 1))).toNat < 16 := by rw [hw]; exact n4 _
  rw [gather_cols_small _ _ r c l hlt]
  have hk : (⟨(val_main_v6 (F := Ideal) a4 (ix3 c l (0 : Fin 1))).toNat, hlt⟩ : Fin 16) = Spec.colU a4 (fl c l) := by
    refine Fin.ext ?_
    show (val_main_v6 (F := Ideal) a4 (ix3 c l (0 : Fin 1))).toNat = (a4 (ix2 _ _)).toNat % 16
    rw [hw, ix2_fl, Nat.mod_eq_of_lt (n4 _)]
  rw [hk]
  unfold Spec.xR
  exact r0 _

/-- The polarity at (c, l), as a real number. -/
theorem sg_at (r5 : ∀ i, a5 i = (((a5 i).toReal : ℝ) : EReal)) (c : Fin 8) (l : Fin 2) :
    a5 (ix2 c l) = ((Spec.sgU a5 (fl c l) : ℝ) : EReal) := by
  unfold Spec.sgU
  rw [ix2_fl]
  exact r5 _

/-- The clause weight at c, as a real number. -/
theorem w_at (r8 : ∀ i, a8 i = (((a8 i).toReal : ℝ) : EReal)) (c : Fin 8) (l : Fin 2) :
    a8 (ix1 c) = ((Spec.wU a8 (fl c l) : ℝ) : EReal) := by
  unfold Spec.wU
  rw [show (⟨(fl c l).val / 2, by have := (fl c l).isLt; omega⟩ : Fin 8) = c from Fin.ext (fl_div c l)]
  exact r8 _

theorem v8_at (r : Fin 100000) (c : Fin 8) (l : Fin 2) : val_main_v8 (F := Ideal) a5 (ix3 r c l) = a5 (ix2 c l) := by
  rw [val_main_v8_apply, val_main_v0_apply]
  exact congrArg a5 (funext fun a => Fin.ext (by match a with | ⟨0, _⟩ => rfl | ⟨1, _⟩ => rfl))

/-- The exponent at (r, c, l). -/
theorem v9_at (r0 : ∀ i, a0 i = (((a0 i).toReal : ℝ) : EReal)) (r5 : ∀ i, a5 i = (((a5 i).toReal : ℝ) : EReal))
    (n4 : ∀ i, (a4 i).toNat < 16) (r : Fin 100000) (c : Fin 8) (l : Fin 2) :
    val_main_v9 (F := Ideal) a0 a4 a5 (ix3 r c l) = ((sR a0 a4 a5 r (fl c l) : ℝ) : EReal) := by
  rw [val_main_v9_apply, v8_at, v7_at a0 a4 r0 n4, sg_at a5 r5, Ideal.mulf_def]
  unfold sR
  rw [EReal.coe_mul]

/-- The clause maximum at (r, c): the maximum-reduce from −∞, and the maximum with −∞ after it. -/
theorem v13_at (r0 : ∀ i, a0 i = (((a0 i).toReal : ℝ) : EReal)) (r5 : ∀ i, a5 i = (((a5 i).toReal : ℝ) : EReal))
    (n4 : ∀ i, (a4 i).toNat < 16) (r : Fin 100000) (c : Fin 8) :
    val_main_v13 (F := Ideal) a0 a4 a5 (ix2 r c) = ((mC a0 a4 a5 r c : ℝ) : EReal) := by
  rw [val_main_v13_apply, val_main_v12_apply, val_main_cst_1_apply]
  unfold val_main_v11 val_main_cst
  rw [reduce_max_clause]
  have hf : (fun l : Fin 2 => val_main_v9 (F := Ideal) a0 a4 a5 (ix3 r c l))
      = fun l : Fin 2 => ((sR a0 a4 a5 r (fl c l) : ℝ) : EReal) :=
    funext fun l => v9_at a0 a4 a5 r0 r5 n4 r c l
  rw [hf, mC_spec, Ideal.maximumf_def, Ideal.ofBits_def]
  rw [show Ideal.ofBits .f32 0xFF800000#32 = (⊥ : EReal) by simp [Ideal.ofBits, Ideal.ieee]]
  exact max_eq_right bot_le

theorem v15_at (r : Fin 100000) (c : Fin 8) (l : Fin 2) :
    val_main_v15 (F := Ideal) a0 a4 a5 (ix3 r c l) = val_main_v13 (F := Ideal) a0 a4 a5 (ix2 r c) := by
  rw [val_main_v15_apply, val_main_v14_apply]
  exact congrArg (val_main_v13 (F := Ideal) a0 a4 a5)
    (funext fun a => Fin.ext (by match a with | ⟨0, _⟩ => rfl | ⟨1, _⟩ => rfl))

/-- The shifted exponential at (r, c, l). -/
theorem v17_at (r0 : ∀ i, a0 i = (((a0 i).toReal : ℝ) : EReal)) (r5 : ∀ i, a5 i = (((a5 i).toReal : ℝ) : EReal))
    (n4 : ∀ i, (a4 i).toNat < 16) (r : Fin 100000) (c : Fin 8) (l : Fin 2) :
    val_main_v17 (F := Ideal) a0 a4 a5 (ix3 r c l) = eR a0 a4 a5 r (fl c l) := by
  rw [val_main_v17_apply, val_main_v16_apply, v15_at, v13_at a0 a4 a5 r0 r5 n4, v9_at a0 a4 a5 r0 r5 n4]
  unfold eR
  rw [muR_fl]
  rfl

/-- The clause's sum of shifted exponentials at (r, c): over the flat literals of clause c. -/
theorem v18_at (r0 : ∀ i, a0 i = (((a0 i).toReal : ℝ) : EReal)) (r5 : ∀ i, a5 i = (((a5 i).toReal : ℝ) : EReal))
    (n4 : ∀ i, (a4 i).toNat < 16) (r : Fin 100000) (c : Fin 8) :
    val_main_v18 (F := Ideal) a0 a4 a5 (ix2 r c)
      = ∑ f' : Fin 16, if f'.val / 2 = c.val then eR a0 a4 a5 r f' else 0 := by
  rw [val_main_v18_apply, val_main_cst_2_apply, Ideal.ofBits_def, Ideal.ofBits_zero_f32, zero_add,
    ← Spec.sum_clause2_nat (eR a0 a4 a5 r) c.val c.isLt]
  refine Finset.sum_congr rfl (fun l _ => ?_)
  have e : idx_main_v18 (ix2 r c) l = ix3 r c l :=
    funext fun a => Fin.ext (by match a with | ⟨0, _⟩ => rfl | ⟨1, _⟩ => rfl | ⟨2, _⟩ => rfl)
  rw [e, v17_at a0 a4 a5 r0 r5 n4]
  rfl

theorem v20_at (r : Fin 100000) (c : Fin 8) (l : Fin 2) :
    val_main_v20 (F := Ideal) a0 a4 a5 (ix3 r c l) = val_main_v18 (F := Ideal) a0 a4 a5 (ix2 r c) := by
  rw [val_main_v20_apply, val_main_v19_apply]
  exact congrArg (val_main_v18 (F := Ideal) a0 a4 a5)
    (funext fun a => Fin.ext (by match a with | ⟨0, _⟩ => rfl | ⟨1, _⟩ => rfl))

theorem v22_at (r : Fin 100000) (c : Fin 8) (l : Fin 2) : val_main_v22 (F := Ideal) a8 (ix3 r c l) = a8 (ix1 c) := by
  rw [val_main_v22_apply, val_main_v10_apply]
  exact congrArg a8 (funext fun a => Fin.ext (by match a with | ⟨0, _⟩ => rfl))

theorem v25_at (r : Fin 100000) (c : Fin 8) (l : Fin 2) : val_main_v25 (F := Ideal) a5 (ix3 r c l) = a5 (ix2 c l) := by
  rw [val_main_v25_apply, val_main_v24_apply]
  exact congrArg a5 (funext fun a => Fin.ext (by match a with | ⟨0, _⟩ => rfl | ⟨1, _⟩ => rfl))

/-- The boost of literal (c, l) on row r: weight · softmax · polarity. -/
theorem v26_at (r0 : ∀ i, a0 i = (((a0 i).toReal : ℝ) : EReal)) (r5 : ∀ i, a5 i = (((a5 i).toReal : ℝ) : EReal))
    (r8 : ∀ i, a8 i = (((a8 i).toReal : ℝ) : EReal)) (n4 : ∀ i, (a4 i).toNat < 16)
    (r : Fin 100000) (c : Fin 8) (l : Fin 2) :
    val_main_v26 (F := Ideal) a0 a4 a5 a8 (ix3 r c l)
      = ((Spec.wU a8 (fl c l) : ℝ) : EReal)
          * Ideal.div (eR a0 a4 a5 r (fl c l)) (∑ f' : Fin 16, if f'.val / 2 = c.val then eR a0 a4 a5 r f' else 0)
          * ((Spec.sgU a5 (fl c l) : ℝ) : EReal) := by
  rw [val_main_v26_apply, val_main_v23_apply, val_main_v21_apply, v22_at, v25_at, v20_at,
    v18_at a0 a4 a5 r0 r5 n4, v17_at a0 a4 a5 r0 r5 n4, w_at a8 r8 c l, sg_at a5 r5 c l]
  rfl

/-- The reshape to 16 flat literals: entry (r, f) is the boost of clause f / 2, position f % 2. -/
theorem v29_at (r : Fin 100000) (f : Fin 16) :
    val_main_v29 (F := Ideal) a0 a4 a5 a8 (ix2 r f)
      = val_main_v26 (F := Ideal) a0 a4 a5 a8 (ix3 r (⟨f.val / 2, by omega⟩ : Fin 8) (⟨f.val % 2, by omega⟩ : Fin 2)) := by
  rw [val_main_v29_apply]
  refine congrArg (val_main_v26 (F := Ideal) a0 a4 a5 a8) (funext fun a => Fin.ext ?_)
  have hr := r.isLt
  have hf := f.isLt
  match a with
  | ⟨0, _⟩ => show (r.val * 16 + f.val) / 16 = r.val; omega
  | ⟨1, _⟩ => show (r.val * 16 + f.val) / 2 % 8 = f.val / 2; omega
  | ⟨2, _⟩ => show (r.val * 16 + f.val) % 2 = f.val % 2; omega

/-- The scatter's index column at f: the word of flat literal f. -/
theorem v35_at (n4 : ∀ i, (a4 i).toNat < 16) (f : Fin 16) :
    val_main_v35 (F := Ideal) a4 (ix2 f (0 : Fin 1))
      = a4 (ix2 (⟨f.val / 2, by omega⟩ : Fin 8) (⟨f.val % 2, by omega⟩ : Fin 2)) := by
  rw [val_main_v35_apply, val_main_v34_apply, val_main_v31_apply, val_main_v33_apply, val_main_v30_apply,
    val_main_v32_apply, val_main_c_4_apply, val_main_c_5_apply, val_main_v28_apply]
  have e : idx_main_v28 (idx_main_v35 (ix2 f (0 : Fin 1))) = ix2 (⟨f.val / 2, by omega⟩ : Fin 8) (⟨f.val % 2, by omega⟩ : Fin 2) :=
    funext fun a => Fin.ext (by match a with | ⟨0, _⟩ => rfl | ⟨1, _⟩ => rfl)
  rw [e]
  exact wrap_small _ (n4 _)

/-- The scatter-add of the boosts into zeros at (r, d): the boosts of the literals that read column d. -/
theorem v36_at (n4 : ∀ i, (a4 i).toNat < 16) (r : Fin 100000) (d : Fin 16) :
    val_main_v36 (F := Ideal) a0 a4 a5 a8 (ix2 r d)
      = ∑ f : Fin 16, if Spec.colU a4 f = d then
          val_main_v26 (F := Ideal) a0 a4 a5 a8 (ix3 r (⟨f.val / 2, by omega⟩ : Fin 8) (⟨f.val % 2, by omega⟩ : Fin 2))
        else 0 := by
  unfold val_main_v36
  rw [scatterAdd_cols _ _ _ (fun f => by rw [v35_at a4 n4]; exact n4 _), val_main_v27_apply, val_main_cst_3_apply,
    Ideal.ofBits_def, Ideal.ofBits_zero_f32, zero_add]
  refine Finset.sum_congr rfl (fun f _ => ?_)
  rw [v35_at a4 n4, v29_at]
  refine if_congr ?_ rfl rfl
  rw [Fin.ext_iff]
  show _ ↔ (a4 _).toNat % 16 = d.val
  rw [Nat.mod_eq_of_lt (n4 _)]

end Row

end Unary

open Unary in
theorem u_eq (a0 : FVec Ideal Spec.SN16 .f32) (a4 : IVec Spec.S8x2 32) (a5 : FVec Ideal Spec.S8x2 .f32) (a8 : FVec Ideal Spec.S8 .f32)
    (r0 : (∀ i, a0 i = (((a0 i).toReal : ℝ) : EReal))) (r5 : (∀ i, a5 i = (((a5 i).toReal : ℝ) : EReal))) (r8 : (∀ i, a8 i = (((a8 i).toReal : ℝ) : EReal))) (n4 : ∀ i, (a4 i).toNat < 16) :
    val_main_v37 (F := Ideal) a0 a4 a5 a8 = Spec.Uarr a0 a4 a5 a8 := by
  funext i
  obtain ⟨r, d, rfl⟩ : ∃ (r : Fin 100000) (d : Fin 16), i = ix2 r d := ⟨i 0, i 1, eq_ix2 i⟩
  rw [val_main_v37_apply, v36_at a0 a4 a5 a8 n4, Ideal.addf_def]
  show _ = ((Spec.uR a0 a4 a5 a8 r d : ℝ) : EReal)
  unfold Spec.uR
  rw [EReal.coe_add, ← Spec.ke_shift (Spec.xR a0 r) (Spec.colU a4) (Spec.sgU a5) (Spec.wU a8) (fun f => f.val / 2)
    (muR a0 a4 a5 r) (fun f f' h => muR_clause a0 a4 a5 r f f' h) d]
  refine congrArg₂ (· + ·) ?_ (Finset.sum_congr rfl (fun f _ => if_congr Iff.rfl ?_ rfl))
  · unfold Spec.xR
    exact r0 _
  · rw [v26_at a0 a4 a5 a8 r0 r5 r8 n4, fl_split f]
    rfl

end Cert.ReferenceIdeal.RefValue

end
-- ==== Proof.RefDB.lean ====
/-
  The reference's binary stage: the two row gathers of u at the edge-index inputs, the concatenation with binary into
  rows of 33, the gather of the 24 literals, the per-clause stable softmax and the scatter-add back onto the 33 joined
  columns — the boost of each edge's joined row.

  Everything is read at one edge e, symbolically.  An index word that lies inside its axis is non-negative as a signed
  number, so the wrap of negative indices returns it unchanged and the gather's clamp does nothing.  The joined row
  of e is u[i1 e], u[i2 e], binary e.  Literal f (clause f / 3, position f % 3) scores sg f · joined (col f); the
  clause maximum is a real number, constant on the clause, and the softmax does not see it; the scatter-add onto
  column d sums the weighted literals whose column is d.
-/
import proofs.«427341_j23287312679568_3_alg».proof.Proof.RefU
import proofs.«427341_j23287312679568_3_alg».proof.Proof.LibGatherRows

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

namespace DB
/-! ## The column scatter-add (operand R × D, one column index per update column, updates R × n) read at an index -/

/-- Its dimension numbers: the updates' row axis is the window axis, the operand's column axis is inserted and indexed
    by the one component of each index vector. -/
abbrev colAddDims (R D n : Nat) (wf : ScatterDims.WF ⟨2, ![R, D]⟩ ⟨2, ![n, 1]⟩ ⟨2, ![R, n]⟩ [0] [1] [1] 1) :
    ScatterDims ⟨2, ![R, D]⟩ ⟨2, ![n, 1]⟩ ⟨2, ![R, n]⟩ where
  updateWindowDims := [0]
  insertedWindowDims := [1]
  scatterDimsToOperandDims := [1]
  indexVectorDim := 1
  wf := wf

private theorem zero_notMem_one : (0 : Fin 2) ∉ ([1] : List (Fin 2)) := by decide
private theorem one_notMem_zero : (1 : Fin 2) ∉ ([0] : List (Fin 2)) := by decide
private theorem zero_mem_kept_one : (0 : Fin 2) ∈ (List.finRange 2).filter (fun a => a ∉ ([1] : List (Fin 2))) := by decide
private theorem one_notMem_kept_one : (1 : Fin 2) ∉ (List.finRange 2).filter (fun a => a ∉ ([1] : List (Fin 2))) := by decide

section ColAdd
variable {R D n w : Nat} (wf : ScatterDims.WF ⟨2, ![R, D]⟩ ⟨2, ![n, 1]⟩ ⟨2, ![R, n]⟩ [0] [1] [1] 1)
  (idx : IVec ⟨2, ![n, 1]⟩ w) (r : Fin R) (f : Fin n)

/-- On the row axis an update at (r, f) starts at 0 and sits at window coordinate r. -/
theorem colAdd_sum0 :
    (colAddDims R D n wf).start (ix2 r f) idx 0 + ((colAddDims R D n wf).window (ix2 r f) 0 : Int) = (r.val : Int) := by
  unfold ScatterDims.start ScatterDims.window
  rw [dif_neg (show (0 : Fin 2) ∉ (colAddDims R D n wf).scatterDimsToOperandDims from zero_notMem_one),
    dif_pos (show (0 : Fin 2) ∈ (colAddDims R D n wf).sKept from zero_mem_kept_one)]
  rw [Int.zero_add]
  rfl

/-- On the column axis it starts at the index word of f, read signed, with window coordinate 0. -/
theorem colAdd_sum1 :
    (colAddDims R D n wf).start (ix2 r f) idx 1 + ((colAddDims R D n wf).window (ix2 r f) 1 : Int)
      = (idx (ix2 f (0 : Fin 1))).toInt := by
  unfold ScatterDims.start ScatterDims.window
  rw [dif_pos (show (1 : Fin 2) ∈ (colAddDims R D n wf).scatterDimsToOperandDims from List.mem_singleton.mpr rfl),
    dif_neg (show (1 : Fin 2) ∉ (colAddDims R D n wf).sKept from one_notMem_kept_one)]
  have hsi : (colAddDims R D n wf).siIdx (ix2 r f) ⟨List.idxOf (1 : Fin 2) (colAddDims R D n wf).scatterDimsToOperandDims,
      List.idxOf_lt_length_iff.2 (List.mem_singleton.mpr rfl)⟩ = ix2 f (0 : Fin 1) := by
    funext b; refine Fin.ext ?_
    match b with
    | ⟨0, _⟩ => rfl
    | ⟨1, _⟩ => rfl
  rw [hsi]
  show _ + ((0 : Nat) : Int) = _
  omega

/-- So the update at (r, f) lands at (r', c) exactly when r = r' and the index word of f, read signed, is c; a word
    outside the columns lands nowhere. -/
theorem colAdd_resultIdx_iff (r' : Fin R) (c : Fin D) :
    (colAddDims R D n wf).resultIdx? (ix2 r f) idx = some (ix2 r' c)
      ↔ r = r' ∧ (idx (ix2 f (0 : Fin 1))).toInt = (c.val : Int) := by
  have h0 := colAdd_sum0 (D := D) wf idx r f
  have h1 := colAdd_sum1 (D := D) wf idx r f
  unfold ScatterDims.resultIdx?
  split_ifs with h
  · rw [Option.some.injEq]
    constructor
    · intro hg
      have e0 : ((colAddDims R D n wf).start (ix2 r f) idx 0 + ((colAddDims R D n wf).window (ix2 r f) 0 : Int)).toNat = r'.val :=
        congrArg Fin.val (congrFun hg 0)
      have e1 : ((colAddDims R D n wf).start (ix2 r f) idx 1 + ((colAddDims R D n wf).window (ix2 r f) 1 : Int)).toNat = c.val :=
        congrArg Fin.val (congrFun hg 1)
      rw [h0] at e0
      rw [h1] at e1
      have p1 := (h 1).1
      rw [h1] at p1
      exact ⟨Fin.ext (by omega), by omega⟩
    · rintro ⟨rfl, hc⟩
      funext a; refine Fin.ext ?_
      match a with
      | ⟨0, _⟩ =>
        show ((colAddDims R D n wf).start (ix2 r f) idx 0 + ((colAddDims R D n wf).window (ix2 r f) 0 : Int)).toNat = r.val
        rw [h0]; omega
      | ⟨1, _⟩ =>
        show ((colAddDims R D n wf).start (ix2 r f) idx 1 + ((colAddDims R D n wf).window (ix2 r f) 1 : Int)).toNat = c.val
        rw [h1, hc]; omega
  · constructor
    · intro hh; cases hh
    · rintro ⟨rfl, hc⟩
      exfalso; apply h
      intro a
      match a with
      | ⟨0, _⟩ =>
        show 0 ≤ (colAddDims R D n wf).start (ix2 r f) idx 0 + ((colAddDims R D n wf).window (ix2 r f) 0 : Int)
          ∧ (colAddDims R D n wf).start (ix2 r f) idx 0 + ((colAddDims R D n wf).window (ix2 r f) 0 : Int) < ((R : Nat) : Int)
        rw [h0]; have := r.isLt; omega
      | ⟨1, _⟩ =>
        show 0 ≤ (colAddDims R D n wf).start (ix2 r f) idx 1 + ((colAddDims R D n wf).window (ix2 r f) 1 : Int)
          ∧ (colAddDims R D n wf).start (ix2 r f) idx 1 + ((colAddDims R D n wf).window (ix2 r f) 1 : Int) < ((D : Nat) : Int)
        rw [h1, hc]; have := c.isLt; omega

/-- The scatter-add at (r, c): the operand there plus the updates of row r whose index word is c. -/
theorem colAdd_apply (x : (⟨2, ![R, D]⟩ : Shape).Idx → EReal) (upd : (⟨2, ![R, n]⟩ : Shape).Idx → EReal) (c : Fin D) :
    Ideal.hostScatterAdd (colAddDims R D n wf) x idx upd (ix2 r c)
      = x (ix2 r c) + ∑ f : Fin n, if (idx (ix2 f (0 : Fin 1))).toInt = (c.val : Int) then upd (ix2 r f) else 0 := by
  unfold Ideal.hostScatterAdd
  refine congrArg (x (ix2 r c) + ·) ?_
  rw [Finset.sum_filter, sum_idx2, Finset.sum_eq_single r]
  · refine Finset.sum_congr rfl (fun f _ => ?_)
    simp only [colAdd_resultIdx_iff wf idx, true_and]
  · intro a _ hne
    refine Finset.sum_eq_zero (fun f _ => ?_)
    rw [if_neg]
    rw [colAdd_resultIdx_iff wf idx]
    exact fun h => hne h.1
  · intro h; exact absurd (Finset.mem_univ r) h

end ColAdd

/-! ## The column gather (operand R × D, a C × L table of column indices, result R × C × L) read at an index -/

/-- Its dimension numbers: the rows are the offset axis (whole columns are sliced), the column axis is collapsed and
    indexed by the one component of each index vector. -/
abbrev colTakeDims (R D C L : Nat)
    (wf : GatherDims.WF ⟨2, ![R, D]⟩ ⟨3, ![C, L, 1]⟩ ⟨3, ![R, C, L]⟩ [0] [1] [] [1] [] 2 ![R, 1]) :
    GatherDims ⟨2, ![R, D]⟩ ⟨3, ![C, L, 1]⟩ ⟨3, ![R, C, L]⟩ where
  offsetDims := [0]
  collapsedSliceDims := [1]
  operandBatchingDims := []
  startIndicesBatchingDims := []
  startIndexMap := [1]
  indexVectorDim := 2
  sliceSizes := ![R, 1]
  wf := wf

/-- The gather at (r, c, l): row r of the operand at the column the word at (c, l) names, read signed and clamped into
    the columns. -/
theorem gather_cols_apply {α : Type} {R D C L w : Nat} (hD : 0 < D)
    (wf : GatherDims.WF ⟨2, ![R, D]⟩ ⟨3, ![C, L, 1]⟩ ⟨3, ![R, C, L]⟩ [0] [1] [] [1] [] 2 ![R, 1])
    (x : (⟨2, ![R, D]⟩ : Shape).Idx → α) (idx : IVec ⟨3, ![C, L, 1]⟩ w) (r : Fin R) (c : Fin C) (l : Fin L) :
    Host.gather (colTakeDims R D C L wf) x idx (ix3 r c l)
      = x (ix2 r (⟨min (idx (ix3 c l (0 : Fin 1))).toInt.toNat (D - 1), by omega⟩ : Fin D)) := by
  unfold Host.gather
  congr 1
  funext a
  refine Fin.ext ?_
  match a with
  | ⟨0, _⟩ =>
    show (colTakeDims R D C L wf).start (ix3 r c l) idx 0 + (colTakeDims R D C L wf).batchCoord (ix3 r c l) 0
      + (colTakeDims R D C L wf).offCoord (ix3 r c l) 0 = r.val
    rw [GatherDims.batchCoord_eq_zero _ _ _ List.not_mem_nil]
    unfold GatherDims.start
    rw [dif_neg (show (0 : Fin 2) ∉ (colTakeDims R D C L wf).startIndexMap from zero_notMem_one)]
    unfold GatherDims.offCoord
    rw [dif_pos (show (0 : Fin 2) ∈ (colTakeDims R D C L wf).sKept from
      (GatherDims.mem_sKept _ _).mpr ⟨zero_notMem_one, List.not_mem_nil⟩)]
    simp only [Nat.zero_add]
    rfl
  | ⟨1, _⟩ =>
    show (colTakeDims R D C L wf).start (ix3 r c l) idx 1 + (colTakeDims R D C L wf).batchCoord (ix3 r c l) 1
      + (colTakeDims R D C L wf).offCoord (ix3 r c l) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colTakeDims R D C L wf).startIndexMap from List.mem_singleton.mpr rfl)]
    have hsi : (colTakeDims R D C L wf).siIdx (ix3 r c l) ⟨List.idxOf (1 : Fin 2) (colTakeDims R D C L wf).startIndexMap,
        List.idxOf_lt_length_iff.2 (List.mem_singleton.mpr rfl)⟩ = ix3 c l (0 : Fin 1) := by
      funext b; refine Fin.ext ?_
      match b with
      | ⟨0, _⟩ => rfl
      | ⟨1, _⟩ => rfl
      | ⟨2, _⟩ => rfl
    rw [hsi]
    rfl

/-! ## rows of 16 + 16 + 1 laid side by side, read at a column -/

section Concat
variable {α : Type} {R : Nat} (x₁ x₂ : (⟨2, ![R, 16]⟩ : Shape).Idx → α) (x₃ : (⟨2, ![R, 1]⟩ : Shape).Idx → α)
  (h : Shape.Concatenates [(⟨2, ![R, 16]⟩ : Shape), ⟨2, ![R, 16]⟩, ⟨2, ![R, 1]⟩] ⟨2, ![R, 33]⟩ 1) (e : Fin R) (j : Fin 33)

/-- Columns 0 … 15 come from the first piece. -/
theorem concat3_first (hj : j.val < 16) :
    concatenate ⟨2, ![R, 33]⟩ 1 [⟨⟨2, ![R, 16]⟩, x₁⟩, ⟨⟨2, ![R, 16]⟩, x₂⟩, ⟨⟨2, ![R, 1]⟩, x₃⟩] h (ix2 e j)
      = x₁ (ix2 e (⟨j.val, hj⟩ : Fin 16)) := by
  refine concatenate_apply_piece 1 [⟨⟨2, ![R, 16]⟩, x₁⟩, ⟨⟨2, ![R, 16]⟩, x₂⟩, ⟨⟨2, ![R, 1]⟩, x₃⟩] h (ix2 e j) 0 (by simp) ⟨2, ![R, 16]⟩ x₁ rfl rfl 0 rfl (ix2 e (⟨j.val, hj⟩ : Fin 16)) ?_ ?_
  · intro b hb
    match b with
    | ⟨0, _⟩ => rfl
    | ⟨1, _⟩ => exact absurd (Fin.ext rfl) hb
  · show 0 + j.val = j.val
    omega

/-- Columns 16 … 31 come from the second piece, at column − 16. -/
theorem concat3_second (hj : 16 ≤ j.val) (hj2 : j.val < 32) :
    concatenate ⟨2, ![R, 33]⟩ 1 [⟨⟨2, ![R, 16]⟩, x₁⟩, ⟨⟨2, ![R, 16]⟩, x₂⟩, ⟨⟨2, ![R, 1]⟩, x₃⟩] h (ix2 e j)
      = x₂ (ix2 e (⟨j.val - 16, by omega⟩ : Fin 16)) := by
  refine concatenate_apply_piece 1 [⟨⟨2, ![R, 16]⟩, x₁⟩, ⟨⟨2, ![R, 16]⟩, x₂⟩, ⟨⟨2, ![R, 1]⟩, x₃⟩] h (ix2 e j) 1 (by simp) ⟨2, ![R, 16]⟩ x₂ rfl rfl 16 rfl
    (ix2 e (⟨j.val - 16, by omega⟩ : Fin 16)) ?_ ?_
  · intro b hb
    match b with
    | ⟨0, _⟩ => rfl
    | ⟨1, _⟩ => exact absurd (Fin.ext rfl) hb
  · show 16 + (j.val - 16) = j.val
    omega

/-- Column 32 is the third piece's one column. -/
theorem concat3_third (hj : 32 ≤ j.val) :
    concatenate ⟨2, ![R, 33]⟩ 1 [⟨⟨2, ![R, 16]⟩, x₁⟩, ⟨⟨2, ![R, 16]⟩, x₂⟩, ⟨⟨2, ![R, 1]⟩, x₃⟩] h (ix2 e j)
      = x₃ (ix2 e (0 : Fin 1)) := by
  refine concatenate_apply_piece 1 [⟨⟨2, ![R, 16]⟩, x₁⟩, ⟨⟨2, ![R, 16]⟩, x₂⟩, ⟨⟨2, ![R, 1]⟩, x₃⟩] h (ix2 e j) 2 (by simp) ⟨2, ![R, 1]⟩ x₃ rfl rfl 32 rfl
    (ix2 e (0 : Fin 1)) ?_ ?_
  · intro b hb
    match b with
    | ⟨0, _⟩ => rfl
    | ⟨1, _⟩ => exact absurd (Fin.ext rfl) hb
  · show 32 + 0 = j.val
    have := j.isLt
    omega

end Concat

/-! ## the maximum over the last axis of a rank-3 array -/

/-- A maximum-reduce over the last axis is, at (r, c), the fold of max from the initial value over the last coordinate. -/
theorem reduce_max_last {R C L : Nat} (x : FVec Ideal ⟨3, ![R, C, L]⟩ .f32) (init : FVec Ideal ⟨0, ![]⟩ .f32)
    (h' : Shape.ReducesTo ⟨3, ![R, C, L]⟩ [2] ⟨2, ![R, C]⟩) (h : Shape.Reduces ⟨3, ![R, C, L]⟩ [2] ⟨2, ![R, C]⟩)
    (hu : 0 < (⟨0, ![]⟩ : Shape).numel) (r : Fin R) (c : Fin C) :
    Host.reduce (FloatOps.maximumf (F := Ideal) (φ := .f32)) x init h' hu (ix2 r c)
      = (Finset.univ : Finset (Fin L)).fold max (init (Shape.Idx.first hu)) (fun k => x (ix3 r c k)) := by
  rw [Host.reduce_eq_fold_single (FloatOps.maximumf (F := Ideal) (φ := .f32)) x init h' h hu (ix2 r c)]
  have hf : (x ∘ h.lift (ix2 r c)) = fun k : Fin L => x (ix3 r c k) := by
    funext k
    exact congrArg x (funext fun a => Fin.ext (by match a with | ⟨0, _⟩ => rfl | ⟨1, _⟩ => rfl | ⟨2, _⟩ => rfl))
  rw [hf]
  rfl

/-! ## Index words inside their axis -/

/-- A word below 2^31 is not negative as a signed number: the wrap of negative indices returns it. -/
theorem wrap_word (w K : BitVec 32) (h : w.toNat < 2 ^ 31) :
    Scalar.select (IntOp.cmpi .slt w 0#32) (IntOp.addi w K) w = w := by
  have hc : IntOp.cmpi .slt w 0#32 = 0#1 := eq_zero_of_ne_one (fun h1 => by
    rw [IntOp.cmpi_slt, BitVec.toInt_zero, BitVec.toInt_eq_toNat_of_lt (by omega)] at h1
    omega)
  rw [hc, select_zero]

/-- Read signed and clamped into an axis of extent N, a word below N is itself. -/
theorem clamp_word (w : BitVec 32) (N : Nat) (hN : N ≤ 2 ^ 31) (h : w.toNat < N) :
    min w.toInt.toNat (N - 1) = w.toNat % N := by
  rw [BitVec.toInt_eq_toNat_of_lt (by omega), Int.toNat_natCast, Nat.mod_eq_of_lt h]
  omega

/-- As a signed number a word below 2^31 equals d exactly when its value modulo N does, for a word below N. -/
theorem word_toInt_eq_iff (w : BitVec 32) (N : Nat) (hN : N ≤ 2 ^ 31) (h : w.toNat < N) (d : Nat) :
    w.toInt = (d : Int) ↔ w.toNat % N = d := by
  rw [BitVec.toInt_eq_toNat_of_lt (by omega), Nat.mod_eq_of_lt h]
  omega

/-! ## The joined row of an edge -/

section Stages
variable (a0 : FVec Ideal Spec.SN16 .f32) (a1 : FVec Ideal Spec.SE .f32) (a2 a3 : IVec Spec.SE 32)
  (a4 : IVec Spec.S8x2 32) (a5 : FVec Ideal Spec.S8x2 .f32) (a6 : IVec Spec.S8x3 32) (a7 : FVec Ideal Spec.S8x3 .f32)
  (a8 a9 : FVec Ideal Spec.S8 .f32)

/-- The wrapped edge-index column at edge e is the input word (first index input). -/
theorem v43_at (e : Fin 3200000) (h : (a2 (ix1 e)).toNat < 100000) :
    val_main_v43 (F := Ideal) a2 (ix2 e (0 : Fin 1)) = a2 (ix1 e) := by
  have hi : idx_main_v43 (ix2 e (0 : Fin 1)) = ix1 e := funext fun a => Fin.ext (by match a with | ⟨0, _⟩ => rfl)
  rw [val_main_v43_apply, val_main_v42_apply, val_main_v39_apply, val_main_v41_apply, hi]
  exact wrap_word _ _ (by omega)

/-- The same for the second index input. -/
theorem v50_at (e : Fin 3200000) (h : (a3 (ix1 e)).toNat < 100000) :
    val_main_v50 (F := Ideal) a3 (ix2 e (0 : Fin 1)) = a3 (ix1 e) := by
  have hi : idx_main_v50 (ix2 e (0 : Fin 1)) = ix1 e := funext fun a => Fin.ext (by match a with | ⟨0, _⟩ => rfl)
  rw [val_main_v50_apply, val_main_v49_apply, val_main_v46_apply, val_main_v48_apply, hi]
  exact wrap_word _ _ (by omega)

/-- The row gather's dimension numbers are those of the gather of whole rows of a table at a column of row indices. -/
theorem rows_dims : gather_S100000x16_S3200000x1_S3200000x16_1_0_n_n_0_1_116
    = LibGatherRows.rowTakeDims 100000 16 3200000 Facts₀.gather_S100000x16_S3200000x1_S3200000x16_1_0_n_n_0_1_116_wf := rfl

/-- u gathered at the first index input: row e is u[i1 e]. -/
theorem v44_at (r0 : ∀ i, a0 i = (((a0 i).toReal : ℝ) : EReal)) (r5 : ∀ i, a5 i = (((a5 i).toReal : ℝ) : EReal))
    (r8 : ∀ i, a8 i = (((a8 i).toReal : ℝ) : EReal)) (n4 : ∀ i, (a4 i).toNat < 16)
    (e : Fin 3200000) (h : (a2 (ix1 e)).toNat < 100000) (j : Fin 16) :
    val_main_v44 (F := Ideal) a0 a2 a4 a5 a8 (ix2 e j) = ((Spec.uR a0 a4 a5 a8 (Spec.nodeOf a2 e) j : ℝ) : EReal) := by
  unfold val_main_v44
  rw [u_eq a0 a4 a5 a8 r0 r5 r8 n4, rows_dims, LibGatherRows.gather_rows_apply (by decide)]
  have hn : (⟨min (val_main_v43 (F := Ideal) a2 (ix2 e (0 : Fin 1))).toInt.toNat (100000 - 1), by omega⟩ : Fin 100000)
      = Spec.nodeOf a2 e :=
    Fin.ext (by
      show min (val_main_v43 (F := Ideal) a2 (ix2 e (0 : Fin 1))).toInt.toNat (100000 - 1) = (a2 (ix1 e)).toNat % 100000
      rw [v43_at a2 e h]
      exact clamp_word _ 100000 (by norm_num) h)
  rw [hn]
  rfl

/-- u gathered at the second index input: row e is u[i2 e]. -/
theorem v51_at (r0 : ∀ i, a0 i = (((a0 i).toReal : ℝ) : EReal)) (r5 : ∀ i, a5 i = (((a5 i).toReal : ℝ) : EReal))
    (r8 : ∀ i, a8 i = (((a8 i).toReal : ℝ) : EReal)) (n4 : ∀ i, (a4 i).toNat < 16)
    (e : Fin 3200000) (h : (a3 (ix1 e)).toNat < 100000) (j : Fin 16) :
    val_main_v51 (F := Ideal) a0 a3 a4 a5 a8 (ix2 e j) = ((Spec.uR a0 a4 a5 a8 (Spec.nodeOf a3 e) j : ℝ) : EReal) := by
  unfold val_main_v51
  rw [u_eq a0 a4 a5 a8 r0 r5 r8 n4, rows_dims, LibGatherRows.gather_rows_apply (by decide)]
  have hn : (⟨min (val_main_v50 (F := Ideal) a3 (ix2 e (0 : Fin 1))).toInt.toNat (100000 - 1), by omega⟩ : Fin 100000)
      = Spec.nodeOf a3 e :=
    Fin.ext (by
      show min (val_main_v50 (F := Ideal) a3 (ix2 e (0 : Fin 1))).toInt.toNat (100000 - 1) = (a3 (ix1 e)).toNat % 100000
      rw [v50_at a3 e h]
      exact clamp_word _ 100000 (by norm_num) h)
  rw [hn]
  rfl

/-- binary as a column, at edge e. -/
theorem v52_at (e : Fin 3200000) : val_main_v52 (F := Ideal) a1 (ix2 e (0 : Fin 1)) = a1 (ix1 e) := by
  have hi : idx_main_v52 (ix2 e (0 : Fin 1)) = ix1 e := funext fun a => Fin.ext (by match a with | ⟨0, _⟩ => rfl)
  rw [val_main_v52_apply, hi]

/-- The concatenation is the joined row: u[i1 e], u[i2 e], binary e. -/
theorem v53_at (hadm : Spec.Adm a0 a1 a2 a3 a4 a5 a6 a7 a8 a9) (e : Fin 3200000) (j : Fin 33) :
    val_main_v53 (F := Ideal) a0 a1 a2 a3 a4 a5 a8 (ix2 e j)
      = ((Spec.joinedR a0 a1 a2 a3 a4 a5 a8 e j : ℝ) : EReal) := by
  unfold val_main_v53 Spec.joinedR
  by_cases h1 : j.val < 16
  · rw [dif_pos h1, concat3_first _ _ _ _ e j h1]
    exact v44_at a0 a2 a4 a5 a8 hadm.r0 hadm.r5 hadm.r8 hadm.n4 e (hadm.n2 _) _
  · by_cases h2 : j.val < 32
    · rw [dif_neg h1, dif_pos h2, concat3_second _ _ _ _ e j (by omega) h2]
      exact v51_at a0 a3 a4 a5 a8 hadm.r0 hadm.r5 hadm.r8 hadm.n4 e (hadm.n3 _) _
    · rw [dif_neg h1, dif_neg h2, concat3_third _ _ _ _ e j (by omega), v52_at a1 e]
      exact hadm.r1 _

/-! ## The 24 literals of an edge: flat f, clause f / 3, position f % 3 -/

/-- The clause of a flat literal. -/
abbrev cl (f : Fin 24) : Fin 8 := ⟨f.val / 3, by omega⟩
/-- Its position inside the clause. -/
abbrev ps (f : Fin 24) : Fin 3 := ⟨f.val % 3, by omega⟩

/-- Position k of clause c is the flat literal 3·c + k. -/
theorem ix3_flat (e : Fin 3200000) (c : ℕ) (hc : c < 8) (k : Fin 3) :
    (ix3 e (⟨c, hc⟩ : Fin 8) k) = ix3 e (cl ⟨3 * c + k.val, by omega⟩) (ps ⟨3 * c + k.val, by omega⟩) := by
  have h1 : cl ⟨3 * c + k.val, by omega⟩ = (⟨c, hc⟩ : Fin 8) := Fin.ext (by show (3 * c + k.val) / 3 = c; omega)
  have h2 : ps ⟨3 * c + k.val, by omega⟩ = k := Fin.ext (by show (3 * c + k.val) % 3 = k.val; omega)
  rw [h1, h2]

/-- The score of flat literal f on edge e: its polarity times the joined row's entry in its column. -/
def scR (e : Fin 3200000) (f : Fin 24) : ℝ :=
  Spec.sgB a7 f * Spec.joinedR a0 a1 a2 a3 a4 a5 a8 e (Spec.colB a6 f)

/-- The literal gather's dimension numbers are those of the column gather. -/
theorem cols_dims : gather_S3200000x33_S8x3x1_S3200000x8x3_0_1_n_n_1_2_32000001
    = colTakeDims 3200000 33 8 3 Facts₀.gather_S3200000x33_S8x3x1_S3200000x8x3_0_1_n_n_1_2_32000001_wf := rfl

/-- The wrapped literal-column table at (c, l) is the input word. -/
theorem v60_at (c : Fin 8) (l : Fin 3) (h : (a6 (ix2 c l)).toNat < 33) :
    val_main_v60 (F := Ideal) a6 (ix3 c l (0 : Fin 1)) = a6 (ix2 c l) := by
  have hi : idx_main_v60 (ix3 c l (0 : Fin 1)) = ix2 c l :=
    funext fun a => Fin.ext (by match a with | ⟨0, _⟩ => rfl | ⟨1, _⟩ => rfl)
  rw [val_main_v60_apply, val_main_v59_apply, val_main_v56_apply, val_main_v58_apply, hi]
  exact wrap_word _ _ (by omega)

/-- The gathered literal: the joined row's entry in literal f's column. -/
theorem v61_at (hadm : Spec.Adm a0 a1 a2 a3 a4 a5 a6 a7 a8 a9) (e : Fin 3200000) (f : Fin 24) :
    val_main_v61 (F := Ideal) a0 a1 a2 a3 a4 a5 a6 a8 (ix3 e (cl f) (ps f))
      = ((Spec.joinedR a0 a1 a2 a3 a4 a5 a8 e (Spec.colB a6 f) : ℝ) : EReal) := by
  unfold val_main_v61
  rw [cols_dims, gather_cols_apply (by decide)]
  have hn : (⟨min (val_main_v60 (F := Ideal) a6 (ix3 (cl f) (ps f) (0 : Fin 1))).toInt.toNat (33 - 1), by omega⟩ : Fin 33)
      = Spec.colB a6 f :=
    Fin.ext (by
      show min (val_main_v60 (F := Ideal) a6 (ix3 (cl f) (ps f) (0 : Fin 1))).toInt.toNat (33 - 1)
        = (a6 (ix2 (cl f) (ps f))).toNat % 33
      rw [v60_at a6 (cl f) (ps f) (hadm.n6 _)]
      exact clamp_word _ 33 (by norm_num) (hadm.n6 _))
  rw [hn]
  exact v53_at a0 a1 a2 a3 a4 a5 a6 a7 a8 a9 hadm e _

/-- Polarity times gathered literal: the score, a real number. -/
theorem v63_at (hadm : Spec.Adm a0 a1 a2 a3 a4 a5 a6 a7 a8 a9) (e : Fin 3200000) (f : Fin 24) :
    val_main_v63 (F := Ideal) a0 a1 a2 a3 a4 a5 a6 a7 a8 (ix3 e (cl f) (ps f)) = ((scR a0 a1 a2 a3 a4 a5 a6 a7 a8 e f : ℝ) : EReal) := by
  have hi : idx_main_v54 (idx_main_v62 (ix3 e (cl f) (ps f))) = ix2 (cl f) (ps f) :=
    funext fun a => Fin.ext (by match a with | ⟨0, _⟩ => rfl | ⟨1, _⟩ => rfl)
  rw [val_main_v63_apply, val_main_v62_apply, val_main_v54_apply, hi, v61_at a0 a1 a2 a3 a4 a5 a6 a7 a8 a9 hadm e f,
    hadm.r7 (ix2 (cl f) (ps f))]
  exact (EReal.coe_mul _ _).symm

/-- −∞ as the f32 word the maximum starts from. -/
theorem ofBits_neg_inf : Ideal.ofBits .f32 0xFF800000#32 = (⊥ : EReal) := by simp [Ideal.ofBits, Ideal.ieee]

/-- The reference's maximum-reduce over a clause's three positions, from −∞, over any operand, at (e, c). -/
theorem reduce_max_clause3 (x : FVec Ideal S3200000x8x3 .f32) (e : Fin 3200000) (c : Fin 8) :
    Host.reduce FloatOps.maximumf x (val_main_cst_12 (F := Ideal)) reducesTo_S3200000x8x3_S3200000x8_d2 h_S_ (ix2 e c)
      = (Finset.univ : Finset (Fin 3)).fold max (⊥ : EReal) (fun k => x (ix3 e c k)) := by
  have hR : S3200000x8x3.Reduces [2] S3200000x8 := by decide
  rw [reduce_max_last x _ reducesTo_S3200000x8x3_S3200000x8_d2 hR h_S_ e c, val_main_cst_12_apply, Ideal.ofBits_def,
    ofBits_neg_inf]

/-- The clause maximum (folded from −∞ over the clause's three scores, then joined with −∞ once more) is a real
    number. -/
theorem v67_real (hadm : Spec.Adm a0 a1 a2 a3 a4 a5 a6 a7 a8 a9) (e : Fin 3200000) (c : ℕ) (hc : c < 8) :
    ∃ μ : ℝ, val_main_v67 (F := Ideal) a0 a1 a2 a3 a4 a5 a6 a7 a8 (ix2 e (⟨c, hc⟩ : Fin 8)) = ((μ : ℝ) : EReal) := by
  obtain ⟨μ, hμ⟩ := Spec.fold_max_coe (n := 3) (by decide)
    (fun k => scR a0 a1 a2 a3 a4 a5 a6 a7 a8 e ⟨3 * c + k.val, by omega⟩)
  refine ⟨μ, ?_⟩
  have hf : (fun k : Fin 3 => val_main_v63 (F := Ideal) a0 a1 a2 a3 a4 a5 a6 a7 a8 (ix3 e (⟨c, hc⟩ : Fin 8) k))
      = fun k : Fin 3 => ((scR a0 a1 a2 a3 a4 a5 a6 a7 a8 e ⟨3 * c + k.val, by omega⟩ : ℝ) : EReal) := by
    funext k
    rw [ix3_flat e c hc k]
    exact v63_at a0 a1 a2 a3 a4 a5 a6 a7 a8 a9 hadm e ⟨3 * c + k.val, by omega⟩
  have h65 : val_main_v65 (F := Ideal) a0 a1 a2 a3 a4 a5 a6 a7 a8 (ix2 e (⟨c, hc⟩ : Fin 8)) = ((μ : ℝ) : EReal) := by
    unfold val_main_v65
    rw [reduce_max_clause3, hf]
    exact hμ
  rw [val_main_v67_apply, h65, val_main_v66_apply, val_main_cst_13_apply, Ideal.ofBits_def, ofBits_neg_inf,
    Ideal.maximumf_def]
  exact max_eq_right bot_le

/-- The exponential of the score less the clause maximum. -/
theorem v71_at (hadm : Spec.Adm a0 a1 a2 a3 a4 a5 a6 a7 a8 a9) (e : Fin 3200000) (f : Fin 24) :
    val_main_v71 (F := Ideal) a0 a1 a2 a3 a4 a5 a6 a7 a8 (ix3 e (cl f) (ps f))
      = Ideal.exp (((scR a0 a1 a2 a3 a4 a5 a6 a7 a8 e f : ℝ) : EReal)
          - val_main_v67 (F := Ideal) a0 a1 a2 a3 a4 a5 a6 a7 a8 (ix2 e (cl f))) := by
  have hi : idx_main_v68 (idx_main_v69 (ix3 e (cl f) (ps f))) = ix2 e (cl f) :=
    funext fun a => Fin.ext (by match a with | ⟨0, _⟩ => rfl | ⟨1, _⟩ => rfl)
  rw [val_main_v71_apply, val_main_v70_apply, val_main_v69_apply, val_main_v68_apply, hi, v63_at a0 a1 a2 a3 a4 a5 a6 a7 a8 a9 hadm e f,
    Ideal.hostUnary_exp_def, Ideal.subf_def]

/-- The clause sum of the exponentials, as a sum over all flat literals of those in the clause. -/
theorem v72_at (e : Fin 3200000) (c : ℕ) (hc : c < 8) :
    val_main_v72 (F := Ideal) a0 a1 a2 a3 a4 a5 a6 a7 a8 (ix2 e (⟨c, hc⟩ : Fin 8))
      = ∑ f' : Fin 24, if f'.val / 3 = c then val_main_v71 (F := Ideal) a0 a1 a2 a3 a4 a5 a6 a7 a8 (ix3 e (cl f') (ps f')) else 0 := by
  rw [val_main_v72_apply, val_main_cst_14_apply]
  show Ideal.ofBits .f32 0x00000000#32 + _ = _
  rw [Ideal.ofBits_zero_f32, zero_add,
    ← Spec.sum_clause3_nat (fun f' => val_main_v71 (F := Ideal) a0 a1 a2 a3 a4 a5 a6 a7 a8 (ix3 e (cl f') (ps f'))) c hc]
  refine Finset.sum_congr rfl (fun k _ => ?_)
  have hi : idx_main_v72 (ix2 e (⟨c, hc⟩ : Fin 8)) k = ix3 e (⟨c, hc⟩ : Fin 8) k :=
    funext fun a => Fin.ext (by match a with | ⟨0, _⟩ => rfl | ⟨1, _⟩ => rfl | ⟨2, _⟩ => rfl)
  rw [hi, ix3_flat e c hc k]

/-- The weighted, signed softmax of literal f, in the flat order of the reshape. -/
theorem v83_at (e : Fin 3200000) (f : Fin 24) :
    val_main_v83 (F := Ideal) a0 a1 a2 a3 a4 a5 a6 a7 a8 a9 (ix2 e f)
      = a9 (ix1 (cl f)) * Ideal.div (val_main_v71 (F := Ideal) a0 a1 a2 a3 a4 a5 a6 a7 a8 (ix3 e (cl f) (ps f)))
          (val_main_v72 (F := Ideal) a0 a1 a2 a3 a4 a5 a6 a7 a8 (ix2 e (cl f))) * a7 (ix2 (cl f) (ps f)) := by
  have h83 : idx_main_v83 (ix2 e f) = ix3 e (cl f) (ps f) := funext fun a => Fin.ext (by
    match a with
    | ⟨0, _⟩ => show (e.val * 24 + f.val) / 24 = e.val; omega
    | ⟨1, _⟩ => show (e.val * 24 + f.val) / 3 % 8 = f.val / 3; omega
    | ⟨2, _⟩ => show (e.val * 24 + f.val) % 3 = f.val % 3; omega)
  have h76 : idx_main_v64 (idx_main_v76 (ix3 e (cl f) (ps f))) = ix1 (cl f) :=
    funext fun a => Fin.ext (by match a with | ⟨0, _⟩ => rfl)
  have h79 : idx_main_v78 (idx_main_v79 (ix3 e (cl f) (ps f))) = ix2 (cl f) (ps f) :=
    funext fun a => Fin.ext (by match a with | ⟨0, _⟩ => rfl | ⟨1, _⟩ => rfl)
  have h74 : idx_main_v73 (idx_main_v74 (ix3 e (cl f) (ps f))) = ix2 e (cl f) :=
    funext fun a => Fin.ext (by match a with | ⟨0, _⟩ => rfl | ⟨1, _⟩ => rfl)
  rw [val_main_v83_apply, h83, val_main_v80_apply, val_main_v77_apply, val_main_v76_apply, val_main_v64_apply, h76,
    val_main_v79_apply, val_main_v78_apply, h79, val_main_v75_apply, val_main_v74_apply, val_main_v73_apply, h74,
    Ideal.mulf_def, Ideal.mulf_def, Ideal.hostDivf_def]

/-- The wrapped flat column list at literal f is the input word. -/
theorem v89_at (f : Fin 24) (h : (a6 (ix2 (cl f) (ps f))).toNat < 33) :
    val_main_v89 (F := Ideal) a6 (ix2 f (0 : Fin 1)) = a6 (ix2 (cl f) (ps f)) := by
  have hi : idx_main_v82 (idx_main_v89 (ix2 f (0 : Fin 1))) = ix2 (cl f) (ps f) :=
    funext fun a => Fin.ext (by match a with | ⟨0, _⟩ => rfl | ⟨1, _⟩ => rfl)
  rw [val_main_v89_apply, val_main_v88_apply, val_main_v85_apply, val_main_v87_apply, val_main_v82_apply, hi]
  exact wrap_word _ _ (by omega)

/-- The scatter's dimension numbers are those of the column scatter-add. -/
theorem scat_dims : scatter_S3200000x33_S24x1_S3200000x24_0_1_1_1
    = colAddDims 3200000 33 24 Facts₀.scatter_S3200000x33_S24x1_S3200000x24_0_1_1_1_wf := rfl

/-- The reference's scatter-add over any operand, index column and updates, at (e, d). -/
theorem scatterAdd_cols33 (x : FVec Ideal S3200000x33 .f32) (idx : IVec S24x1 32) (upd : FVec Ideal S3200000x24 .f32)
    (e : Fin 3200000) (d : Fin 33) :
    Host.scatterAdd (F := Ideal) scatter_S3200000x33_S24x1_S3200000x24_0_1_1_1 x idx upd (ix2 e d)
      = x (ix2 e d) + ∑ f : Fin 24, if (idx (ix2 f (0 : Fin 1))).toInt = (d.val : Int) then upd (ix2 e f) else 0 :=
  colAdd_apply Facts₀.scatter_S3200000x33_S24x1_S3200000x24_0_1_1_1_wf idx e x upd d

/-- The scatter-add onto zeros, at (e, d): the sum of the literals whose column word is d. -/
theorem v90_at (e : Fin 3200000) (d : Fin 33) :
    val_main_v90 (F := Ideal) a0 a1 a2 a3 a4 a5 a6 a7 a8 a9 (ix2 e d)
      = ∑ f : Fin 24, if (val_main_v89 (F := Ideal) a6 (ix2 f (0 : Fin 1))).toInt = (d.val : Int)
          then val_main_v83 (F := Ideal) a0 a1 a2 a3 a4 a5 a6 a7 a8 a9 (ix2 e f) else 0 := by
  unfold val_main_v90
  rw [scatterAdd_cols33, val_main_v81_apply, val_main_cst_15_apply, Ideal.ofBits_def, Ideal.ofBits_zero_f32, zero_add]

/-- With the clause maxima named, literal f's entry is the shifted softmax term of the law. -/
theorem term_at (hadm : Spec.Adm a0 a1 a2 a3 a4 a5 a6 a7 a8 a9) (e : Fin 3200000) (μ : Fin 8 → ℝ)
    (hμ : ∀ c : Fin 8, val_main_v67 (F := Ideal) a0 a1 a2 a3 a4 a5 a6 a7 a8 (ix2 e c) = ((μ c : ℝ) : EReal)) (f : Fin 24) :
    val_main_v83 (F := Ideal) a0 a1 a2 a3 a4 a5 a6 a7 a8 a9 (ix2 e f)
      = ((Spec.wB a9 f : ℝ) : EReal)
          * Ideal.div
              (Ideal.exp (((Spec.sgB a7 f * Spec.joinedR a0 a1 a2 a3 a4 a5 a8 e (Spec.colB a6 f) : ℝ) : EReal)
                - ((μ (cl f) : ℝ) : EReal)))
              (∑ f' : Fin 24, if f'.val / 3 = f.val / 3 then
                  Ideal.exp (((Spec.sgB a7 f' * Spec.joinedR a0 a1 a2 a3 a4 a5 a8 e (Spec.colB a6 f') : ℝ) : EReal)
                    - ((μ (cl f') : ℝ) : EReal))
                else 0)
          * ((Spec.sgB a7 f : ℝ) : EReal) := by
  have h71 : ∀ f' : Fin 24, val_main_v71 (F := Ideal) a0 a1 a2 a3 a4 a5 a6 a7 a8 (ix3 e (cl f') (ps f'))
      = Ideal.exp (((Spec.sgB a7 f' * Spec.joinedR a0 a1 a2 a3 a4 a5 a8 e (Spec.colB a6 f') : ℝ) : EReal)
          - ((μ (cl f') : ℝ) : EReal)) := fun f' => by
    rw [v71_at a0 a1 a2 a3 a4 a5 a6 a7 a8 a9 hadm e f', hμ (cl f')]
    rfl
  have h72 : val_main_v72 (F := Ideal) a0 a1 a2 a3 a4 a5 a6 a7 a8 (ix2 e (cl f))
      = ∑ f' : Fin 24, if f'.val / 3 = f.val / 3 then
          Ideal.exp (((Spec.sgB a7 f' * Spec.joinedR a0 a1 a2 a3 a4 a5 a8 e (Spec.colB a6 f') : ℝ) : EReal)
            - ((μ (cl f') : ℝ) : EReal))
        else 0 := by
    rw [v72_at a0 a1 a2 a3 a4 a5 a6 a7 a8 e (f.val / 3) (by omega)]
    exact Finset.sum_congr rfl (fun f' _ => by rw [h71 f'])
  have hw : a9 (ix1 (cl f)) = ((Spec.wB a9 f : ℝ) : EReal) := hadm.r9 _
  have hs : a7 (ix2 (cl f) (ps f)) = ((Spec.sgB a7 f : ℝ) : EReal) := hadm.r7 _
  rw [v83_at a0 a1 a2 a3 a4 a5 a6 a7 a8 a9 e f, h71 f, h72, hw, hs]

end Stages

end DB

theorem db_eq (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32) (hadm : Spec.Adm a0 a1 a2 a3 a4 a5 a6 a7 a8 a9) :
    val_main_v90 (F := Ideal) a0 a1 a2 a3 a4 a5 a6 a7 a8 a9 = Spec.DBarr a0 a1 a2 a3 a4 a5 a6 a7 a8 a9 := by
  funext i
  obtain ⟨e, d, rfl⟩ : ∃ (e : Fin 3200000) (d : Fin 33), i = ix2 e d := ⟨i 0, i 1, eq_ix2 i⟩
  -- the clause maxima of edge e, real numbers; the shift of a literal is its clause's maximum
  choose μ hμ using fun c : Fin 8 => DB.v67_real a0 a1 a2 a3 a4 a5 a6 a7 a8 a9 hadm e c.val c.isLt
  have hconst : ∀ f f' : Fin 24, f'.val / 3 = f.val / 3 → μ (DB.cl f') = μ (DB.cl f) :=
    fun f f' h => congrArg μ (Fin.ext h)
  rw [DB.v90_at]
  show _ = ((Spec.dbR a0 a1 a2 a3 a4 a5 a6 a7 a8 a9 e d : ℝ) : EReal)
  unfold Spec.dbR
  rw [← Spec.ke_shift (Spec.joinedR a0 a1 a2 a3 a4 a5 a8 e) (Spec.colB a6) (Spec.sgB a7) (Spec.wB a9)
    (fun f => f.val / 3) (fun f => μ (DB.cl f)) hconst d]
  refine Finset.sum_congr rfl (fun f _ => ?_)
  rw [DB.v89_at a6 f (hadm.n6 _)]
  by_cases hcol : Spec.colB a6 f = d
  · rw [if_pos hcol,
      if_pos ((DB.word_toInt_eq_iff _ 33 (by norm_num) (hadm.n6 _) d.val).mpr (congrArg Fin.val hcol))]
    exact DB.term_at a0 a1 a2 a3 a4 a5 a6 a7 a8 a9 hadm e μ hμ f
  · rw [if_neg hcol,
      if_neg (fun h => hcol (Fin.ext ((DB.word_toInt_eq_iff _ 33 (by norm_num) (hadm.n6 _) d.val).mp h)))]

end Cert.ReferenceIdeal.RefValue

end
-- ==== Proof.RefTail.lean ====
/-
  The reference's two results from u and the boost array: the slices of the boost, the two row scatters into zeros and
  the sums (the shared ending), and binary plus the boost's last column.
-/
import proofs.«427341_j23287312679568_3_alg».proof.Proof.RefDB

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The boost of an edge's joined row depends only on the edge and the joined column. -/
theorem dbR_congr (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32)
    {e e' : Fin 3200000} {j j' : Fin 33} (he : e = e') (hj : j = j') :
    Spec.dbR a0 a1 a2 a3 a4 a5 a6 a7 a8 a9 e j = Spec.dbR a0 a1 a2 a3 a4 a5 a6 a7 a8 a9 e' j' := by
  subst he; subst hj; rfl

/-- Columns 0..15 of the boost array: entry (e, d) of the slice is the boost of edge e in joined column d. -/
theorem sliceX_eq (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32) (hadm : Spec.Adm a0 a1 a2 a3 a4 a5 a6 a7 a8 a9) :
    val_main_v91 (F := Ideal) a0 a1 a2 a3 a4 a5 a6 a7 a8 a9 = Spec.UX a0 a1 a2 a3 a4 a5 a6 a7 a8 a9 := by
  funext i
  rw [val_main_v91_apply, db_eq a0 a1 a2 a3 a4 a5 a6 a7 a8 a9 hadm]
  show ((Spec.dbR a0 a1 a2 a3 a4 a5 a6 a7 a8 a9 _ _ : ℝ) : EReal) = ((Spec.dbR a0 a1 a2 a3 a4 a5 a6 a7 a8 a9 _ _ : ℝ) : EReal)
  exact congrArg (fun x : ℝ => (x : EReal)) (dbR_congr a0 a1 a2 a3 a4 a5 a6 a7 a8 a9 (Fin.ext rfl) (Fin.ext rfl))

/-- Columns 16..31 of the boost array: entry (e, d) of the slice is the boost of edge e in joined column 16 + d. -/
theorem sliceY_eq (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32) (hadm : Spec.Adm a0 a1 a2 a3 a4 a5 a6 a7 a8 a9) :
    val_main_v92 (F := Ideal) a0 a1 a2 a3 a4 a5 a6 a7 a8 a9 = Spec.UY a0 a1 a2 a3 a4 a5 a6 a7 a8 a9 := by
  funext i
  rw [val_main_v92_apply, db_eq a0 a1 a2 a3 a4 a5 a6 a7 a8 a9 hadm]
  show ((Spec.dbR a0 a1 a2 a3 a4 a5 a6 a7 a8 a9 _ _ : ℝ) : EReal) = ((Spec.dbR a0 a1 a2 a3 a4 a5 a6 a7 a8 a9 _ _ : ℝ) : EReal)
  exact congrArg (fun x : ℝ => (x : EReal)) (dbR_congr a0 a1 a2 a3 a4 a5 a6 a7 a8 a9 (Fin.ext rfl) (Fin.ext rfl))

/-- The two zero arrays the row scatters start from are the array of zeros. -/
theorem zerosX_eq : val_main_v95 (F := Ideal) = Spec.zerosN := rfl
theorem zerosY_eq : val_main_v103 (F := Ideal) = Spec.zerosN := rfl

/-- The column of row indices of the first scatter: a negative word has the extent added, then the column axis is
    inserted. -/
theorem wrapX_eq (a : IVec Spec.SE 32) : val_main_v101 (F := Ideal) a = Spec.wrapRows a := rfl
/-- The same for the second scatter. -/
theorem wrapY_eq (a : IVec Spec.SE 32) : val_main_v109 (F := Ideal) a = Spec.wrapRows a := rfl

/-- Both scatters assign whole rows of 16: the update's column axis is the window, the row axis is indexed. -/
theorem scat_eq : scatter_S100000x16_S3200000x1_S3200000x16_1_0_0_1 = Spec.scatRows := rfl

/-- First result: u plus the two row scatters of the boost's first and second 16 columns into zeros. Each scatter
    has the same five arguments on the two sides, so the scatters themselves agree. -/
theorem resU_eq (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32) (hadm : Spec.Adm a0 a1 a2 a3 a4 a5 a6 a7 a8 a9) :
    val_main_v112 (F := Ideal) a0 a1 a2 a3 a4 a5 a6 a7 a8 a9 = Spec.resU a0 a1 a2 a3 a4 a5 a6 a7 a8 a9 := by
  have hU := u_eq a0 a4 a5 a8 hadm.r0 hadm.r5 hadm.r8 hadm.n4
  have hX := sliceX_eq a0 a1 a2 a3 a4 a5 a6 a7 a8 a9 hadm
  have hY := sliceY_eq a0 a1 a2 a3 a4 a5 a6 a7 a8 a9 hadm
  unfold val_main_v112 val_main_v111 val_main_v102 val_main_v110 Spec.resU Spec.tailU
  rw [hU, hX, hY, zerosX_eq, zerosY_eq, wrapX_eq a2, wrapY_eq a3, scat_eq]
/-- Second result: entry e is binary e plus the boost of edge e in the last joined column (the one-column slice at
    column 32, its unit axis dropped). -/
theorem resB_eq (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32) (hadm : Spec.Adm a0 a1 a2 a3 a4 a5 a6 a7 a8 a9) :
    val_main_v113 (F := Ideal) a0 a1 a2 a3 a4 a5 a6 a7 a8 a9 = Spec.resB a0 a1 a2 a3 a4 a5 a6 a7 a8 a9 := by
  funext i
  rw [val_main_v113_apply, val_main_v94_apply, val_main_v93_apply, db_eq a0 a1 a2 a3 a4 a5 a6 a7 a8 a9 hadm]
  show a1 i + ((Spec.dbR a0 a1 a2 a3 a4 a5 a6 a7 a8 a9 _ _ : ℝ) : EReal) = a1 i + ((Spec.dbR a0 a1 a2 a3 a4 a5 a6 a7 a8 a9 _ _ : ℝ) : EReal)
  refine congrArg (fun x : ℝ => a1 i + (x : EReal)) (dbR_congr a0 a1 a2 a3 a4 a5 a6 a7 a8 a9 (Fin.ext ?_) (Fin.ext ?_))
  · exact Nat.div_one _
  · rfl

end Cert.ReferenceIdeal.RefValue

end
-- ==== Proof.PreDecode.lean ====
/-
  The precondition read as facts: where the printed predicate is all ones, every float input is a real number (its
  absolute value lies below +∞) and every index word, read as a signed integer, lies in [0, extent).
-/
import proofs.«427341_j23287312679568_3_alg».proof.Pre_finite_inputs
import proofs.«427341_j23287312679568_3_alg».proof.Proof.Gen.Pre_finite_inputs
import proofs.«427341_j23287312679568_3_alg».proof.Proof.Spec
import Idealize.ShloMosaic.Lib.ReduceAll
import Idealize.ShloMosaic.Lib.StableHlo.Predicate

noncomputable section

namespace Cert.Spec

open Idealize.ShloMosaic Idealize.ShloMosaic.ValueIdx

/-- The shape with no axes has exactly one index: there is no coordinate on which two of its indices could differ. -/
instance subsingleton_scalar_idx : Subsingleton Cert.Pre_finite_inputs.S_.Idx :=
  ⟨fun a b => funext fun d => d.elim0⟩

/-! ## One word -/

/-- A truth value written as a one-bit word that is 1 was true. -/
theorem bool_of_bit_one {b : Bool} (h : BitVec.ofBool b = 1#1) : b = true := by
  cases b
  · exact absurd h (by decide)
  · rfl

/-- The f32 pattern with all exponent bits set and no fraction bit denotes +∞. -/
theorem ofBits_pos_inf : Ideal.ofBits .f32 0x7F800000#32 = (⊤ : EReal) := by
  simp [Ideal.ofBits, Ideal.ieee]

/-- An extended real x with max x (−x) < +∞ is neither infinity (x = +∞ makes the first operand +∞, x = −∞ the second),
    so it is the real number x.toReal. -/
theorem real_of_abs_lt_top (x : EReal) (h : max x (-x) < ⊤) : x = ((x.toReal : ℝ) : EReal) := by
  obtain ⟨hx, hnx⟩ := max_lt_iff.1 h
  have hbot : x ≠ ⊥ := by
    intro hb
    rw [hb, EReal.neg_bot] at hnx
    exact lt_irrefl _ hnx
  exact (EReal.coe_toReal (ne_of_lt hx) hbot).symm

/-- The element test of the precondition on a float: |x| < +∞ (the host's absolute value, the ordered less-than, the
    pattern of +∞) holding says x is a real number. -/
theorem real_of_test (x : Ideal .f32)
    (h : FloatOps.cmpf .olt (FloatOps.hostAbsf x) (FloatOps.ofBits (F := Ideal) .f32 0x7F800000#32) = 1#1) :
    x = (((x : EReal).toReal : ℝ) : EReal) := by
  have h' : BitVec.ofBool (decide (max (x : EReal) (-(x : EReal)) < Ideal.ofBits .f32 0x7F800000#32)) = 1#1 := h
  rw [ofBits_pos_inf] at h'
  exact real_of_abs_lt_top x (of_decide_eq_true (bool_of_bit_one h'))

/-- The two element tests of the precondition on an index word: 0 ≤ w and w < n as signed integers, n below 2³¹.  A word
    that reads signed as nonnegative has its top bit clear, so it reads the same unsigned; hence w.toNat < n. -/
theorem toNat_lt_of_tests (w : BitVec 32) (n : ℕ) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have hc := BitVec.toInt_eq_toNat_cond w
  split at hc <;> omega

/-! ## One array: the test at every index, out of the conjunction over all indices -/

section Arrays

variable {s : Shape} {axes : List (Fin s.rank)}
  (hb : Cert.Pre_finite_inputs.S_.BroadcastsInDim s (![] : Fin 0 → Fin s.rank))
  (hr : s.ReducesTo axes Cert.Pre_finite_inputs.S_) (hu : 0 < Cert.Pre_finite_inputs.S_.numel)

/-- "All |a i| < +∞" is 1: every entry of a is a real number.  Nothing here depends on the extent of the array. -/
theorem real_of_all (a : FVec Ideal s .f32) (init : IVec Cert.Pre_finite_inputs.S_ 1)
    (h : Host.reduce IntOp.andi
          (cmpf .olt (Host.absf a) (broadcastInDim s ![] hb (constant (F := Ideal) Cert.Pre_finite_inputs.S_ .f32 0x7F800000#32)))
          init hr hu ix0 = 1#1) (i : s.Idx) :
    a i = (((a i).toReal : ℝ) : EReal) :=
  real_of_test (a i) (Host.reduce_andi_all _ init hr hu ix0 h i)

/-- "All 0 ≤ a i" and "all a i < n" are 1: every word of a, as a natural number, lies below n. -/
theorem lt_of_all (a : IVec s 32) (n : ℕ) (hn : n < 2 ^ 31) (init0 init1 : IVec Cert.Pre_finite_inputs.S_ 1)
    (h0 : Host.reduce IntOp.andi
          (cmpi .sge a (broadcastInDim s ![] hb (constantI Cert.Pre_finite_inputs.S_ 32 0#32))) init0 hr hu ix0 = 1#1)
    (h1 : Host.reduce IntOp.andi
          (cmpi .slt a (broadcastInDim s ![] hb (constantI Cert.Pre_finite_inputs.S_ 32 (BitVec.ofNat 32 n)))) init1 hr hu ix0 = 1#1)
    (i : s.Idx) : (a i).toNat < n :=
  toNat_lt_of_tests (a i) n hn (Host.reduce_andi_all _ init0 hr hu ix0 h0 i) (Host.reduce_andi_all _ init1 hr hu ix0 h1 i)

end Arrays

/-- The conjunction of two one-bit scalars, read at the scalar's one index. -/
theorem andi_scalar (x y : IVec Cert.Pre_finite_inputs.S_ 1) (j : Cert.Pre_finite_inputs.S_.Idx) :
    andi x y j = 1#1 ↔ x j = 1#1 ∧ y j = 1#1 := IntOp.andi_eq_one

/-! ## The precondition: a chain of fourteen conjunctions, one per test and array -/

theorem adm_of_pre (a0 : FVec Ideal Spec.SN16 .f32) (a1 : FVec Ideal Spec.SE .f32) (a2 a3 : IVec Spec.SE 32) (a4 : IVec Spec.S8x2 32) (a5 : FVec Ideal Spec.S8x2 .f32) (a6 : IVec Spec.S8x3 32) (a7 : FVec Ideal Spec.S8x3 .f32) (a8 a9 : FVec Ideal Spec.S8 .f32)
    (h : Cert.Pre_finite_inputs.fn (F := Ideal) a0 a1 a2 a3 a4 a5 a6 a7 a8 a9 = (fun _ => 1#1)) :
    Adm a0 a1 a2 a3 a4 a5 a6 a7 a8 a9 := by
  have e := congrFun h ix0
  dsimp only [Cert.Pre_finite_inputs.fn, Cert.Pre_finite_inputs.fn_part1, Cert.Pre_finite_inputs.fn_part2,
    Cert.Pre_finite_inputs.fn_part3] at e
  simp only [andi_scalar] at e
  obtain ⟨⟨⟨⟨⟨⟨⟨⟨⟨⟨⟨⟨⟨f0, f1⟩, f5⟩, f7⟩, f8⟩, f9⟩, g2⟩, l2⟩, g3⟩, l3⟩, g4⟩, l4⟩, g6⟩, l6⟩ := e
  exact
    { r0 := real_of_all _ _ _ a0 _ f0
      r1 := real_of_all _ _ _ a1 _ f1
      r5 := real_of_all _ _ _ a5 _ f5
      r7 := real_of_all _ _ _ a7 _ f7
      r8 := real_of_all _ _ _ a8 _ f8
      r9 := real_of_all _ _ _ a9 _ f9
      n2 := lt_of_all _ _ _ a2 100000 (by decide) _ _ g2 l2
      n3 := lt_of_all _ _ _ a3 100000 (by decide) _ _ g3 l3
      n4 := lt_of_all _ _ _ a4 16 (by decide) _ _ g4 l4
      n6 := lt_of_all _ _ _ a6 33 (by decide) _ _ g6 l6 }

end Cert.Spec

end
-- ==== Proof.lean ====
/-
  A relational knowledge enhancer over a graph, certified equal to its reference over the extended reals.

  Each of 100000 nodes carries 16 pre-activations and each of 3200000 edges one.  Eight unary clauses of two literals
  boost every node row: inside a clause the literals' signed pre-activations pass through a softmax, and each literal's
  share, times the clause weight and the literal's polarity, is added onto the column the literal reads.  Then every
  edge joins its two (boosted) node rows and its own pre-activation into a row of 33, and eight binary clauses of three
  literals boost that row in the same way.  The first node's 16 columns of the boost are assigned to that node's row, the
  second node's to its row (an edge later in order overwrites an earlier one at the same node), and both are added to
  the boosted node tensor; the edge's own column of the boost is added to its pre-activation.

  The kernel does the column gather, the sum inside a clause and the scatter-add as products with small 0/1 tables, and
  stabilises every softmax of a row with the row's one maximum; the reference gathers and scatters by index and
  subtracts each clause's own maximum.  Over the reals a softmax does not see a shift that is constant on its clause, so
  both are the plain quotient exp / Σ exp (Proof/KeLaw.lean), and a product with a 0/1 table is the gather or the sum
  it spells.  The two programs end in the same assignments and sums, applied to equal arrays.

  The equality needs every float input finite and every index inside the axis it indexes (outside it the reference's
  own gather leaves its array): that is what the precondition says (Proof/PreDecode.lean).
-/
import proofs.«427341_j23287312679568_3_alg».proof.Defs
import proofs.«427341_j23287312679568_3_alg».proof.Proof.Gen.Kernel
import proofs.«427341_j23287312679568_3_alg».proof.Proof.Gen.Kernel.Frame
import proofs.«427341_j23287312679568_3_alg».proof.Proof.Gen.KernelIdeal
import proofs.«427341_j23287312679568_3_alg».proof.Proof.Gen.KernelIdeal.Frame
import proofs.«427341_j23287312679568_3_alg».proof.Proof.Gen.ReferenceIdeal
import proofs.«427341_j23287312679568_3_alg».proof.Proof.Gen.Pre_finite_inputs
import proofs.«427341_j23287312679568_3_alg».proof.Proof.KValue
import proofs.«427341_j23287312679568_3_alg».proof.Proof.RefTail
import proofs.«427341_j23287312679568_3_alg».proof.Proof.RefRunThm
import proofs.«427341_j23287312679568_3_alg».proof.Proof.PreDecode
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten for the ideal reading. -/
theorem preserves : Cert.preserves_Kernel_KernelIdeal := trivial

/-- Both idealized programs end with the specification's two arrays of the (agreeing) arguments. -/
theorem algebraic : Cert.algebraic_KernelIdeal_ReferenceIdeal := by
  intro m ρ m' ρ' hpre hagree
  have hadm : ∀ c, Cert.KernelIdeal.KV.AdmK m c := fun c => Cert.Spec.adm_of_pre _ _ _ _ _ _ _ _ _ _ (hpre c)
  refine ⟨_, _, Cert.KernelIdeal.KV.run m ρ hadm, ?_⟩
  refine (θ_run Cert.ReferenceIdeal.defs _ _).mono (fun r h c => ?_) (Cert.ReferenceIdeal.Value.run (F := Ideal) m' ρ')
  obtain ⟨h1, h2, hrest⟩ := h c
  refine ⟨?_, ?_, hrest⟩
  · rw [h1, Cert.ReferenceIdeal.Read.val_main_v112_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.ReferenceIdeal.RefValue.resU_eq _ _ _ _ _ _ _ _ _ _ (hadm c)
  · rw [h2, Cert.ReferenceIdeal.Read.val_main_v113_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.ReferenceIdeal.RefValue.resB_eq _ _ _ _ _ _ _ _ _ _ (hadm c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
